-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v289) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x12x256 : Shape := ⟨4, ![16, 512, 12, 256]⟩
abbrev S256x256 : Shape := ⟨2, ![256, 256]⟩
abbrev S256 : Shape := ⟨1, ![256]⟩
abbrev S_ : Shape := ⟨0, ![]⟩

class Facts : Prop where
  bcast_S_S16x512x12x256 : S_.BroadcastsInDim S16x512x12x256 (![] : Fin 0 → Fin S16x512x12x256.rank)
  reducesTo_S16x512x12x256_S_d0_1_2_3 : S16x512x12x256.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S16x512x12x256 .f32) (main_arg1 : FVec F S256x256 .f32) (main_arg2 : FVec F S256 .f32) : IVec S_ 1 :=
  let main_v0 : FVec F S16x512x12x256 .f32 := Host.absf main_arg0
  let main_cst : FVec F S_ .f32 := constant S_ .f32 0x7F800000#32
  let main_v1 : FVec F S16x512x12x256 .f32 := broadcastInDim S16x512x12x256 ![] bcast_S_S16x512x12x256 main_cst
  let main_v2 : IVec S16x512x12x256 1 := cmpf .olt main_v0 main_v1
  let main_c : IVec S_ 1 := constantI S_ 1 1#1
  let main_v3 : IVec S_ 1 := (fun x v => Host.reduce IntOp.andi x v reducesTo_S16x512x12x256_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S16x512x12x256 : Shape := ⟨4, ![16, 512, 12, 256]⟩
abbrev S256x256 : Shape := ⟨2, ![256, 256]⟩
abbrev S256 : Shape := ⟨1, ![256]⟩
abbrev S16x512x3072 : Shape := ⟨3, ![16, 512, 3072]⟩
abbrev S1x256 : Shape := ⟨2, ![1, 256]⟩
abbrev S1x512x256 : Shape := ⟨3, ![1, 512, 256]⟩
abbrev S512x256 : Shape := ⟨2, ![512, 256]⟩
abbrev S512x512 : Shape := ⟨2, ![512, 512]⟩
abbrev S512 : Shape := ⟨1, ![512]⟩
abbrev S512x1 : Shape := ⟨2, ![512, 1]⟩

abbrev nBuf : Space → Nat
  | .hbm => 8
  | .vmem => 6
  | .smem => 0
  | _ => 0

abbrev bufTy : (tb : Table) → Fin (tcTables nBuf tb) → BufTy
  | .hbm, ⟨0, _⟩ => ⟨S16x512x12x256, .f32⟩
  | .hbm, ⟨1, _⟩ => ⟨S256x256, .f32⟩
  | .hbm, ⟨2, _⟩ => ⟨S256, .f32⟩
  | .hbm, ⟨3, _⟩ => ⟨S16x512x3072, .f32⟩
  | .hbm, ⟨4, _⟩ => ⟨S256x256, .bf16⟩
  | .hbm, ⟨5, _⟩ => ⟨S1x256, .f32⟩
  | .hbm, ⟨6, _⟩ => ⟨S16x512x3072, .f32⟩
  | .hbm, ⟨7, _⟩ => ⟨S16x512x12x256, .f32⟩
  | .local _ .vmem, ⟨0, _⟩ => ⟨S1x512x256, .f32⟩
  | .local _ .vmem, ⟨1, _⟩ => ⟨S1x512x256, .f32⟩
  | .local _ .vmem, ⟨2, _⟩ => ⟨S256x256, .bf16⟩
  | .local _ .vmem, ⟨3, _⟩ => ⟨S1x256, .f32⟩
  | .local _ .vmem, ⟨4, _⟩ => ⟨S1x512x256, .f32⟩
  | .local _ .vmem, ⟨5, _⟩ => ⟨S1x512x256, .f32⟩
  | _, _ => ⟨S16x512x12x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 12], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S16x512x12x256_S16x512x3072 : S16x512x12x256.ShapeCasts S16x512x3072
  bitsLt_bf16_f32 : FTy.bits .bf16 < FTy.bits .f32
  shapeCasts_S256_S1x256 : S256.ShapeCasts S1x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  reduces_S512x512_S512 : S512x512.Reduces [1] S512
  shapeCasts_S512_S512x1 : S512.ShapeCasts S512x1
  broadcasts_S512x1_S512x512 : S512x1.Broadcasts S512x512
  broadcasts_S512x1_S512x256 : S512x1.Broadcasts S512x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S256 : S1x256.ShapeCasts S256
  broadcasts_S1x256_S512x256 : S1x256.Broadcasts S512x256
  shapeCasts_S512x256_S1x512x256 : S512x256.ShapeCasts S1x512x256
  shapeCasts_S16x512x3072_S16x512x12x256 : S16x512x3072.ShapeCasts S16x512x12x256
  dot_S512x256_S512x256_S512x512_1_1_0_0_n_n_wf : DotDims.WF S512x256 S512x256 S512x512 [1] [1] [0] [0] [] []
  dot_S512x512_S512x256_S512x256_1_0_0_1_n_n_wf : DotDims.WF S512x512 S512x256 S512x256 [1] [0] [0] [1] [] []
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S16x512x3072.size a
  hwx0_0 : ∀ i : grid0.Coords, EltTy.bits .f32 = 32 ∨ (Rect.block (s := S16x512x3072) S1x512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x256.size a ≤ S16x512x3072.size a
  hwx0_3 : ∀ i : grid0.Coords, EltTy.bits .f32 = 32 ∨ (Rect.block (s := S16x512x3072) S1x512x256.size (cc0_transform_3 i) (hinb0_3 i)).WholeWords (EltTy.packing .f32)

variable [Facts₀]

def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_v0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x512x12x256 : Shape := ⟨4, ![16, 512, 12, 256]⟩
abbrev S256x256 : Shape := ⟨2, ![256, 256]⟩
abbrev S256 : Shape := ⟨1, ![256]⟩
abbrev S_ : Shape := ⟨0, ![]⟩
abbrev S16x512x1x256 : Shape := ⟨4, ![16, 512, 1, 256]⟩
abbrev S16x512x256 : Shape := ⟨3, ![16, 512, 256]⟩
abbrev S16x512x512 : Shape := ⟨3, ![16, 512, 512]⟩
abbrev S16x512 : Shape := ⟨2, ![16, 512]⟩
abbrev S16x512x1 : Shape := ⟨3, ![16, 512, 1]⟩
abbrev S1x1x256 : Shape := ⟨3, ![1, 1, 256]⟩

abbrev nBuf : Space → Nat
  | .hbm => 378
  | .vmem => 0
  | .smem => 0
  | _ => 0

abbrev hbmTy0_0 (i : Nat) : BufTy := match i % 128 with
  | 0 => ⟨S16x512x12x256, .f32⟩
  | 1 => ⟨S256x256, .f32⟩
  | 2 => ⟨S256, .f32⟩
  | 3 => ⟨S_, .f32⟩
  | 4 => ⟨S_, .f32⟩
  | 5 => ⟨S16x512x1x256, .f32⟩
  | 6 => ⟨S16x512x256, .f32⟩
  | 7 => ⟨S16x512x512, .f32⟩
  | 8 => ⟨S16x512x512, .f32⟩
  | 9 => ⟨S16x512x512, .f32⟩
  | 10 => ⟨S_, .f32⟩
  | 11 => ⟨S16x512x512, .f32⟩
  | 12 => ⟨S16x512x512, .f32⟩
  | 13 => ⟨S_, .f32⟩
  | 14 => ⟨S16x512, .f32⟩
  | 15 => ⟨S_, .f32⟩
  | 16 => ⟨S16x512, .f32⟩
  | 17 => ⟨S16x512, .f32⟩
  | 18 => ⟨S16x512x1, .f32⟩
  | 19 => ⟨S16x512x512, .f32⟩
  | 20 => ⟨S16x512x512, .f32⟩
  | 21 => ⟨S16x512x512, .f32⟩
  | 22 => ⟨S_, .f32⟩
  | 23 => ⟨S16x512, .f32⟩
  | 24 => ⟨S16x512x1, .f32⟩
  | 25 => ⟨S16x512x512, .f32⟩
  | 26 => ⟨S16x512x512, .f32⟩
  | 27 => ⟨S16x512x256, .f32⟩
  | 28 => ⟨S16x512x256, .f32⟩
  | 29 => ⟨S1x1x256, .f32⟩
  | 30 => ⟨S16x512x256, .f32⟩
  | 31 => ⟨S16x512x256, .f32⟩
  | 32 => ⟨S_, .f32⟩
  | 33 => ⟨S16x512x256, .f32⟩
  | 34 => ⟨S16x512x256, .f32⟩
  | 35 => ⟨S16x512x1x256, .f32⟩
  | 36 => ⟨S16x512x256, .f32⟩
  | 37 => ⟨S16x512x512, .f32⟩
  | 38 => ⟨S16x512x512, .f32⟩
  | 39 => ⟨S16x512x512, .f32⟩
  | 40 => ⟨S_, .f32⟩
  | 41 => ⟨S16x512x512, .f32⟩
  | 42 => ⟨S16x512x512, .f32⟩
  | 43 => ⟨S_, .f32⟩
  | 44 => ⟨S16x512, .f32⟩
  | 45 => ⟨S_, .f32⟩
  | 46 => ⟨S16x512, .f32⟩
  | 47 => ⟨S16x512, .f32⟩
  | 48 => ⟨S16x512x1, .f32⟩
  | 49 => ⟨S16x512x512, .f32⟩
  | 50 => ⟨S16x512x512, .f32⟩
  | 51 => ⟨S16x512x512, .f32⟩
  | 52 => ⟨S_, .f32⟩
  | 53 => ⟨S16x512, .f32⟩
  | 54 => ⟨S16x512x1, .f32⟩
  | 55 => ⟨S16x512x512, .f32⟩
  | 56 => ⟨S16x512x512, .f32⟩
  | 57 => ⟨S16x512x256, .f32⟩
  | 58 => ⟨S16x512x256, .f32⟩
  | 59 => ⟨S1x1x256, .f32⟩
  | 60 => ⟨S16x512x256, .f32⟩
  | 61 => ⟨S16x512x256, .f32⟩
  | 62 => ⟨S_, .f32⟩
  | 63 => ⟨S16x512x256, .f32⟩
  | 64 => ⟨S16x512x256, .f32⟩
  | 65 => ⟨S16x512x1x256, .f32⟩
  | 66 => ⟨S16x512x256, .f32⟩
  | 67 => ⟨S16x512x512, .f32⟩
  | 68 => ⟨S16x512x512, .f32⟩
  | 69 => ⟨S16x512x512, .f32⟩
  | 70 => ⟨S_, .f32⟩
  | 71 => ⟨S16x512x512, .f32⟩
  | 72 => ⟨S16x512x512, .f32⟩
  | 73 => ⟨S_, .f32⟩
  | 74 => ⟨S16x512, .f32⟩
  | 75 => ⟨S_, .f32⟩
  | 76 => ⟨S16x512, .f32⟩
  | 77 => ⟨S16x512, .f32⟩
  | 78 => ⟨S16x512x1, .f32⟩
  | 79 => ⟨S16x512x512, .f32⟩
  | 80 => ⟨S16x512x512, .f32⟩
  | 81 => ⟨S16x512x512, .f32⟩
  | 82 => ⟨S_, .f32⟩
  | 83 => ⟨S16x512, .f32⟩
  | 84 => ⟨S16x512x1, .f32⟩
  | 85 => ⟨S16x512x512, .f32⟩
  | 86 => ⟨S16x512x512, .f32⟩
  | 87 => ⟨S16x512x256, .f32⟩
  | 88 => ⟨S16x512x256, .f32⟩
  | 89 => ⟨S1x1x256, .f32⟩
  | 90 => ⟨S16x512x256, .f32⟩
  | 91 => ⟨S16x512x256, .f32⟩
  | 92 => ⟨S_, .f32⟩
  | 93 => ⟨S16x512x256, .f32⟩
  | 94 => ⟨S16x512x256, .f32⟩
  | 95 => ⟨S16x512x1x256, .f32⟩
  | 96 => ⟨S16x512x256, .f32⟩
  | 97 => ⟨S16x512x512, .f32⟩
  | 98 => ⟨S16x512x512, .f32⟩
  | 99 => ⟨S16x512x512, .f32⟩
  | 100 => ⟨S_, .f32⟩
  | 101 => ⟨S16x512x512, .f32⟩
  | 102 => ⟨S16x512x512, .f32⟩
  | 103 => ⟨S_, .f32⟩
  | 104 => ⟨S16x512, .f32⟩
  | 105 => ⟨S_, .f32⟩
  | 106 => ⟨S16x512, .f32⟩
  | 107 => ⟨S16x512, .f32⟩
  | 108 => ⟨S16x512x1, .f32⟩
  | 109 => ⟨S16x512x512, .f32⟩
  | 110 => ⟨S16x512x512, .f32⟩
  | 111 => ⟨S16x512x512, .f32⟩
  | 112 => ⟨S_, .f32⟩
  | 113 => ⟨S16x512, .f32⟩
  | 114 => ⟨S16x512x1, .f32⟩
  | 115 => ⟨S16x512x512, .f32⟩
  | 116 => ⟨S16x512x512, .f32⟩
  | 117 => ⟨S16x512x256, .f32⟩
  | 118 => ⟨S16x512x256, .f32⟩
  | 119 => ⟨S1x1x256, .f32⟩
  | 120 => ⟨S16x512x256, .f32⟩
  | 121 => ⟨S16x512x256, .f32⟩
  | 122 => ⟨S_, .f32⟩
  | 123 => ⟨S16x512x256, .f32⟩
  | 124 => ⟨S16x512x256, .f32⟩
  | 125 => ⟨S16x512x1x256, .f32⟩
  | 126 => ⟨S16x512x256, .f32⟩
  | 127 => ⟨S16x512x512, .f32⟩
  | _ => ⟨S16x512x12x256, .f32⟩

abbrev hbmTy0_1 (i : Nat) : BufTy := match i % 128 with
  | 0 => ⟨S16x512x512, .f32⟩
  | 1 => ⟨S16x512x512, .f32⟩
  | 2 => ⟨S_, .f32⟩
  | 3 => ⟨S16x512x512, .f32⟩
  | 4 => ⟨S16x512x512, .f32⟩
  | 5 => ⟨S_, .f32⟩
  | 6 => ⟨S16x512, .f32⟩
  | 7 => ⟨S_, .f32⟩
  | 8 => ⟨S16x512, .f32⟩
  | 9 => ⟨S16x512, .f32⟩
  | 10 => ⟨S16x512x1, .f32⟩
  | 11 => ⟨S16x512x512, .f32⟩
  | 12 => ⟨S16x512x512, .f32⟩
  | 13 => ⟨S16x512x512, .f32⟩
  | 14 => ⟨S_, .f32⟩
  | 15 => ⟨S16x512, .f32⟩
  | 16 => ⟨S16x512x1, .f32⟩
  | 17 => ⟨S16x512x512, .f32⟩
  | 18 => ⟨S16x512x512, .f32⟩
  | 19 => ⟨S16x512x256, .f32⟩
  | 20 => ⟨S16x512x256, .f32⟩
  | 21 => ⟨S1x1x256, .f32⟩
  | 22 => ⟨S16x512x256, .f32⟩
  | 23 => ⟨S16x512x256, .f32⟩
  | 24 => ⟨S_, .f32⟩
  | 25 => ⟨S16x512x256, .f32⟩
  | 26 => ⟨S16x512x256, .f32⟩
  | 27 => ⟨S16x512x1x256, .f32⟩
  | 28 => ⟨S16x512x256, .f32⟩
  | 29 => ⟨S16x512x512, .f32⟩
  | 30 => ⟨S16x512x512, .f32⟩
  | 31 => ⟨S16x512x512, .f32⟩
  | 32 => ⟨S_, .f32⟩
  | 33 => ⟨S16x512x512, .f32⟩
  | 34 => ⟨S16x512x512, .f32⟩
  | 35 => ⟨S_, .f32⟩
  | 36 => ⟨S16x512, .f32⟩
  | 37 => ⟨S_, .f32⟩
  | 38 => ⟨S16x512, .f32⟩
  | 39 => ⟨S16x512, .f32⟩
  | 40 => ⟨S16x512x1, .f32⟩
  | 41 => ⟨S16x512x512, .f32⟩
  | 42 => ⟨S16x512x512, .f32⟩
  | 43 => ⟨S16x512x512, .f32⟩
  | 44 => ⟨S_, .f32⟩
  | 45 => ⟨S16x512, .f32⟩
  | 46 => ⟨S16x512x1, .f32⟩
  | 47 => ⟨S16x512x512, .f32⟩
  | 48 => ⟨S16x512x512, .f32⟩
  | 49 => ⟨S16x512x256, .f32⟩
  | 50 => ⟨S16x512x256, .f32⟩
  | 51 => ⟨S1x1x256, .f32⟩
  | 52 => ⟨S16x512x256, .f32⟩
  | 53 => ⟨S16x512x256, .f32⟩
  | 54 => ⟨S_, .f32⟩
  | 55 => ⟨S16x512x256, .f32⟩
  | 56 => ⟨S16x512x256, .f32⟩
  | 57 => ⟨S16x512x1x256, .f32⟩
  | 58 => ⟨S16x512x256, .f32⟩
  | 59 => ⟨S16x512x512, .f32⟩
  | 60 => ⟨S16x512x512, .f32⟩
  | 61 => ⟨S16x512x512, .f32⟩
  | 62 => ⟨S_, .f32⟩
  | 63 => ⟨S16x512x512, .f32⟩
  | 64 => ⟨S16x512x512, .f32⟩
  | 65 => ⟨S_, .f32⟩
  | 66 => ⟨S16x512, .f32⟩
  | 67 => ⟨S_, .f32⟩
  | 68 => ⟨S16x512, .f32⟩
  | 69 => ⟨S16x512, .f32⟩
  | 70 => ⟨S16x512x1, .f32⟩
  | 71 => ⟨S16x512x512, .f32⟩
  | 72 => ⟨S16x512x512, .f32⟩
  | 73 => ⟨S16x512x512, .f32⟩
  | 74 => ⟨S_, .f32⟩
  | 75 => ⟨S16x512, .f32⟩
  | 76 => ⟨S16x512x1, .f32⟩
  | 77 => ⟨S16x512x512, .f32⟩
  | 78 => ⟨S16x512x512, .f32⟩
  | 79 => ⟨S16x512x256, .f32⟩
  | 80 => ⟨S16x512x256, .f32⟩
  | 81 => ⟨S1x1x256, .f32⟩
  | 82 => ⟨S16x512x256, .f32⟩
  | 83 => ⟨S16x512x256, .f32⟩
  | 84 => ⟨S_, .f32⟩
  | 85 => ⟨S16x512x256, .f32⟩
  | 86 => ⟨S16x512x256, .f32⟩
  | 87 => ⟨S16x512x1x256, .f32⟩
  | 88 => ⟨S16x512x256, .f32⟩
  | 89 => ⟨S16x512x512, .f32⟩
  | 90 => ⟨S16x512x512, .f32⟩
  | 91 => ⟨S16x512x512, .f32⟩
  | 92 => ⟨S_, .f32⟩
  | 93 => ⟨S16x512x512, .f32⟩
  | 94 => ⟨S16x512x512, .f32⟩
  | 95 => ⟨S_, .f32⟩
  | 96 => ⟨S16x512, .f32⟩
  | 97 => ⟨S_, .f32⟩
  | 98 => ⟨S16x512, .f32⟩
  | 99 => ⟨S16x512, .f32⟩
  | 100 => ⟨S16x512x1, .f32⟩
  | 101 => ⟨S16x512x512, .f32⟩
  | 102 => ⟨S16x512x512, .f32⟩
  | 103 => ⟨S16x512x512, .f32⟩
  | 104 => ⟨S_, .f32⟩
  | 105 => ⟨S16x512, .f32⟩
  | 106 => ⟨S16x512x1, .f32⟩
  | 107 => ⟨S16x512x512, .f32⟩
  | 108 => ⟨S16x512x512, .f32⟩
  | 109 => ⟨S16x512x256, .f32⟩
  | 110 => ⟨S16x512x256, .f32⟩
  | 111 => ⟨S1x1x256, .f32⟩
  | 112 => ⟨S16x512x256, .f32⟩
  | 113 => ⟨S16x512x256, .f32⟩
  | 114 => ⟨S_, .f32⟩
  | 115 => ⟨S16x512x256, .f32⟩
  | 116 => ⟨S16x512x256, .f32⟩
  | 117 => ⟨S16x512x1x256, .f32⟩
  | 118 => ⟨S16x512x256, .f32⟩
  | 119 => ⟨S16x512x512, .f32⟩
  | 120 => ⟨S16x512x512, .f32⟩
  | 121 => ⟨S16x512x512, .f32⟩
  | 122 => ⟨S_, .f32⟩
  | 123 => ⟨S16x512x512, .f32⟩
  | 124 => ⟨S16x512x512, .f32⟩
  | 125 => ⟨S_, .f32⟩
  | 126 => ⟨S16x512, .f32⟩
  | 127 => ⟨S_, .f32⟩
  | _ => ⟨S16x512x12x256, .f32⟩

abbrev hbmTy0_2 (i : Nat) : BufTy := match i % 128 with
  | 0 => ⟨S16x512, .f32⟩
  | 1 => ⟨S16x512, .f32⟩
  | 2 => ⟨S16x512x1, .f32⟩
  | 3 => ⟨S16x512x512, .f32⟩
  | 4 => ⟨S16x512x512, .f32⟩
  | 5 => ⟨S16x512x512, .f32⟩
  | 6 => ⟨S_, .f32⟩
  | 7 => ⟨S16x512, .f32⟩
  | 8 => ⟨S16x512x1, .f32⟩
  | 9 => ⟨S16x512x512, .f32⟩
  | 10 => ⟨S16x512x512, .f32⟩
  | 11 => ⟨S16x512x256, .f32⟩
  | 12 => ⟨S16x512x256, .f32⟩
  | 13 => ⟨S1x1x256, .f32⟩
  | 14 => ⟨S16x512x256, .f32⟩
  | 15 => ⟨S16x512x256, .f32⟩
  | 16 => ⟨S_, .f32⟩
  | 17 => ⟨S16x512x256, .f32⟩
  | 18 => ⟨S16x512x256, .f32⟩
  | 19 => ⟨S16x512x1x256, .f32⟩
  | 20 => ⟨S16x512x256, .f32⟩
  | 21 => ⟨S16x512x512, .f32⟩
  | 22 => ⟨S16x512x512, .f32⟩
  | 23 => ⟨S16x512x512, .f32⟩
  | 24 => ⟨S_, .f32⟩
  | 25 => ⟨S16x512x512, .f32⟩
  | 26 => ⟨S16x512x512, .f32⟩
  | 27 => ⟨S_, .f32⟩
  | 28 => ⟨S16x512, .f32⟩
  | 29 => ⟨S_, .f32⟩
  | 30 => ⟨S16x512, .f32⟩
  | 31 => ⟨S16x512, .f32⟩
  | 32 => ⟨S16x512x1, .f32⟩
  | 33 => ⟨S16x512x512, .f32⟩
  | 34 => ⟨S16x512x512, .f32⟩
  | 35 => ⟨S16x512x512, .f32⟩
  | 36 => ⟨S_, .f32⟩
  | 37 => ⟨S16x512, .f32⟩
  | 38 => ⟨S16x512x1, .f32⟩
  | 39 => ⟨S16x512x512, .f32⟩
  | 40 => ⟨S16x512x512, .f32⟩
  | 41 => ⟨S16x512x256, .f32⟩
  | 42 => ⟨S16x512x256, .f32⟩
  | 43 => ⟨S1x1x256, .f32⟩
  | 44 => ⟨S16x512x256, .f32⟩
  | 45 => ⟨S16x512x256, .f32⟩
  | 46 => ⟨S_, .f32⟩
  | 47 => ⟨S16x512x256, .f32⟩
  | 48 => ⟨S16x512x256, .f32⟩
  | 49 => ⟨S16x512x1x256, .f32⟩
  | 50 => ⟨S16x512x256, .f32⟩
  | 51 => ⟨S16x512x512, .f32⟩
  | 52 => ⟨S16x512x512, .f32⟩
  | 53 => ⟨S16x512x512, .f32⟩
  | 54 => ⟨S_, .f32⟩
  | 55 => ⟨S16x512x512, .f32⟩
  | 56 => ⟨S16x512x512, .f32⟩
  | 57 => ⟨S_, .f32⟩
  | 58 => ⟨S16x512, .f32⟩
  | 59 => ⟨S_, .f32⟩
  | 60 => ⟨S16x512, .f32⟩
  | 61 => ⟨S16x512, .f32⟩
  | 62 => ⟨S16x512x1, .f32⟩
  | 63 => ⟨S16x512x512, .f32⟩
  | 64 => ⟨S16x512x512, .f32⟩
  | 65 => ⟨S16x512x512, .f32⟩
  | 66 => ⟨S_, .f32⟩
  | 67 => ⟨S16x512, .f32⟩
  | 68 => ⟨S16x512x1, .f32⟩
  | 69 => ⟨S16x512x512, .f32⟩
  | 70 => ⟨S16x512x512, .f32⟩
  | 71 => ⟨S16x512x256, .f32⟩
  | 72 => ⟨S16x512x256, .f32⟩
  | 73 => ⟨S1x1x256, .f32⟩
  | 74 => ⟨S16x512x256, .f32⟩
  | 75 => ⟨S16x512x256, .f32⟩
  | 76 => ⟨S_, .f32⟩
  | 77 => ⟨S16x512x256, .f32⟩
  | 78 => ⟨S16x512x256, .f32⟩
  | 79 => ⟨S16x512x1x256, .f32⟩
  | 80 => ⟨S16x512x256, .f32⟩
  | 81 => ⟨S16x512x512, .f32⟩
  | 82 => ⟨S16x512x512, .f32⟩
  | 83 => ⟨S16x512x512, .f32⟩
  | 84 => ⟨S_, .f32⟩
  | 85 => ⟨S16x512x512, .f32⟩
  | 86 => ⟨S16x512x512, .f32⟩
  | 87 => ⟨S_, .f32⟩
  | 88 => ⟨S16x512, .f32⟩
  | 89 => ⟨S_, .f32⟩
  | 90 => ⟨S16x512, .f32⟩
  | 91 => ⟨S16x512, .f32⟩
  | 92 => ⟨S16x512x1, .f32⟩
  | 93 => ⟨S16x512x512, .f32⟩
  | 94 => ⟨S16x512x512, .f32⟩
  | 95 => ⟨S16x512x512, .f32⟩
  | 96 => ⟨S_, .f32⟩
  | 97 => ⟨S16x512, .f32⟩
  | 98 => ⟨S16x512x1, .f32⟩
  | 99 => ⟨S16x512x512, .f32⟩
  | 100 => ⟨S16x512x512, .f32⟩
  | 101 => ⟨S16x512x256, .f32⟩
  | 102 => ⟨S16x512x256, .f32⟩
  | 103 => ⟨S1x1x256, .f32⟩
  | 104 => ⟨S16x512x256, .f32⟩
  | 105 => ⟨S16x512x256, .f32⟩
  | 106 => ⟨S_, .f32⟩
  | 107 => ⟨S16x512x256, .f32⟩
  | 108 => ⟨S16x512x256, .f32⟩
  | 109 => ⟨S16x512x1x256, .f32⟩
  | 110 => ⟨S16x512x1x256, .f32⟩
  | 111 => ⟨S16x512x1x256, .f32⟩
  | 112 => ⟨S16x512x1x256, .f32⟩
  | 113 => ⟨S16x512x1x256, .f32⟩
  | 114 => ⟨S16x512x1x256, .f32⟩
  | 115 => ⟨S16x512x1x256, .f32⟩
  | 116 => ⟨S16x512x1x256, .f32⟩
  | 117 => ⟨S16x512x1x256, .f32⟩
  | 118 => ⟨S16x512x1x256, .f32⟩
  | 119 => ⟨S16x512x1x256, .f32⟩
  | 120 => ⟨S16x512x1x256, .f32⟩
  | 121 => ⟨S16x512x12x256, .f32⟩
  | _ => ⟨S16x512x12x256, .f32⟩

abbrev hbmTy (i : Nat) : BufTy := match i / 128 with
  | 0 => hbmTy0_0 i
  | 1 => hbmTy0_1 i
  | 2 => hbmTy0_2 i
  | _ => ⟨S16x512x12x256, .f32⟩

abbrev bufTy : (tb : Table) → Fin (tcTables nBuf tb) → BufTy
  | .hbm, ⟨i, _⟩ => hbmTy i
  | _, _ => ⟨S16x512x12x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call1_cst : Ref sig .tc := ⟨.hbm, 32, rfl⟩
abbrev main_call1_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call2_cst : Ref sig .tc := ⟨.hbm, 40, rfl⟩
abbrev main_call2_v0 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call3_cst : Ref sig .tc := ⟨.hbm, 62, rfl⟩
abbrev main_call3_v0 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_call4_cst : Ref sig .tc := ⟨.hbm, 70, rfl⟩
abbrev main_call4_v0 : Ref sig .tc := ⟨.hbm, 71, rfl⟩
abbrev main_v52 : Ref sig .tc := ⟨.hbm, 72, rfl⟩
abbrev main_cst_6 : Ref sig .tc := ⟨.hbm, 73, rfl⟩
abbrev main_v53 : Ref sig .tc := ⟨.hbm, 74, rfl⟩
abbrev main_cst_7 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_8 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_call5_cst : Ref sig .tc := ⟨.hbm, 92, rfl⟩
abbrev main_call5_v0 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_call6_cst : Ref sig .tc := ⟨.hbm, 100, rfl⟩
abbrev main_call6_v0 : Ref sig .tc := ⟨.hbm, 101, rfl⟩
abbrev main_v75 : Ref sig .tc := ⟨.hbm, 102, rfl⟩
abbrev main_cst_9 : Ref sig .tc := ⟨.hbm, 103, rfl⟩
abbrev main_v76 : Ref sig .tc := ⟨.hbm, 104, rfl⟩
abbrev main_cst_10 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_11 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_call7_cst : Ref sig .tc := ⟨.hbm, 122, rfl⟩
abbrev main_call7_v0 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_call8_cst : Ref sig .tc := ⟨.hbm, 130, rfl⟩
abbrev main_call8_v0 : Ref sig .tc := ⟨.hbm, 131, rfl⟩
abbrev main_v98 : Ref sig .tc := ⟨.hbm, 132, rfl⟩
abbrev main_cst_12 : Ref sig .tc := ⟨.hbm, 133, rfl⟩
abbrev main_v99 : Ref sig .tc := ⟨.hbm, 134, rfl⟩
abbrev main_cst_13 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_cst_14 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_call9_cst : Ref sig .tc := ⟨.hbm, 152, rfl⟩
abbrev main_call9_v0 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_call10_cst : Ref sig .tc := ⟨.hbm, 160, rfl⟩
abbrev main_call10_v0 : Ref sig .tc := ⟨.hbm, 161, rfl⟩
abbrev main_v121 : Ref sig .tc := ⟨.hbm, 162, rfl⟩
abbrev main_cst_15 : Ref sig .tc := ⟨.hbm, 163, rfl⟩
abbrev main_v122 : Ref sig .tc := ⟨.hbm, 164, rfl⟩
abbrev main_cst_16 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_cst_17 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_call11_cst : Ref sig .tc := ⟨.hbm, 182, rfl⟩
abbrev main_call11_v0 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_call12_cst : Ref sig .tc := ⟨.hbm, 190, rfl⟩
abbrev main_call12_v0 : Ref sig .tc := ⟨.hbm, 191, rfl⟩
abbrev main_v144 : Ref sig .tc := ⟨.hbm, 192, rfl⟩
abbrev main_cst_18 : Ref sig .tc := ⟨.hbm, 193, rfl⟩
abbrev main_v145 : Ref sig .tc := ⟨.hbm, 194, rfl⟩
abbrev main_cst_19 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_cst_20 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_call13_cst : Ref sig .tc := ⟨.hbm, 212, rfl⟩
abbrev main_call13_v0 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_call14_cst : Ref sig .tc := ⟨.hbm, 220, rfl⟩
abbrev main_call14_v0 : Ref sig .tc := ⟨.hbm, 221, rfl⟩
abbrev main_v167 : Ref sig .tc := ⟨.hbm, 222, rfl⟩
abbrev main_cst_21 : Ref sig .tc := ⟨.hbm, 223, rfl⟩
abbrev main_v168 : Ref sig .tc := ⟨.hbm, 224, rfl⟩
abbrev main_cst_22 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_cst_23 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_call15_cst : Ref sig .tc := ⟨.hbm, 242, rfl⟩
abbrev main_call15_v0 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_call16_cst : Ref sig .tc := ⟨.hbm, 250, rfl⟩
abbrev main_call16_v0 : Ref sig .tc := ⟨.hbm, 251, rfl⟩
abbrev main_v190 : Ref sig .tc := ⟨.hbm, 252, rfl⟩
abbrev main_cst_24 : Ref sig .tc := ⟨.hbm, 253, rfl⟩
abbrev main_v191 : Ref sig .tc := ⟨.hbm, 254, rfl⟩
abbrev main_cst_25 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩
abbrev main_cst_26 : Ref sig .tc := ⟨.hbm, 262, rfl⟩
abbrev main_v198 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_v206 : Ref sig .tc := ⟨.hbm, 271, rfl⟩
abbrev main_call17_cst : Ref sig .tc := ⟨.hbm, 272, rfl⟩
abbrev main_call17_v0 : Ref sig .tc := ⟨.hbm, 273, rfl⟩
abbrev main_v207 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_v212 : Ref sig .tc := ⟨.hbm, 279, rfl⟩
abbrev main_call18_cst : Ref sig .tc := ⟨.hbm, 280, rfl⟩
abbrev main_call18_v0 : Ref sig .tc := ⟨.hbm, 281, rfl⟩
abbrev main_v213 : Ref sig .tc := ⟨.hbm, 282, rfl⟩
abbrev main_cst_27 : Ref sig .tc := ⟨.hbm, 283, rfl⟩
abbrev main_v214 : Ref sig .tc := ⟨.hbm, 284, rfl⟩
abbrev main_cst_28 : Ref sig .tc := ⟨.hbm, 285, rfl⟩
abbrev main_v215 : Ref sig .tc := ⟨.hbm, 286, rfl⟩
abbrev main_v216 : Ref sig .tc := ⟨.hbm, 287, rfl⟩
abbrev main_v217 : Ref sig .tc := ⟨.hbm, 288, rfl⟩
abbrev main_v218 : Ref sig .tc := ⟨.hbm, 289, rfl⟩
abbrev main_v219 : Ref sig .tc := ⟨.hbm, 290, rfl⟩
abbrev main_v220 : Ref sig .tc := ⟨.hbm, 291, rfl⟩
abbrev main_cst_29 : Ref sig .tc := ⟨.hbm, 292, rfl⟩
abbrev main_v221 : Ref sig .tc := ⟨.hbm, 293, rfl⟩
abbrev main_v222 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_v226 : Ref sig .tc := ⟨.hbm, 298, rfl⟩
abbrev main_v227 : Ref sig .tc := ⟨.hbm, 299, rfl⟩
abbrev main_v228 : Ref sig .tc := ⟨.hbm, 300, rfl⟩
abbrev main_v229 : Ref sig .tc := ⟨.hbm, 301, rfl⟩
abbrev main_call19_cst : Ref sig .tc := ⟨.hbm, 302, rfl⟩
abbrev main_call19_v0 : Ref sig .tc := ⟨.hbm, 303, rfl⟩
abbrev main_v230 : Ref sig .tc := ⟨.hbm, 304, rfl⟩
abbrev main_v231 : Ref sig .tc := ⟨.hbm, 305, rfl⟩
abbrev main_v232 : Ref sig .tc := ⟨.hbm, 306, rfl⟩
abbrev main_v233 : Ref sig .tc := ⟨.hbm, 307, rfl⟩
abbrev main_v234 : Ref sig .tc := ⟨.hbm, 308, rfl⟩
abbrev main_v235 : Ref sig .tc := ⟨.hbm, 309, rfl⟩
abbrev main_call20_cst : Ref sig .tc := ⟨.hbm, 310, rfl⟩
abbrev main_call20_v0 : Ref sig .tc := ⟨.hbm, 311, rfl⟩
abbrev main_v236 : Ref sig .tc := ⟨.hbm, 312, rfl⟩
abbrev main_cst_30 : Ref sig .tc := ⟨.hbm, 313, rfl⟩
abbrev main_v237 : Ref sig .tc := ⟨.hbm, 314, rfl⟩
abbrev main_cst_31 : Ref sig .tc := ⟨.hbm, 315, rfl⟩
abbrev main_v238 : Ref sig .tc := ⟨.hbm, 316, rfl⟩
abbrev main_v239 : Ref sig .tc := ⟨.hbm, 317, rfl⟩
abbrev main_v240 : Ref sig .tc := ⟨.hbm, 318, rfl⟩
abbrev main_v241 : Ref sig .tc := ⟨.hbm, 319, rfl⟩
abbrev main_v242 : Ref sig .tc := ⟨.hbm, 320, rfl⟩
abbrev main_v243 : Ref sig .tc := ⟨.hbm, 321, rfl⟩
abbrev main_cst_32 : Ref sig .tc := ⟨.hbm, 322, rfl⟩
abbrev main_v244 : Ref sig .tc := ⟨.hbm, 323, rfl⟩
abbrev main_v245 : Ref sig .tc := ⟨.hbm, 324, rfl⟩
abbrev main_v246 : Ref sig .tc := ⟨.hbm, 325, rfl⟩
abbrev main_v247 : Ref sig .tc := ⟨.hbm, 326, rfl⟩
abbrev main_v248 : Ref sig .tc := ⟨.hbm, 327, rfl⟩
abbrev main_v249 : Ref sig .tc := ⟨.hbm, 328, rfl⟩
abbrev main_v250 : Ref sig .tc := ⟨.hbm, 329, rfl⟩
abbrev main_v251 : Ref sig .tc := ⟨.hbm, 330, rfl⟩
abbrev main_v252 : Ref sig .tc := ⟨.hbm, 331, rfl⟩
abbrev main_call21_cst : Ref sig .tc := ⟨.hbm, 332, rfl⟩
abbrev main_call21_v0 : Ref sig .tc := ⟨.hbm, 333, rfl⟩
abbrev main_v253 : Ref sig .tc := ⟨.hbm, 334, rfl⟩
abbrev main_v254 : Ref sig .tc := ⟨.hbm, 335, rfl⟩
abbrev main_v255 : Ref sig .tc := ⟨.hbm, 336, rfl⟩
abbrev main_v256 : Ref sig .tc := ⟨.hbm, 337, rfl⟩
abbrev main_v257 : Ref sig .tc := ⟨.hbm, 338, rfl⟩
abbrev main_v258 : Ref sig .tc := ⟨.hbm, 339, rfl⟩
abbrev main_call22_cst : Ref sig .tc := ⟨.hbm, 340, rfl⟩
abbrev main_call22_v0 : Ref sig .tc := ⟨.hbm, 341, rfl⟩
abbrev main_v259 : Ref sig .tc := ⟨.hbm, 342, rfl⟩
abbrev main_cst_33 : Ref sig .tc := ⟨.hbm, 343, rfl⟩
abbrev main_v260 : Ref sig .tc := ⟨.hbm, 344, rfl⟩
abbrev main_cst_34 : Ref sig .tc := ⟨.hbm, 345, rfl⟩
abbrev main_v261 : Ref sig .tc := ⟨.hbm, 346, rfl⟩
abbrev main_v262 : Ref sig .tc := ⟨.hbm, 347, rfl⟩
abbrev main_v263 : Ref sig .tc := ⟨.hbm, 348, rfl⟩
abbrev main_v264 : Ref sig .tc := ⟨.hbm, 349, rfl⟩
abbrev main_v265 : Ref sig .tc := ⟨.hbm, 350, rfl⟩
abbrev main_v266 : Ref sig .tc := ⟨.hbm, 351, rfl⟩
abbrev main_cst_35 : Ref sig .tc := ⟨.hbm, 352, rfl⟩
abbrev main_v267 : Ref sig .tc := ⟨.hbm, 353, rfl⟩
abbrev main_v268 : Ref sig .tc := ⟨.hbm, 354, rfl⟩
abbrev main_v269 : Ref sig .tc := ⟨.hbm, 355, rfl⟩
abbrev main_v270 : Ref sig .tc := ⟨.hbm, 356, rfl⟩
abbrev main_v271 : Ref sig .tc := ⟨.hbm, 357, rfl⟩
abbrev main_v272 : Ref sig .tc := ⟨.hbm, 358, rfl⟩
abbrev main_v273 : Ref sig .tc := ⟨.hbm, 359, rfl⟩
abbrev main_v274 : Ref sig .tc := ⟨.hbm, 360, rfl⟩
abbrev main_v275 : Ref sig .tc := ⟨.hbm, 361, rfl⟩
abbrev main_call23_cst : Ref sig .tc := ⟨.hbm, 362, rfl⟩
abbrev main_call23_v0 : Ref sig .tc := ⟨.hbm, 363, rfl⟩
abbrev main_v276 : Ref sig .tc := ⟨.hbm, 364, rfl⟩
abbrev main_v277 : Ref sig .tc := ⟨.hbm, 365, rfl⟩
abbrev main_v278 : Ref sig .tc := ⟨.hbm, 366, rfl⟩
abbrev main_v279 : Ref sig .tc := ⟨.hbm, 367, rfl⟩
abbrev main_v280 : Ref sig .tc := ⟨.hbm, 368, rfl⟩
abbrev main_v281 : Ref sig .tc := ⟨.hbm, 369, rfl⟩
abbrev main_v282 : Ref sig .tc := ⟨.hbm, 370, rfl⟩
abbrev main_v283 : Ref sig .tc := ⟨.hbm, 371, rfl⟩
abbrev main_v284 : Ref sig .tc := ⟨.hbm, 372, rfl⟩
abbrev main_v285 : Ref sig .tc := ⟨.hbm, 373, rfl⟩
abbrev main_v286 : Ref sig .tc := ⟨.hbm, 374, rfl⟩
abbrev main_v287 : Ref sig .tc := ⟨.hbm, 375, rfl⟩
abbrev main_v288 : Ref sig .tc := ⟨.hbm, 376, rfl⟩
abbrev main_v289 : Ref sig .tc := ⟨.hbm, 377, rfl⟩

abbrev nD : Nat := 1
abbrev τ : Topo := Topo.v7x

variable {F : FTy → Type} [FloatOps F]

class Facts₀ : Prop where
  slices_S16x512x12x256_S16x512x1x256_0_0_0_0 : S16x512x12x256.Slices ![0, 0, 0, 0] S16x512x1x256
  shapeCasts_S16x512x1x256_S16x512x256 : S16x512x1x256.ShapeCasts S16x512x256
  bcast_S_S16x512x512 : S_.BroadcastsInDim S16x512x512 (![] : Fin 0 → Fin S16x512x512.rank)
  reducesTo_S16x512x512_S16x512_d2 : S16x512x512.ReducesTo [2] S16x512
  h_S_ : 0 < S_.numel
  bcast_S_S16x512 : S_.BroadcastsInDim S16x512 (![] : Fin 0 → Fin S16x512.rank)
  bcast_S16x512_S16x512x1_0_1 : S16x512.BroadcastsInDim S16x512x1 (![0, 1] : Fin 2 → Fin S16x512x1.rank)
  bcast_S16x512x1_S16x512x512_0_1_2 : S16x512x1.BroadcastsInDim S16x512x512 (![0, 1, 2] : Fin 3 → Fin S16x512x512.rank)
  bcast_S256_S1x1x256_2 : S256.BroadcastsInDim S1x1x256 (![2] : Fin 1 → Fin S1x1x256.rank)
  bcast_S1x1x256_S16x512x256_0_1_2 : S1x1x256.BroadcastsInDim S16x512x256 (![0, 1, 2] : Fin 3 → Fin S16x512x256.rank)
  bcast_S_S16x512x256 : S_.BroadcastsInDim S16x512x256 (![] : Fin 0 → Fin S16x512x256.rank)
  slices_S16x512x12x256_S16x512x1x256_0_0_1_0 : S16x512x12x256.Slices ![0, 0, 1, 0] S16x512x1x256
  slices_S16x512x12x256_S16x512x1x256_0_0_2_0 : S16x512x12x256.Slices ![0, 0, 2, 0] S16x512x1x256
  slices_S16x512x12x256_S16x512x1x256_0_0_3_0 : S16x512x12x256.Slices ![0, 0, 3, 0] S16x512x1x256
  slices_S16x512x12x256_S16x512x1x256_0_0_4_0 : S16x512x12x256.Slices ![0, 0, 4, 0] S16x512x1x256
  slices_S16x512x12x256_S16x512x1x256_0_0_5_0 : S16x512x12x256.Slices ![0, 0, 5, 0] S16x512x1x256
  slices_S16x512x12x256_S16x512x1x256_0_0_6_0 : S16x512x12x256.Slices ![0, 0, 6, 0] S16x512x1x256
  slices_S16x512x12x256_S16x512x1x256_0_0_7_0 : S16x512x12x256.Slices ![0, 0, 7, 0] S16x512x1x256
  slices_S16x512x12x256_S16x512x1x256_0_0_8_0 : S16x512x12x256.Slices ![0, 0, 8, 0] S16x512x1x256
  slices_S16x512x12x256_S16x512x1x256_0_0_9_0 : S16x512x12x256.Slices ![0, 0, 9, 0] S16x512x1x256
  slices_S16x512x12x256_S16x512x1x256_0_0_10_0 : S16x512x12x256.Slices ![0, 0, 10, 0] S16x512x1x256
  slices_S16x512x12x256_S16x512x1x256_0_0_11_0 : S16x512x12x256.Slices ![0, 0, 11, 0] S16x512x1x256
  bcast_S16x512x256_S16x512x1x256_0_1_3 : S16x512x256.BroadcastsInDim S16x512x1x256 (![0, 1, 3] : Fin 3 → Fin S16x512x1x256.rank)
  concatenates_S16x512x1x256_S16x512x1x256_S16x512x1x256_S16x512x1x256_S16x512x1x256_S16x512x1x256_S16x512x1x256_S16x512x1x256_S16x512x1x256_S16x512x1x256_S16x512x1x256_S16x512x1x256_S16x512x12x256_d2 : Shape.Concatenates [S16x512x1x256, S16x512x1x256, S16x512x1x256, S16x512x1x256, S16x512x1x256, S16x512x1x256, S16x512x1x256, S16x512x1x256, S16x512x1x256, S16x512x1x256, S16x512x1x256, S16x512x1x256] S16x512x12x256 2
  dot_S16x512x256_S16x512x256_S16x512x512_2_2_1_1_0_0_wf : DotDims.WF S16x512x256 S16x512x256 S16x512x512 [2] [2] [1] [1] [0] [0]
  dot_S16x512x512_S16x512x256_S16x512x256_2_1_1_2_0_0_wf : DotDims.WF S16x512x512 S16x512x256 S16x512x256 [2] [1] [1] [2] [0] [0]
  dot_S16x512x256_S256x256_S16x512x256_2_0_01_1_n_n_wf : DotDims.WF S16x512x256 S256x256 S16x512x256 [2] [0] [0, 1] [1] [] []

variable [Facts₀]

def dot_S16x512x256_S16x512x256_S16x512x512_2_2_1_1_0_0 : DotDims S16x512x256 S16x512x256 S16x512x512 where
  lhsContracting := [2]
  rhsContracting := [2]
  lhsNonContracting := [1]
  rhsNonContracting := [1]
  lhsBatch := [0]
  rhsBatch := [0]
  wf := dot_S16x512x256_S16x512x256_S16x512x512_2_2_1_1_0_0_wf
def dot_S16x512x512_S16x512x256_S16x512x256_2_1_1_2_0_0 : DotDims S16x512x512 S16x512x256 S16x512x256 where
  lhsContracting := [2]
  rhsContracting := [1]
  lhsNonContracting := [1]
  rhsNonContracting := [2]
  lhsBatch := [0]
  rhsBatch := [0]
  wf := dot_S16x512x512_S16x512x256_S16x512x256_2_1_1_2_0_0_wf
def dot_S16x512x256_S256x256_S16x512x256_2_0_01_1_n_n : DotDims S16x512x256 S256x256 S16x512x256 where
  lhsContracting := [2]
  rhsContracting := [0]
  lhsNonContracting := [0, 1]
  rhsNonContracting := [1]
  lhsBatch := []
  rhsBatch := []
  wf := dot_S16x512x256_S256x256_S16x512x256_2_0_01_1_n_n_wf

class Facts : Prop extends Facts₀ where

variable [Facts]
-- ==== Proof.GcnSpec.lean ====
/-
  The graph-convolution layer with an adjacency computed from the features, for ONE slice of nodes, as
  plain formulas over the extended reals.

  A slice is a matrix X of 512 nodes by 256 features. Its similarity scores are the Gram matrix X Xᵀ scaled
  by 1/√256 = 1/16 and clipped below at 0; each row of scores is turned into softmax weights
  e(n, m) / Σₘ e(n, m), with e(n, m) = exp (score(n, m) − maxₘ score(n, m)); the weights aggregate the nodes'
  features, the aggregate goes through the linear map W with bias b, and the result is clipped below at 0.

  Two arrangements of this one computation are written out. In the first the Gram matrix is MULTIPLIED
  by the number 1/16, and the aggregate Σₘ e(n, m) · X(m, d) is formed from the unnormalized weights and
  divided by the row sum afterwards. In the second the Gram matrix is DIVIDED by √256, the row maximum is
  once more compared with −∞, the row sum starts from an explicit 0, and each weight is divided by the row
  sum before it multiplies a feature. The two agree whenever every entry of X is a real number: then every
  score, every e(n, m) and every row sum is a real number, the row sum is positive, and dividing a finite sum
  by a positive real is dividing each of its terms.
-/
import Idealize.ShloMosaic.PureOps.Ideal
import Idealize.ShloMosaic.PureOps.Ideal.Laws
import Mathlib.Data.EReal.Operations
import Mathlib.Data.EReal.Inv
import Mathlib.Analysis.SpecialFunctions.Exp
import Mathlib.Analysis.SpecialFunctions.Sqrt
import Mathlib.Algebra.BigOperators.Group.Finset.Basic
import Mathlib.Data.Finset.Fold

noncomputable section

namespace Gcn

open Idealize.ShloMosaic
open scoped BigOperators

/-! ### The four numbers the two programs spell as bit patterns -/

/-- The pattern of 0.0625 = 2⁻⁴. -/
def cScale : EReal := Ideal.ofBits .f32 0x3D800000#32
/-- The pattern of +0.0. -/
def cZero : EReal := Ideal.ofBits .f32 0x00000000#32
/-- The pattern of −∞. -/
def cNegInf : EReal := Ideal.ofBits .f32 0xFF800000#32
/-- The pattern of 256.0 = 2⁸. -/
def c256 : EReal := Ideal.ofBits .f32 0x43800000#32

theorem cScale_eq : cScale = (((1 : ℝ) / 16 : ℝ) : EReal) := by
  unfold cScale
  simp [Ideal.ofBits, Ideal.ieee, -EReal.coe_mul]; norm_num

theorem cZero_eq : cZero = 0 := Ideal.ofBits_zero_f32

theorem cNegInf_eq : cNegInf = ⊥ := by
  unfold cNegInf
  simp [Ideal.ofBits, Ideal.ieee]

theorem c256_eq : c256 = ((256 : ℝ) : EReal) := by
  unfold c256
  simp [Ideal.ofBits, Ideal.ieee, -EReal.coe_mul]; norm_num

/-- The pattern with every exponent bit set and no fraction bit denotes +∞. -/
theorem ofBits_posInf : Ideal.ofBits .f32 0x7F800000#32 = ⊤ := by
  simp [Ideal.ofBits, Ideal.ieee]

/-- √256 = 16, as extended reals. -/
theorem sqrt_c256 : Ideal.sqrt c256 = ((16 : ℝ) : EReal) := by
  rw [c256_eq, Ideal.sqrt_coe, if_neg (by norm_num)]
  congr 1
  rw [show (256 : ℝ) = 16 ^ 2 by norm_num]
  exact Real.sqrt_sq (by norm_num)

/-! ### The layer, first arrangement -/

section
variable (X : Fin 512 → Fin 256 → EReal) (W : Fin 256 → Fin 256 → EReal) (b : Fin 256 → EReal)

/-- The Gram matrix: the inner product of the feature rows of nodes n and m. -/
def gram (n m : Fin 512) : EReal := ∑ d : Fin 256, X n d * X m d

/-- The similarity score: the inner product times 1/16, clipped below at 0. -/
def score (n m : Fin 512) : EReal := max (gram X n m * cScale) cZero

/-- The largest score in row n (the maximum taken from −∞ on). -/
def rowMax (n : Fin 512) : EReal := (Finset.univ : Finset (Fin 512)).fold max cNegInf (fun m => score X n m)

/-- The unnormalized softmax weight. -/
def ex (n m : Fin 512) : EReal := Ideal.exp (score X n m - rowMax X n)

/-- The row sum of the unnormalized weights. -/
def den (n : Fin 512) : EReal := ∑ m : Fin 512, ex X n m

/-- The aggregated features: the unnormalized weighted sum, divided by the row sum afterwards. -/
def agg (n : Fin 512) (d : Fin 256) : EReal := Ideal.div (∑ m : Fin 512, ex X n m * X m d) (den X n)

/-- The layer's output at node n, output feature h. -/
def out (n : Fin 512) (h : Fin 256) : EReal := max ((∑ d : Fin 256, agg X n d * W d h) + b h) cZero

/-! ### The layer, second arrangement -/

def scoreR (n m : Fin 512) : EReal := max (Ideal.div (gram X n m) (Ideal.sqrt c256)) cZero

def rowMaxR (n : Fin 512) : EReal :=
  max cNegInf ((Finset.univ : Finset (Fin 512)).fold max cNegInf (fun m => scoreR X n m))

def exR (n m : Fin 512) : EReal := Ideal.exp (scoreR X n m - rowMaxR X n)

def denR (n : Fin 512) : EReal := cZero + ∑ m : Fin 512, exR X n m

def aggR (n : Fin 512) (d : Fin 256) : EReal := ∑ m : Fin 512, Ideal.div (exR X n m) (denR X n) * X m d

def outR (n : Fin 512) (h : Fin 256) : EReal := max ((∑ d : Fin 256, aggR X n d * W d h) + b h) cZero

end

/-! ### Real numbers among the extended reals -/

/-- The coercion of the reals into the extended reals commutes with finite sums. -/
theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- Dividing by a nonzero real is multiplying by its inverse, on reals. -/
theorem div_coe_coe (a : ℝ) {c : ℝ} (hc : c ≠ 0) : Ideal.div (a : EReal) (c : EReal) = ((a / c : ℝ) : EReal) := by
  rw [Ideal.div_coe hc, ← EReal.coe_mul, mul_one_div]

/-- The maximum, taken from −∞ on, of finitely many reals indexed by a nonempty type is one of them. -/
theorem fold_max_bot_coe {ι : Type} [Fintype ι] [Nonempty ι] (g : ι → ℝ) :
    ∃ r : ℝ, (Finset.univ : Finset ι).fold max (⊥ : EReal) (fun i => (g i : EReal)) = (r : EReal) := by
  classical
  have hne : (Finset.univ : Finset ι).fold max (⊥ : EReal) (fun i => (g i : EReal)) ≠ ⊥ := by
    intro h
    have i0 : ι := Classical.arbitrary ι
    have : ((g i0 : ℝ) : EReal) ≤ (Finset.univ : Finset ι).fold max (⊥ : EReal) (fun i => (g i : EReal)) :=
      (Finset.le_fold_max _).mpr (Or.inr ⟨i0, Finset.mem_univ _, le_refl _⟩)
    rw [h] at this
    exact absurd (le_bot_iff.mp this) (EReal.coe_ne_bot _)
  have hnt : (Finset.univ : Finset ι).fold max (⊥ : EReal) (fun i => (g i : EReal)) ≠ ⊤ := by
    have : (Finset.univ : Finset ι).fold max (⊥ : EReal) (fun i => (g i : EReal)) < ⊤ :=
      (Finset.fold_max_lt _).mpr ⟨bot_lt_top, fun i _ => EReal.coe_lt_top _⟩
    exact this.ne
  exact ⟨_, (EReal.coe_toReal hnt hne).symm⟩

/-! ### The two arrangements agree on real inputs -/

section
variable (X : Fin 512 → Fin 256 → EReal)

/-- Multiplying by 1/16 and dividing by √256 are one operation, on every extended real. -/
theorem scoreR_eq (n m : Fin 512) : scoreR X n m = score X n m := by
  unfold scoreR score
  rw [sqrt_c256, Ideal.div_coe (by norm_num : (16 : ℝ) ≠ 0), cScale_eq]

theorem rowMaxR_eq (n : Fin 512) : rowMaxR X n = rowMax X n := by
  unfold rowMaxR rowMax
  simp only [scoreR_eq]
  rw [cNegInf_eq]
  exact max_eq_right bot_le

theorem exR_eq (n m : Fin 512) : exR X n m = ex X n m := by
  unfold exR ex
  rw [scoreR_eq, rowMaxR_eq]

theorem denR_eq (n : Fin 512) : denR X n = den X n := by
  unfold denR den
  simp only [exR_eq]
  rw [cZero_eq, zero_add]

variable (hX : ∀ n d, ∃ r : ℝ, X n d = (r : EReal))
include hX

/-- Every score is a real number. -/
theorem score_real (n m : Fin 512) : ∃ r : ℝ, score X n m = (r : EReal) := by
  choose xr hxr using hX
  refine ⟨max ((∑ d : Fin 256, xr n d * xr m d) * (1 / 16)) 0, ?_⟩
  unfold score gram
  simp only [hxr, cScale_eq, cZero_eq]
  rw [EReal.coe_strictMono.monotone.map_max, EReal.coe_mul, coe_sum]
  simp only [EReal.coe_mul, EReal.coe_zero]

/-- Every unnormalized weight is a positive real number. -/
theorem ex_pos (n m : Fin 512) : ∃ r : ℝ, 0 < r ∧ ex X n m = (r : EReal) := by
  choose sr hsr using score_real X hX
  obtain ⟨M, hM⟩ := fold_max_bot_coe (fun m' => sr n m')
  refine ⟨Real.exp (sr n m - M), Real.exp_pos _, ?_⟩
  unfold ex rowMax
  simp only [hsr, cNegInf_eq]
  rw [hM, ← EReal.coe_sub, Ideal.exp_coe]

/-- Every row sum is a positive real number. -/
theorem den_pos (n : Fin 512) : ∃ r : ℝ, 0 < r ∧ den X n = (r : EReal) := by
  choose er her0 her using ex_pos X hX
  refine ⟨∑ m : Fin 512, er n m, Finset.sum_pos (fun m _ => her0 n m) Finset.univ_nonempty, ?_⟩
  unfold den
  simp only [her]
  rw [coe_sum]

/-- Dividing the aggregate by the row sum afterwards, or each weight before: the same on real inputs. -/
theorem aggR_eq (n : Fin 512) (d : Fin 256) : aggR X n d = agg X n d := by
  obtain ⟨D, hD0, hD⟩ := den_pos X hX n
  choose er _ her using ex_pos X hX
  choose xr hxr using hX
  unfold aggR agg
  simp only [exR_eq, denR_eq, hD, her, hxr]
  simp only [div_coe_coe _ hD0.ne', ← EReal.coe_mul]
  rw [← coe_sum, ← coe_sum, div_coe_coe _ hD0.ne']
  congr 1
  rw [Finset.sum_div]
  exact Finset.sum_congr rfl fun m _ => by ring

theorem outR_eq (W : Fin 256 → Fin 256 → EReal) (b : Fin 256 → EReal) (n : Fin 512) (h : Fin 256) :
    outR X W b n h = out X W b n h := by
  unfold outR out
  simp only [aggR_eq X hX]

end

end Gcn

end
-- ==== Proof.KernelPayload.lean ====
/-
  What one grid point of the kernel stores, entry by entry.

  The body loads a slice X of 512 nodes by 256 features, the weight matrix W and the bias row b, and stores a
  [1, 512, 256] block. Read at the ideal values (a change of float format is the identity there, a matrix product
  into a zero accumulator is the plain sum of products, a lane reduction is the plain sum or maximum over the lane
  axis) the stored block at (0, n, h) is the graph-convolution layer's output at node n, feature h, in the
  arrangement that multiplies the Gram matrix by 1/16 and divides the aggregate by the row sum afterwards.

  The body is cut into five stages, each a function of the stage before: the scores, the unnormalized weights, the
  row sums, the aggregate, the output. Each stage is read at an index by a lemma over an arbitrary operand; the
  body's stored value is their composition by definition.
-/
import proofs.«114045_g54185307406482_cont_9to1_m_905_2_alg».proof.Proof.Gen.KernelIdeal.Skeleton
import proofs.«114045_g54185307406482_cont_9to1_m_905_2_alg».proof.Proof.GcnSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.GcnValue

open Cert.KernelIdeal Cert.KernelIdeal.Gen Idealize.ShloMosaic Idealize.ShloMosaic.ValueIdx
open scoped BigOperators

/-! ## The three matrix products: which operand entries meet at a result entry -/

-- X Xᵀ: both operands contracted along their feature axis
theorem lhs_gram_0 (i : S512x512.Idx) (q : dot_S512x256_S512x256_S512x512_1_1_0_0_n_n.contr.Idx) :
    (dot_S512x256_S512x256_S512x512_1_1_0_0_n_n.lhsIdx i q 0).val = (i 0).val := by
  unfold DotDims.lhsIdx
  rw [dif_neg (show ¬(0 : Fin S512x256.rank) ∈ dot_S512x256_S512x256_S512x512_1_1_0_0_n_n.lhsBatch by decide), dif_pos (show (0 : Fin S512x256.rank) ∈ dot_S512x256_S512x256_S512x512_1_1_0_0_n_n.lhsNonContracting by decide)]
  rfl
theorem lhs_gram_1 (i : S512x512.Idx) (q : dot_S512x256_S512x256_S512x512_1_1_0_0_n_n.contr.Idx) :
    (dot_S512x256_S512x256_S512x512_1_1_0_0_n_n.lhsIdx i q 1).val = (q ⟨0, by decide⟩).val :=
  dot_S512x256_S512x256_S512x512_1_1_0_0_n_n.lhsIdx_val_of_single rfl i q
theorem rhs_gram_0 (i : S512x512.Idx) (q : dot_S512x256_S512x256_S512x512_1_1_0_0_n_n.contr.Idx) :
    (dot_S512x256_S512x256_S512x512_1_1_0_0_n_n.rhsIdx i q 0).val = (i 1).val := by
  unfold DotDims.rhsIdx
  rw [dif_neg (show ¬(0 : Fin S512x256.rank) ∈ dot_S512x256_S512x256_S512x512_1_1_0_0_n_n.rhsBatch by decide), dif_pos (show (0 : Fin S512x256.rank) ∈ dot_S512x256_S512x256_S512x512_1_1_0_0_n_n.rhsNonContracting by decide)]
  rfl
theorem rhs_gram_1 (i : S512x512.Idx) (q : dot_S512x256_S512x256_S512x512_1_1_0_0_n_n.contr.Idx) :
    (dot_S512x256_S512x256_S512x512_1_1_0_0_n_n.rhsIdx i q 1).val = (q ⟨0, by decide⟩).val :=
  dot_S512x256_S512x256_S512x512_1_1_0_0_n_n.rhsIdx_val_of_single rfl i q

/-- Entry (n, m) of X Xᵀ is the inner product of rows n and m. -/
theorem gram_apply {φ₁ φ₂ : FTy} (a : FVec Ideal S512x256 φ₁) (b : FVec Ideal S512x256 φ₂) (n m : Fin 512) :
    matmul dot_S512x256_S512x256_S512x512_1_1_0_0_n_n none a b (constant S512x512 .f32 0x00000000#32) (ix2 n m)
      = ∑ d : Fin 256, a (ix2 n d) * b (ix2 m d) := by
  simp only [matmul]
  rw [Ideal.matmul_constant_zero_apply, ← Equiv.sum_comp (contrEquiv1 dot_S512x256_S512x256_S512x512_1_1_0_0_n_n 256 rfl rfl).symm]
  refine Finset.sum_congr rfl fun k _ => ?_
  have hk := contrEquiv1_symm_val dot_S512x256_S512x256_S512x512_1_1_0_0_n_n 256 rfl rfl k
  have el : dot_S512x256_S512x256_S512x512_1_1_0_0_n_n.lhsIdx (ix2 n m) ((contrEquiv1 dot_S512x256_S512x256_S512x512_1_1_0_0_n_n 256 rfl rfl).symm k) = ix2 n k := funext fun ax => Fin.ext (by
    match ax with
    | ⟨0, _⟩ => exact lhs_gram_0 _ _
    | ⟨1, _⟩ => exact (lhs_gram_1 _ _).trans hk)
  have er : dot_S512x256_S512x256_S512x512_1_1_0_0_n_n.rhsIdx (ix2 n m) ((contrEquiv1 dot_S512x256_S512x256_S512x512_1_1_0_0_n_n 256 rfl rfl).symm k) = ix2 m k := funext fun ax => Fin.ext (by
    match ax with
    | ⟨0, _⟩ => exact rhs_gram_0 _ _
    | ⟨1, _⟩ => exact (rhs_gram_1 _ _).trans hk)
  rw [el, er]

-- weights times X: the weights' node axis against X's node axis
theorem lhs_aggr_0 (i : S512x256.Idx) (q : dot_S512x512_S512x256_S512x256_1_0_0_1_n_n.contr.Idx) :
    (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
theorem lhs_aggr_1 (i : S512x256.Idx) (q : dot_S512x512_S512x256_S512x256_1_0_0_1_n_n.contr.Idx) :
    (dot_S512x512_S512x256_S512x256_1_0_0_1_n_n.lhsIdx i q 1).val = (q ⟨0, by decide⟩).val :=
  dot_S512x512_S512x256_S512x256_1_0_0_1_n_n.lhsIdx_val_of_single rfl i q
theorem rhs_aggr_0 (i : S512x256.Idx) (q : dot_S512x512_S512x256_S512x256_1_0_0_1_n_n.contr.Idx) :
    (dot_S512x512_S512x256_S512x256_1_0_0_1_n_n.rhsIdx i q 0).val = (q ⟨0, by decide⟩).val :=
  dot_S512x512_S512x256_S512x256_1_0_0_1_n_n.rhsIdx_val_of_single rfl i q
theorem rhs_aggr_1 (i : S512x256.Idx) (q : dot_S512x512_S512x256_S512x256_1_0_0_1_n_n.contr.Idx) :
    (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl

/-- Entry (n, d) of the weights times X is the weighted sum over the nodes m of feature d. -/
theorem aggr_apply {φ₁ φ₂ : FTy} (a : FVec Ideal S512x512 φ₁) (b : FVec Ideal S512x256 φ₂) (n : Fin 512) (d : Fin 256) :
    matmul dot_S512x512_S512x256_S512x256_1_0_0_1_n_n none a b (constant S512x256 .f32 0x00000000#32) (ix2 n d)
      = ∑ m : Fin 512, a (ix2 n m) * b (ix2 m d) := by
  simp only [matmul]
  rw [Ideal.matmul_constant_zero_apply, ← Equiv.sum_comp (contrEquiv1 dot_S512x512_S512x256_S512x256_1_0_0_1_n_n 512 rfl rfl).symm]
  refine Finset.sum_congr rfl fun k _ => ?_
  have hk := contrEquiv1_symm_val dot_S512x512_S512x256_S512x256_1_0_0_1_n_n 512 rfl rfl k
  have el : dot_S512x512_S512x256_S512x256_1_0_0_1_n_n.lhsIdx (ix2 n d) ((contrEquiv1 dot_S512x512_S512x256_S512x256_1_0_0_1_n_n 512 rfl rfl).symm k) = ix2 n k := funext fun ax => Fin.ext (by
    match ax with
    | ⟨0, _⟩ => exact lhs_aggr_0 _ _
    | ⟨1, _⟩ => exact (lhs_aggr_1 _ _).trans hk)
  have er : dot_S512x512_S512x256_S512x256_1_0_0_1_n_n.rhsIdx (ix2 n d) ((contrEquiv1 dot_S512x512_S512x256_S512x256_1_0_0_1_n_n 512 rfl rfl).symm k) = ix2 k d := funext fun ax => Fin.ext (by
    match ax with
    | ⟨0, _⟩ => exact (rhs_aggr_0 _ _).trans hk
    | ⟨1, _⟩ => exact rhs_aggr_1 _ _)
  rw [el, er]

-- the aggregate times W
theorem lhs_lin_0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem lhs_lin_1 (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
theorem rhs_lin_0 (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
theorem rhs_lin_1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-- Entry (n, h) of the aggregate times W is the sum over the features d. -/
theorem lin_apply {φ₁ φ₂ : FTy} (a : FVec Ideal S512x256 φ₁) (b : FVec Ideal S256x256 φ₂) (n : Fin 512) (h : Fin 256) :
    matmul dot_S512x256_S256x256_S512x256_1_0_0_1_n_n none a b (constant S512x256 .f32 0x00000000#32) (ix2 n h)
      = ∑ d : Fin 256, a (ix2 n d) * b (ix2 d h) := by
  simp only [matmul]
  rw [Ideal.matmul_constant_zero_apply, ← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx (ix2 n h) ((contrEquiv1 dot_S512x256_S256x256_S512x256_1_0_0_1_n_n 256 rfl rfl).symm k) = ix2 n k := funext fun ax => Fin.ext (by
    match ax with
    | ⟨0, _⟩ => exact lhs_lin_0 _ _
    | ⟨1, _⟩ => exact (lhs_lin_1 _ _).trans hk)
  have er : dot_S512x256_S256x256_S512x256_1_0_0_1_n_n.rhsIdx (ix2 n h) ((contrEquiv1 dot_S512x256_S256x256_S512x256_1_0_0_1_n_n 256 rfl rfl).symm k) = ix2 k h := funext fun ax => Fin.ext (by
    match ax with
    | ⟨0, _⟩ => exact (rhs_lin_0 _ _).trans hk
    | ⟨1, _⟩ => exact rhs_lin_1 _ _)
  rw [el, er]

/-! ## Row reductions, and a column of row values spread back over the rows -/

/-- The index a row reduction reads: row n, lane m. -/
theorem lift_row (hr : S512x512.Reduces [1] S512) (n : Fin 512) (m : Fin 512) : hr.lift (ix1 n) m = ix2 n m :=
  funext fun ax => Fin.ext (by
    match ax with
    | ⟨0, _⟩ => rfl
    | ⟨1, _⟩ => rfl)

/-- The maximum over the lanes of row n, taken from −∞ on. -/
theorem rowMax_apply (v : FVec Ideal S512x512 .f32) (hr : S512x512.Reduces [1] S512) (hφ : FKind.Formats .f32)
    (hacc : (0xFF800000#32 : BitVec 32) = FKind.maximumf.neutral .f32 hφ) (n : Fin 512) :
    multiReduction .maximumf [1] S512 v 0xFF800000#32 hr hφ hacc (ix1 n)
      = (Finset.univ : Finset (Fin 512)).fold max Gcn.cNegInf (fun m => v (ix2 n m)) := by
  refine (Ideal.multiReduction_maximumf_single v 0xFF800000#32 hr hφ hacc (ix1 n)).trans ?_
  exact congrArg (fun f : Fin 512 → EReal => (Finset.univ : Finset (Fin 512)).fold max Gcn.cNegInf f)
    (funext fun m => congrArg v (lift_row hr n m))

/-- The sum over the lanes of row n. -/
theorem rowSum_apply (v : FVec Ideal S512x512 .f32) (hr : S512x512.Reduces [1] S512) (hφ : FKind.Formats .f32)
    (hacc : (0x00000000#32 : BitVec 32) = FKind.add.neutral .f32 hφ) (n : Fin 512) :
    multiReduction .add [1] S512 v 0x00000000#32 hr hφ hacc (ix1 n) = ∑ m : Fin 512, v (ix2 n m) := by
  refine (Ideal.multiReduction_add_single v 0x00000000#32 hr hφ hacc (ix1 n)).trans ?_
  exact Finset.sum_congr rfl fun m _ => congrArg v (lift_row hr n m)

/-- A vector of row values viewed as a column and spread over c lanes reads, at (n, j), the value of row n. -/
theorem col_spread_apply {c : ℕ} (v : (⟨1, ![512]⟩ : Shape).Idx → EReal) (hs : (⟨1, ![512]⟩ : Shape).ShapeCasts ⟨2, ![512, 1]⟩)
    (hb : (⟨2, ![512, 1]⟩ : Shape).Broadcasts ⟨2, ![512, c]⟩) (n : Fin 512) (j : Fin c) :
    broadcastTo ⟨2, ![512, c]⟩ (shapeCast ⟨2, ![512, 1]⟩ v hs) hb (ix2 n j) = v (ix1 n) := by
  refine (broadcastTo_apply _ hb (ix2 n j) (ix2 n (0 : Fin 1)) fun ax => ?_).trans ?_
  · match ax with
    | ⟨0, _⟩ =>
      exact (if_neg (show ¬ (512 : ℕ) = 1 by decide)).symm
    | ⟨1, _⟩ => rfl
  · exact shapeCast_apply v hs _ _ (by
      rw [Shape.rowMajor_val_one, Shape.rowMajor_val_two]
      show n.val = n.val * 1 + 0
      omega)

/-! ## The five stages of the body -/

/-- The scores: X Xᵀ times 1/16, clipped below at 0. -/
def scores (x : FVec Ideal S512x256 .bf16) : FVec Ideal S512x512 .f32 :=
  maximumf (mulf (matmul dot_S512x256_S512x256_S512x512_1_1_0_0_n_n none x x (constant S512x512 .f32 0x00000000#32))
    (broadcast S512x512 (Scalar.ofBits .f32 0x3D800000#32))) (broadcast S512x512 (Scalar.ofBits .f32 0x00000000#32))

/-- The unnormalized weights: the exponential of a score less its row's maximum. -/
def weights (s : FVec Ideal S512x512 .f32) : FVec Ideal S512x512 .f32 :=
  exp (subf s (broadcastTo S512x512 (shapeCast S512x1 (multiReduction .maximumf [1] S512 s 0xFF800000#32 reduces_S512x512_S512 (.inl rfl) rfl)
    shapeCasts_S512_S512x1) broadcasts_S512x1_S512x512))

/-- The row sums of the weights. -/
def rowSums (e : FVec Ideal S512x512 .f32) : FVec Ideal S512 .f32 :=
  multiReduction .add [1] S512 e 0x00000000#32 reduces_S512x512_S512 (.inl rfl) rfl

/-- The aggregate: the weights times X, each row divided by its row sum. -/
def aggregate (e : FVec Ideal S512x512 .f32) (x : FVec Ideal S512x256 .bf16) (r : FVec Ideal S512 .f32) : FVec Ideal S512x256 .f32 :=
  divf (matmul dot_S512x512_S512x256_S512x256_1_0_0_1_n_n none (truncf .bf16 e bitsLt_bf16_f32) x (constant S512x256 .f32 0x00000000#32))
    (broadcastTo S512x256 (shapeCast S512x1 r shapeCasts_S512_S512x1) broadcasts_S512x1_S512x256)

/-- The output: the aggregate times W plus the bias row, clipped below at 0. -/
def output (g : FVec Ideal S512x256 .f32) (w : FVec Ideal S256x256 .bf16) (bias : FVec Ideal S1x256 .f32) : FVec Ideal S512x256 .f32 :=
  maximumf (addf (matmul dot_S512x256_S256x256_S512x256_1_0_0_1_n_n none (truncf .bf16 g bitsLt_bf16_f32) w (constant S512x256 .f32 0x00000000#32))
    (broadcastTo S512x256 bias broadcasts_S1x256_S512x256)) (broadcast S512x256 (Scalar.ofBits .f32 0x00000000#32))

/-- A [512, 256] operand as a matrix of nodes by features. -/
abbrev mat {φ : FTy} (x : FVec Ideal S512x256 φ) : Fin 512 → Fin 256 → EReal := fun n d => x (ix2 n d)

theorem scores_apply (x : FVec Ideal S512x256 .bf16) (n m : Fin 512) : scores x (ix2 n m) = Gcn.score (mat x) n m := by
  unfold scores Gcn.score Gcn.gram
  show max (matmul dot_S512x256_S512x256_S512x512_1_1_0_0_n_n none x x (constant S512x512 .f32 0x00000000#32) (ix2 n m) * Gcn.cScale) Gcn.cZero = _
  rw [gram_apply]

theorem weights_apply (s : FVec Ideal S512x512 .f32) (n m : Fin 512) :
    weights s (ix2 n m) = Ideal.exp (s (ix2 n m) - (Finset.univ : Finset (Fin 512)).fold max Gcn.cNegInf (fun m' => s (ix2 n m'))) := by
  unfold weights
  show Ideal.exp (s (ix2 n m) - broadcastTo S512x512 (shapeCast S512x1 (multiReduction .maximumf [1] S512 s 0xFF800000#32 reduces_S512x512_S512 (.inl rfl) rfl)
    shapeCasts_S512_S512x1) broadcasts_S512x1_S512x512 (ix2 n m)) = _
  rw [col_spread_apply]
  exact congrArg (fun t => Ideal.exp (s (ix2 n m) - t)) (rowMax_apply s _ _ _ n)

theorem rowSums_apply (e : FVec Ideal S512x512 .f32) (n : Fin 512) : rowSums e (ix1 n) = ∑ m : Fin 512, e (ix2 n m) := by
  unfold rowSums
  exact rowSum_apply e _ _ _ n

theorem aggregate_apply (e : FVec Ideal S512x512 .f32) (x : FVec Ideal S512x256 .bf16) (r : FVec Ideal S512 .f32) (n : Fin 512) (d : Fin 256) :
    aggregate e x r (ix2 n d) = Ideal.div (∑ m : Fin 512, e (ix2 n m) * x (ix2 m d)) (r (ix1 n)) := by
  unfold aggregate
  show Ideal.div (matmul dot_S512x512_S512x256_S512x256_1_0_0_1_n_n none (truncf .bf16 e bitsLt_bf16_f32) x (constant S512x256 .f32 0x00000000#32) (ix2 n d))
    (broadcastTo S512x256 (shapeCast S512x1 r shapeCasts_S512_S512x1) broadcasts_S512x1_S512x256 (ix2 n d)) = _
  rw [col_spread_apply, aggr_apply]
  rfl

theorem output_apply (g : FVec Ideal S512x256 .f32) (w : FVec Ideal S256x256 .bf16) (bias : FVec Ideal S1x256 .f32) (n : Fin 512) (h : Fin 256) :
    output g w bias (ix2 n h) = max ((∑ d : Fin 256, g (ix2 n d) * w (ix2 d h)) + bias (ix2 (0 : Fin 1) h)) Gcn.cZero := by
  unfold output
  show max (matmul dot_S512x256_S256x256_S512x256_1_0_0_1_n_n none (truncf .bf16 g bitsLt_bf16_f32) w (constant S512x256 .f32 0x00000000#32) (ix2 n h)
    + broadcastTo S512x256 bias broadcasts_S1x256_S512x256 (ix2 n h)) Gcn.cZero = _
  rw [broadcastTo_1b_ab_apply, lin_apply]
  rfl

/-! ## The body's stored value -/

/-- The stored block is the five stages composed, with the block's leading unit axis dropped on the way in and put
    back on the way out (and the bias row's, twice). -/
theorem pay_eq (x0 : FVec Ideal S1x512x256 .f32) (x1 : FVec Ideal S256x256 .bf16) (x2 : FVec Ideal S1x256 .f32) :
    k0_pay1 (F := Ideal) x0 x1 x2
      = shapeCast S1x512x256
          (output
            (aggregate (weights (scores (truncf .bf16 (shapeCast S512x256 x0 shapeCasts_S1x512x256_S512x256) bitsLt_bf16_f32)))
              (truncf .bf16 (shapeCast S512x256 x0 shapeCasts_S1x512x256_S512x256) bitsLt_bf16_f32)
              (rowSums (weights (scores (truncf .bf16 (shapeCast S512x256 x0 shapeCasts_S1x512x256_S512x256) bitsLt_bf16_f32)))))
            (shapeCast S256x256 x1 shapeCasts_S256x256_S256x256)
            (shapeCast S1x256 (shapeCast S256 x2 shapeCasts_S1x256_S256) shapeCasts_S256_S1x256))
          shapeCasts_S512x256_S1x512x256 := rfl

/-- THE STORED BLOCK at (0, n, h): the layer's output at node n, feature h, of the loaded slice, weights and bias. -/
theorem pay_apply (x0 : FVec Ideal S1x512x256 .f32) (x1 : FVec Ideal S256x256 .bf16) (x2 : FVec Ideal S1x256 .f32) (n : Fin 512) (h : Fin 256) :
    k0_pay1 (F := Ideal) x0 x1 x2 (ix3 (0 : Fin 1) n h)
      = Gcn.out (fun n d => x0 (ix3 (0 : Fin 1) n d)) (fun d h => x1 (ix2 d h)) (fun h => x2 (ix2 (0 : Fin 1) h)) n h := by
  rw [pay_eq]
  -- the operand slice as a matrix
  have hx : mat (truncf .bf16 (shapeCast S512x256 x0 shapeCasts_S1x512x256_S512x256) bitsLt_bf16_f32) = fun n d => x0 (ix3 (0 : Fin 1) n d) := by
    funext n d
    exact shapeCast_1ab_ab_apply x0 _ n d
  generalize truncf .bf16 (shapeCast S512x256 x0 shapeCasts_S1x512x256_S512x256) bitsLt_bf16_f32 = x at hx
  refine (shapeCast_ab_1ab_apply _ _ (0 : Fin 1) n h).trans ?_
  rw [output_apply]
  unfold Gcn.out
  rw [shapeCast_self, shapeCast_a_1a_apply, shapeCast_1a_a_apply]
  refine congrArg (fun t => max (t + x2 (ix2 (0 : Fin 1) h)) Gcn.cZero) (Finset.sum_congr rfl fun d _ => ?_)
  refine congrArg (· * x1 (ix2 d h)) ?_
  rw [aggregate_apply]
  unfold Gcn.agg Gcn.den Gcn.ex Gcn.rowMax
  have hx' : ∀ (m : Fin 512) (d : Fin 256), x (ix2 m d) = x0 (ix3 (0 : Fin 1) m d) := fun m d => congrFun (congrFun hx m) d
  simp only [rowSums_apply, weights_apply, scores_apply, hx, hx']

end Cert.KernelIdeal.GcnValue

end
-- ==== Proof.KernelValue.lean ====
/-
  What the kernel's program leaves in its result array.

  The program views the input [16, 512, 12, 256] as [16, 512, 3072] (time and feature merged into one axis of 12 · 256
  lanes), launches one grid point per (batch entry, time step) — 16 · 12 = 192 points —, and views the [16, 512, 3072]
  output as [16, 512, 12, 256] again. Point (bb, tt) loads the block of rows (bb, ·) and lanes tt · 256 … tt · 256 + 255,
  which is the slice X = x[bb, ·, tt, ·] of 512 nodes by 256 features, with the whole of W and of the bias, and writes
  back the block of the output at the same place. So the output array at (bb, n, j) is the layer's output for the slice
  (bb, j / 256) at node n, feature j mod 256; the 192 blocks tile the array, each index lies in exactly the block of the
  point (its batch entry, its lane block); and the final view puts (bb, n, tt · 256 + h) at (bb, n, tt, h).
-/
import proofs.«114045_g54185307406482_cont_9to1_m_905_2_alg».proof.Proof.Gen.KernelIdeal.Frame
import proofs.«114045_g54185307406482_cont_9to1_m_905_2_alg».proof.Proof.KernelPayload
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.GcnValue

open Cert.KernelIdeal Cert.KernelIdeal.Gen Idealize.ShloMosaic Idealize.ShloMosaic.TcCoe Idealize.ShloMosaic.ValueIdx Idealize.SL.Sem
open Idealize.ShloMosaic.Pipeline (Dat)

/-! ## The result, index by index -/

/-- The layer's output for the slice of batch entry bb at time step tt, at node n and output feature h. -/
def specAt (x : S16x512x12x256.Idx → EReal) (w : S256x256.Idx → EReal) (b : S256.Idx → EReal)
    (bb : Fin 16) (n : Fin 512) (tt : Fin 12) (h : Fin 256) : EReal :=
  Gcn.out (fun n d => x (ix4 bb n tt d)) (fun d h => w (ix2 d h)) (fun h => b (ix1 h)) n h

/-- The result array: at (bb, n, tt, h) the layer's output for slice (bb, tt). -/
def spec (x : S16x512x12x256.Idx → EReal) (w : S256x256.Idx → EReal) (b : S256.Idx → EReal) : S16x512x12x256.Idx → EReal :=
  fun i => specAt x w b (i 0) (i 1) (i 2) (i 3)

/-- The same laid out with time and feature merged: lane j is time step j / 256, feature j mod 256. -/
def specMerged (x : S16x512x12x256.Idx → EReal) (w : S256x256.Idx → EReal) (b : S256.Idx → EReal) : S16x512x3072.Idx → EReal :=
  fun i => specAt x w b (i 0) (i 1)
    ⟨(i 2).val / 256, by have h2 : (i 2).val < 3072 := (i 2).isLt; omega⟩
    ⟨(i 2).val % 256, Nat.mod_lt _ (by norm_num)⟩

theorem specMerged_apply (x : S16x512x12x256.Idx → EReal) (w : S256x256.Idx → EReal) (b : S256.Idx → EReal)
    (bb : Fin 16) (n : Fin 512) (tt : Fin 12) (h : Fin 256) (j : Fin 3072) (hj : j.val = tt.val * 256 + h.val) :
    specMerged x w b (ix3 bb n j) = specAt x w b bb n tt h := by
  have h1 : j.val / 256 = tt.val := by have := h.isLt; omega
  have h2 : j.val % 256 = h.val := by have := h.isLt; omega
  show specAt x w b bb n ⟨j.val / 256, _⟩ ⟨j.val % 256, _⟩ = _
  congr 1
  · exact Fin.ext h1
  · exact Fin.ext h2

/-! ## The two views between [16, 512, 12, 256] and [16, 512, 3072] -/

theorem merge_apply (x : S16x512x12x256.Idx → EReal) (hc : S16x512x12x256.ShapeCasts S16x512x3072)
    (bb : Fin 16) (n : Fin 512) (tt : Fin 12) (d : Fin 256) (j : Fin 3072) (hj : j.val = tt.val * 256 + d.val) :
    shapeCast S16x512x3072 x hc (ix3 bb n j) = x (ix4 bb n tt d) :=
  shapeCast_apply x hc _ _ (by
    rw [Shape.rowMajor_val_four, Shape.rowMajor_val_three]
    show ((bb.val * 512 + n.val) * 12 + tt.val) * 256 + d.val = (bb.val * 512 + n.val) * 3072 + j.val
    omega)

theorem split_apply (y : S16x512x3072.Idx → EReal) (hc : S16x512x3072.ShapeCasts S16x512x12x256)
    (bb : Fin 16) (n : Fin 512) (tt : Fin 12) (h : Fin 256) (j : Fin 3072) (hj : j.val = tt.val * 256 + h.val) :
    shapeCast S16x512x12x256 y hc (ix4 bb n tt h) = y (ix3 bb n j) :=
  shapeCast_apply y hc _ _ (by
    rw [Shape.rowMajor_val_four, Shape.rowMajor_val_three]
    show (bb.val * 512 + n.val) * 3072 + j.val = ((bb.val * 512 + n.val) * 12 + tt.val) * 256 + h.val
    omega)

variable (m : (ℓ : Loc nD τ sig) → Buf (Elt Ideal) ℓ) (ρ : Dev nD → PrngReg)

/-! ## The arrays the region finds: the three host operations before it -/

theorem V_v0 (c : Dev nD) : (V m c main_v0 : S16x512x3072.Idx → EReal)
    = shapeCast S16x512x3072 (m ((c : Thread nD τ).loc main_arg0)) shapeCasts_S16x512x12x256_S16x512x3072 := by
  show StableHlo.after hostOps0 (fun b => m (c, b)) (Proc.devRef .tc main_v0) = _
  after_results
  all_goals rfl

theorem V_v1 (c : Dev nD) : (V m c main_v1 : S256x256.Idx → EReal)
    = truncf (F := Ideal) .bf16 (m ((c : Thread nD τ).loc main_arg1)) bitsLt_bf16_f32 := by
  show StableHlo.after hostOps0 (fun b => m (c, b)) (Proc.devRef .tc main_v1) = _
  after_results
  all_goals rfl

theorem V_v2 (c : Dev nD) : (V m c main_v2 : S1x256.Idx → EReal)
    = shapeCast S1x256 (m ((c : Thread nD τ).loc main_arg2)) shapeCasts_S256_S1x256 := by
  show StableHlo.after hostOps0 (fun b => m (c, b)) (Proc.devRef .tc main_v2) = _
  after_results
  all_goals rfl

/-! ## The grid: where each point's blocks sit -/

/-- The printed index maps, decided over the 192 points: the input slice's block sits where the output's does; both
    keep the whole node axis; the weights and the bias are one block each. -/
theorem idx_facts : ∀ t : Fin cfg0.N,
    win0_0.index t (0 : Fin 3) = win0_3.index t (0 : Fin 3) ∧ win0_0.index t (1 : Fin 3) = 0
    ∧ win0_0.index t (2 : Fin 3) = win0_3.index t (2 : Fin 3) ∧ win0_3.index t (1 : Fin 3) = 0
    ∧ win0_3.index t (0 : Fin 3) ≤ 15 ∧ win0_3.index t (2 : Fin 3) ≤ 11
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Every (batch entry, time step) is some point's. -/
theorem idx_onto : ∀ (q0 : Fin 16) (q2 : Fin 12), ∃ t : Fin cfg0.N, win0_3.index t = ![q0.val, 0, q2.val] :=
  (by decide +kernel : ∀ (q0 : Fin 16) (q2 : Fin 12), ∃ t : Fin grid0.N, win0_3.index t = ![q0.val, 0, q2.val])

theorem hz3 : (![0, 0, 0] : Fin 3 → Nat) = fun _ => 0 := funext fun a => by fin_cases a <;> rfl
theorem hz2 : (![0, 0] : Fin 2 → Nat) = fun _ => 0 := funext fun a => by fin_cases a <;> rfl

/-! ## What a point loads -/

/-- The slice block of point t at (0, n, d) is the input at (bb, n, tt, d), for the point's batch entry bb and time step tt. -/
theorem slice_read (c : Dev nD) (t : Fin cfg0.N) (bb : Fin 16) (tt : Fin 12) (hb : bb.val = win0_3.index t (0 : Fin 3))
    (ht : tt.val = win0_3.index t (2 : Fin 3)) (n : Fin 512) (d : Fin 256) :
    iblk m c 0 t (ix3 (0 : Fin 1) n d) = m ((c : Thread nD τ).loc main_arg0) (ix4 bb n tt d) := by
  obtain ⟨e0, e1, e2, e3, e4, e5, e6, e7, e8, e9⟩ := idx_facts t
  show V m c main_v0 (((cfg0.win 0).blk t).view.emb (ix3 (0 : Fin 1) n d)) = _
  have hd : d.val < 256 := d.isLt
  have htt : tt.val < 12 := tt.isLt
  have he : ((cfg0.win 0).blk t).view.emb (ix3 (0 : Fin 1) n d)
      = ix3 bb n (⟨tt.val * 256 + d.val, by omega⟩ : Fin 3072) := by
    funext a; apply Fin.ext
    match a with
    | ⟨0, _⟩ => show win0_0.index t (0 : Fin 3) * 1 + 1 * 0 = bb.val; omega
    | ⟨1, _⟩ => show win0_0.index t (1 : Fin 3) * 512 + 1 * n.val = n.val; omega
    | ⟨2, _⟩ => show win0_0.index t (2 : Fin 3) * 256 + 1 * d.val = tt.val * 256 + d.val; omega
  rw [he, V_v0]
  exact merge_apply _ _ bb n tt d _ rfl

/-- The weight block is the weight matrix (its change of float format is the identity). -/
theorem weight_read (c : Dev nD) (t : Fin cfg0.N) (d : Fin 256) (h : Fin 256) :
    iblk m c 1 t (ix2 d h) = m ((c : Thread nD τ).loc main_arg1) (ix2 d h) := by
  obtain ⟨e0, e1, e2, e3, e4, e5, e6, e7, e8, e9⟩ := idx_facts t
  show V m c main_v1 (((cfg0.win 1).blk t).view.emb (ix2 d h)) = _
  have he : ((cfg0.win 1).blk t).view.emb (ix2 d h) = ix2 d h := by
    funext a; apply Fin.ext
    match a with
    | ⟨0, _⟩ => show win0_1.index t (0 : Fin 2) * 256 + 1 * d.val = d.val; omega
    | ⟨1, _⟩ => show win0_1.index t (1 : Fin 2) * 256 + 1 * h.val = h.val; omega
  rw [he, V_v1]
  rfl

/-- The bias block is the bias as one row. -/
theorem bias_read (c : Dev nD) (t : Fin cfg0.N) (h : Fin 256) :
    iblk m c 2 t (ix2 (0 : Fin 1) h) = m ((c : Thread nD τ).loc main_arg2) (ix1 h) := by
  obtain ⟨e0, e1, e2, e3, e4, e5, e6, e7, e8, e9⟩ := idx_facts t
  show V m c main_v2 (((cfg0.win 2).blk t).view.emb (ix2 (0 : Fin 1) h)) = _
  have he : ((cfg0.win 2).blk t).view.emb (ix2 (0 : Fin 1) h) = ix2 (0 : Fin 1) h := by
    funext a; apply Fin.ext
    match a with
    | ⟨0, _⟩ => show win0_2.index t (0 : Fin 2) * 1 + 1 * 0 = 0; omega
    | ⟨1, _⟩ => show win0_2.index t (1 : Fin 2) * 256 + 1 * h.val = h.val; omega
  rw [he, V_v2]
  exact shapeCast_a_1a_apply _ _ (0 : Fin 1) h

/-! ## What a point writes back, and the array after the run -/

/-- WHAT POINT t WRITES BACK is block t of the merged-layout result. -/
theorem flushed3_eq (c : Dev nD) (t : Fin cfg0.N) :
    (dats m 0 c).flushed 3 t = ((cfg0.win 3).blk t).view.read (Elt Ideal)
      (specMerged (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  unfold out0_3
  rw [View.canon_unit_zero hz3]
  simp only [View.ld_unit_zero (S := S1x512x256) hz3, View.ld_unit_zero (S := S256x256) hz2, View.ld_unit_zero (S := S1x256) hz2]
  obtain ⟨e0, e1, e2, e3, e4, e5, e6, e7, e8, e9⟩ := idx_facts t
  refine funext fun (j : S1x512x256.Idx) => ?_
  obtain ⟨u, n, h, rfl⟩ : ∃ (u : Fin 1) (n : Fin 512) (h : Fin 256), j = ix3 u n h := ⟨j 0, j 1, j 2, eq_ix3 j⟩
  obtain rfl : u = 0 := Subsingleton.elim _ _
  have hh : h.val < 256 := h.isLt
  let bb : Fin 16 := ⟨win0_3.index t (0 : Fin 3), by omega⟩
  let tt : Fin 12 := ⟨win0_3.index t (2 : Fin 3), by omega⟩
  have he : ((cfg0.win 3).blk t).view.emb (ix3 (0 : Fin 1) n h) = ix3 bb n (⟨tt.val * 256 + h.val, by have := tt.isLt; omega⟩ : Fin 3072) := by
    funext a; apply Fin.ext
    match a with
    | ⟨0, _⟩ => show win0_3.index t (0 : Fin 3) * 1 + 1 * 0 = win0_3.index t (0 : Fin 3); omega
    | ⟨1, _⟩ => show win0_3.index t (1 : Fin 3) * 512 + 1 * n.val = n.val; omega
    | ⟨2, _⟩ => show win0_3.index t (2 : Fin 3) * 256 + 1 * h.val = win0_3.index t (2 : Fin 3) * 256 + h.val; omega
  show k0_pay1 (F := Ideal) (iblk m c 0 t) (iblk m c 1 t) (iblk m c 2 t) (ix3 (0 : Fin 1) n h)
    = specMerged _ _ _ (((cfg0.win 3).blk t).view.emb (ix3 (0 : Fin 1) n h))
  rw [he, specMerged_apply _ _ _ bb n tt h _ rfl]
  refine (pay_apply (iblk m c 0 t) (iblk m c 1 t) (iblk m c 2 t) n h).trans ?_
  unfold specAt
  have f0 : (fun (n : Fin 512) (d : Fin 256) => iblk m c 0 t (ix3 (0 : Fin 1) n d))
      = fun n d => m ((c : Thread nD τ).loc main_arg0) (ix4 bb n tt d) :=
    funext fun n => funext fun d => slice_read m c t bb tt rfl rfl n d
  have f1 : (fun (d : Fin 256) (h : Fin 256) => iblk m c 1 t (ix2 d h))
      = fun d h => m ((c : Thread nD τ).loc main_arg1) (ix2 d h) :=
    funext fun d => funext fun h => weight_read m c t d h
  have f2 : (fun (h : Fin 256) => iblk m c 2 t (ix2 (0 : Fin 1) h))
      = fun h => m ((c : Thread nD τ).loc main_arg2) (ix1 h) :=
    funext fun h => bias_read m c t h
  rw [f0, f1, f2]

/-- An index of the output array is in point t's block iff each coordinate is in the block's range on its axis. -/
theorem mem_blk3 (t : Fin cfg0.N) (i : S16x512x3072.Idx) :
    i ∈ ((cfg0.win 3).blk t).view.set ↔ ∀ a : Fin 3, win0_3.index t a * S1x512x256.size a ≤ (i a).val
      ∧ (i a).val < win0_3.index t a * S1x512x256.size a + S1x512x256.size a := by
  show i ∈ ((View.whole main_v3).slice (win0_3.rect t)).set ↔ _
  rw [View.set_slice_whole, Rect.mem_set_unit]
  exact Iff.rfl

/-- Every index of the output array is in the block of the point of its batch entry and lane block. -/
theorem cover3 (i : S16x512x3072.Idx) : ∃ t : Fin cfg0.N, (cfg0.win 3).flush t = true ∧ i ∈ ((cfg0.win 3).blk t).view.set := by
  have hi0 : (i 0).val < 16 := (i 0).isLt
  have hi1 : (i 1).val < 512 := (i 1).isLt
  have hi2 : (i 2).val < 3072 := (i 2).isLt
  obtain ⟨t, ht⟩ := idx_onto ⟨(i 0).val, hi0⟩ ⟨(i 2).val / 256, by omega⟩
  have q0 : win0_3.index t (0 : Fin 3) = (i 0).val := congrFun ht 0
  have q1 : win0_3.index t (1 : Fin 3) = 0 := congrFun ht 1
  have q2 : win0_3.index t (2 : Fin 3) = (i 2).val / 256 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 256 ≤ (i 2).val ∧ (i 2).val < win0_3.index t (2 : Fin 3) * 256 + 256; omega

/-- THE OUTPUT ARRAY after the run, in the merged layout. -/
theorem final3 (c : Dev nD) : (dats m 0 c).arrAt 3 cfg0.N
    = specMerged (m ((c : Thread nD τ).loc main_arg0)) (m ((c : Thread nD τ).loc main_arg1)) (m ((c : Thread nD τ).loc main_arg2)) :=
  (dats m 0 c).arrAt_eq_of_cover 3 _ (fun t _ => flushed3_eq m c t) cover3

/-! ## The view after the region, and the run -/

/-- The result buffer after the last host operation: the merged-layout output viewed [16, 512, 12, 256]. -/
theorem tail_v4 (c : Dev nD) : Pipeline.afterTail₀ cfgs (dats m) 0 (V0 m) [hostOps1] c main_v4
    = spec (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  have hA : Pipeline.withArrays (cfgs 0).spec c (V0 m c) (fun w => (dats m 0 c).arrAt w (cfgs 0).N) (Proc.devRef .tc main_v3)
      = (dats m 0 c).arrAt 3 cfg0.N := Pipeline.withArrays_arr spec0 launch0.win.arr_inj c _ _ 3
  funext i
  show shapeCast S16x512x12x256
      (Pipeline.withArrays (cfgs 0).spec c (V0 m c) (fun w => (dats m 0 c).arrAt w (cfgs 0).N) (Proc.devRef .tc main_v3))
      shapeCasts_S16x512x3072_S16x512x12x256 i = _
  rw [hA, final3]
  obtain ⟨bb, n, tt, h, rfl⟩ : ∃ (bb : Fin 16) (n : Fin 512) (tt : Fin 12) (h : Fin 256), i = ix4 bb n tt h :=
    ⟨i 0, i 1, i 2, i 3, eq_ix4 i⟩
  have hh : h.val < 256 := h.isLt
  have htt : tt.val < 12 := tt.isLt
  refine (split_apply _ _ bb n tt h (⟨tt.val * 256 + h.val, by omega⟩ : Fin 3072) rfl).trans ?_
  exact specMerged_apply _ _ _ bb n tt h _ rfl

/-- THE KERNEL'S RUN at the ideal values: the result array ends at the layer's output, slice by slice, and the
    arguments are unchanged. -/
theorem run : θ_run defs (onTc (τ := τ) (main (F := Ideal))) ⟨m, fun _ => 0, ρ⟩ fun r => ∀ c : Dev nD,
    r.2.mem ((c.tc : Thread nD τ).loc main_v4)
        = spec (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (tail_v4 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.GcnValue

end
-- ==== Proof.RefStep.lean ====
/-
  The reference's computation for ONE time step, as a function of that step's slice.

  The reference cuts time step t out of the input (a [16, 512, 256] array: batch, node, feature), and applies to it,
  batch entry by batch entry, the graph-convolution layer: the batched Gram matrix divided by √256 and clipped below
  at 0; a softmax over each row (the row maximum, compared once more with −∞, is subtracted, the exponentials are
  divided by their row sum, which starts from an explicit 0); the normalized weights times the slice; times W; plus
  the bias; clipped below at 0. The twelve time steps of the reference's program are this one function at twelve
  slices. It is written here with the operations and the shape records the printed program uses, for any float
  instance, so that the program's composed term is this function by unfolding.
-/
import proofs.«114045_g54185307406482_cont_9to1_m_905_2_alg».proof.ReferenceIdeal
import proofs.«114045_g54185307406482_cont_9to1_m_905_2_alg».proof.Proof.Gen.ReferenceIdeal

noncomputable section

namespace Cert.ReferenceIdeal.RefValue

open Cert.ReferenceIdeal Cert.ReferenceIdeal.Gen Idealize.ShloMosaic

variable {F : FTy → Type} [FloatOps F]

/-- Time step t's slice: the input cut at t along the time axis, the unit time axis dropped. -/
def stepInput (x : FVec F S16x512x12x256 .f32) (off : Fin 4 → Nat) (hs : S16x512x12x256.Slices off S16x512x1x256) :
    FVec F S16x512x256 .f32 :=
  shapeCast _ (extractStridedSlice S16x512x1x256 off x hs) shapeCasts_S16x512x1x256_S16x512x256

/-- The scores: the batched Gram matrix divided by √256, clipped below at 0. -/
def stepScores (xi : FVec F S16x512x256 .f32) : FVec F S16x512x512 .f32 :=
  maximumf
    (Host.divf (Host.dotGeneral dot_S16x512x256_S16x512x256_S16x512x512_2_2_1_1_0_0 none xi xi)
      (broadcastInDim S16x512x512 ![] bcast_S_S16x512x512 (Host.sqrt (constant S_ .f32 0x43800000#32))))
    (broadcastInDim S16x512x512 ![] bcast_S_S16x512x512 (constant S_ .f32 0x00000000#32))

/-- Each row's maximum, compared once more with −∞. -/
def stepRowMax (s : FVec F S16x512x512 .f32) : FVec F S16x512 .f32 :=
  maximumf (broadcastInDim S16x512 ![] bcast_S_S16x512 (constant S_ .f32 0xFF800000#32))
    (Host.reduce FloatOps.maximumf s (constant S_ .f32 0xFF800000#32) reducesTo_S16x512x512_S16x512_d2 h_S_)

/-- The unnormalized weights: the exponential of a score less its row's maximum. -/
def stepWeights (s : FVec F S16x512x512 .f32) : FVec F S16x512x512 .f32 :=
  Host.exp (subf s (broadcastInDim S16x512x512 ![0, 1, 2] bcast_S16x512x1_S16x512x512_0_1_2
    (broadcastInDim S16x512x1 ![0, 1] bcast_S16x512_S16x512x1_0_1 (stepRowMax s))))

/-- Each row's sum of weights, from an explicit 0. -/
def stepRowSum (e : FVec F S16x512x512 .f32) : FVec F S16x512 .f32 :=
  Host.reduceAdd e (constant S_ .f32 0x00000000#32) reducesTo_S16x512x512_S16x512_d2 h_S_

/-- The softmax: each weight divided by its row's sum. -/
def stepSoftmax (e : FVec F S16x512x512 .f32) : FVec F S16x512x512 .f32 :=
  Host.divf e (broadcastInDim S16x512x512 ![0, 1, 2] bcast_S16x512x1_S16x512x512_0_1_2
    (broadcastInDim S16x512x1 ![0, 1] bcast_S16x512_S16x512x1_0_1 (stepRowSum e)))

/-- The layer's output from the softmax weights: aggregate, linear map, bias, clip below at 0. -/
def stepOut (a : FVec F S16x512x512 .f32) (xi : FVec F S16x512x256 .f32) (w : FVec F S256x256 .f32) (b : FVec F S256 .f32) :
    FVec F S16x512x256 .f32 :=
  maximumf
    (addf
      (Host.dotGeneral dot_S16x512x256_S256x256_S16x512x256_2_0_01_1_n_n none
        (Host.dotGeneral dot_S16x512x512_S16x512x256_S16x512x256_2_1_1_2_0_0 none a xi) w)
      (broadcastInDim S16x512x256 ![0, 1, 2] bcast_S1x1x256_S16x512x256_0_1_2 (broadcastInDim S1x1x256 ![2] bcast_S256_S1x1x256_2 b)))
    (broadcastInDim S16x512x256 ![] bcast_S_S16x512x256 (constant S_ .f32 0x00000000#32))

/-- One time step of the reference: the layer applied to a slice. -/
def step (xi : FVec F S16x512x256 .f32) (w : FVec F S256x256 .f32) (b : FVec F S256 .f32) : FVec F S16x512x256 .f32 :=
  stepOut (stepSoftmax (stepWeights (stepScores xi))) xi w b

/-- A time step's result with its unit time axis put back: what the final concatenation joins. -/
def stepPiece (y : FVec F S16x512x256 .f32) : FVec F S16x512x1x256 .f32 :=
  broadcastInDim S16x512x1x256 ![0, 1, 3] bcast_S16x512x256_S16x512x1x256_0_1_3 y

/-- THE REFERENCE'S RESULT: the twelve time steps' results joined along the time axis. -/
def result (x : FVec F S16x512x12x256 .f32) (w : FVec F S256x256 .f32) (b : FVec F S256 .f32) : FVec F S16x512x12x256 .f32 :=
  concatenate S16x512x12x256 2
    [⟨S16x512x1x256, stepPiece (step (stepInput x ![0, 0, 0, 0] slices_S16x512x12x256_S16x512x1x256_0_0_0_0) w b)⟩,
     ⟨S16x512x1x256, stepPiece (step (stepInput x ![0, 0, 1, 0] slices_S16x512x12x256_S16x512x1x256_0_0_1_0) w b)⟩,
     ⟨S16x512x1x256, stepPiece (step (stepInput x ![0, 0, 2, 0] slices_S16x512x12x256_S16x512x1x256_0_0_2_0) w b)⟩,
     ⟨S16x512x1x256, stepPiece (step (stepInput x ![0, 0, 3, 0] slices_S16x512x12x256_S16x512x1x256_0_0_3_0) w b)⟩,
     ⟨S16x512x1x256, stepPiece (step (stepInput x ![0, 0, 4, 0] slices_S16x512x12x256_S16x512x1x256_0_0_4_0) w b)⟩,
     ⟨S16x512x1x256, stepPiece (step (stepInput x ![0, 0, 5, 0] slices_S16x512x12x256_S16x512x1x256_0_0_5_0) w b)⟩,
     ⟨S16x512x1x256, stepPiece (step (stepInput x ![0, 0, 6, 0] slices_S16x512x12x256_S16x512x1x256_0_0_6_0) w b)⟩,
     ⟨S16x512x1x256, stepPiece (step (stepInput x ![0, 0, 7, 0] slices_S16x512x12x256_S16x512x1x256_0_0_7_0) w b)⟩,
     ⟨S16x512x1x256, stepPiece (step (stepInput x ![0, 0, 8, 0] slices_S16x512x12x256_S16x512x1x256_0_0_8_0) w b)⟩,
     ⟨S16x512x1x256, stepPiece (step (stepInput x ![0, 0, 9, 0] slices_S16x512x12x256_S16x512x1x256_0_0_9_0) w b)⟩,
     ⟨S16x512x1x256, stepPiece (step (stepInput x ![0, 0, 10, 0] slices_S16x512x12x256_S16x512x1x256_0_0_10_0) w b)⟩,
     ⟨S16x512x1x256, stepPiece (step (stepInput x ![0, 0, 11, 0] slices_S16x512x12x256_S16x512x1x256_0_0_11_0) w b)⟩]
    concatenates_S16x512x1x256_S16x512x1x256_S16x512x1x256_S16x512x1x256_S16x512x1x256_S16x512x1x256_S16x512x1x256_S16x512x1x256_S16x512x1x256_S16x512x1x256_S16x512x1x256_S16x512x1x256_S16x512x12x256_d2

end Cert.ReferenceIdeal.RefValue

end
-- ==== Proof.RefRun.lean ====
/-
  THE RUN OF THE REFERENCE PROGRAM.

  The reference is a host program of 375 operations and no kernel: the constant 256 and its square root; then,
  for each of the twelve time steps, the same thirty operations on buffers of the step's own (the step's slice
  of the input, the scores, the softmax, the aggregation, the linear map, the bias, the clip), reading only the
  three arguments and the square root; then the twelve results, each with its unit time axis put back, joined
  along the time axis.

  The operations are written once, in nineteen consecutive pieces, cut wherever a printed window of @main or a
  time step begins, so that both readings of the program are concatenations of the same pieces:
    * by printed window: each window of @main is the straight line of its pieces (by unfolding), hence @main
      is the straight line of all 375 operations, and the library's run of a straight line applies: every
      buffer ends at the fold of the operations' results over its launch contents;
    * by time step: the fold over a concatenation is the folds in turn; a time step's fold leaves every buffer
      it does not write as it was, and leaves its result buffer at the reference's time-step function of the
      arguments' contents and of the square root's buffer; the last thirteen operations leave the result at the
      concatenation of the twelve results.
  Read in order, the result buffer ends at RefValue.result of the arguments' launch contents, and the
  arguments end as they were launched.
-/
import proofs.«114045_g54185307406482_cont_9to1_m_905_2_alg».proof.Proof.RefStep
import Idealize.ShloMosaic.Lib.StableHlo.Run
import Idealize.ShloMosaic.Lib.Pipeline.Frame

noncomputable section

namespace Cert.ReferenceIdeal.RefRun

open Cert.ReferenceIdeal Cert.ReferenceIdeal.Gen Cert.ReferenceIdeal.RefValue Idealize.ShloMosaic Idealize.ShloMosaic.TcCoe Idealize.SL.Sem Idealize.ShloMosaic.StableHlo

variable {F : FTy → Type} [FloatOps F]

/-! ## Two facts about lists -/

/-- A property of every element of two lists holds of every element of their concatenation. -/
theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-- The one buffer of a listed reference lies among the listed references' buffers. -/
theorem writes_sub {W : List (Ref sig .tc)} (y : Ref sig .tc) (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem hy))

/-! ## The time step with the divisor's scalar left open

The program computes the square root of 256 once, before the first time step, and every step reads it from
its buffer; a step's fold is therefore stated over that buffer's contents. -/

/-- The scores over any scalar under the division. -/
noncomputable def scoresG (s : FVec F S_ .f32) (xi : FVec F S16x512x256 .f32) : FVec F S16x512x512 .f32 :=
  maximumf
    (Host.divf (Host.dotGeneral dot_S16x512x256_S16x512x256_S16x512x512_2_2_1_1_0_0 none xi xi)
      (broadcastInDim S16x512x512 ![] bcast_S_S16x512x512 s))
    (broadcastInDim S16x512x512 ![] bcast_S_S16x512x512 (constant S_ .f32 0x00000000#32))

/-- One time step over any such scalar. -/
noncomputable def stepG (s : FVec F S_ .f32) (xi : FVec F S16x512x256 .f32) (w : FVec F S256x256 .f32) (b : FVec F S256 .f32) :
    FVec F S16x512x256 .f32 :=
  stepOut (stepSoftmax (stepWeights (scoresG s xi))) xi w b

/-- At the square root of 256 it is the reference's time step. -/
theorem stepG_sqrt (xi : FVec F S16x512x256 .f32) (w : FVec F S256x256 .f32) (b : FVec F S256 .f32) :
    stepG (Host.sqrt (constant (F := F) S_ .f32 0x43800000#32)) xi w b = step xi w b := rfl

/-! ## The join of twelve results

The reference's last operation as a function of its twelve operands: the concatenation's shape evidence speaks
of the list of parts, so a part is rewritten through this function's plain arguments. -/

/-- Twelve time steps' results, each with its unit time axis put back, joined along the time axis. -/
noncomputable def join12 (y0 y1 y2 y3 y4 y5 y6 y7 y8 y9 y10 y11 : FVec F S16x512x256 .f32) : FVec F S16x512x12x256 .f32 :=
  concatenate S16x512x12x256 2
    [⟨S16x512x1x256, stepPiece y0⟩,
     ⟨S16x512x1x256, stepPiece y1⟩,
     ⟨S16x512x1x256, stepPiece y2⟩,
     ⟨S16x512x1x256, stepPiece y3⟩,
     ⟨S16x512x1x256, stepPiece y4⟩,
     ⟨S16x512x1x256, stepPiece y5⟩,
     ⟨S16x512x1x256, stepPiece y6⟩,
     ⟨S16x512x1x256, stepPiece y7⟩,
     ⟨S16x512x1x256, stepPiece y8⟩,
     ⟨S16x512x1x256, stepPiece y9⟩,
     ⟨S16x512x1x256, stepPiece y10⟩,
     ⟨S16x512x1x256, stepPiece y11⟩]
    concatenates_S16x512x1x256_S16x512x1x256_S16x512x1x256_S16x512x1x256_S16x512x1x256_S16x512x1x256_S16x512x1x256_S16x512x1x256_S16x512x1x256_S16x512x1x256_S16x512x1x256_S16x512x1x256_S16x512x12x256_d2

/-- The reference's result is the join of its twelve time steps. -/
theorem result_eq (x : FVec F S16x512x12x256 .f32) (w : FVec F S256x256 .f32) (b : FVec F S256 .f32) :
    result x w b = join12
      (step (stepInput x ![0, 0, 0, 0] slices_S16x512x12x256_S16x512x1x256_0_0_0_0) w b)
      (step (stepInput x ![0, 0, 1, 0] slices_S16x512x12x256_S16x512x1x256_0_0_1_0) w b)
      (step (stepInput x ![0, 0, 2, 0] slices_S16x512x12x256_S16x512x1x256_0_0_2_0) w b)
      (step (stepInput x ![0, 0, 3, 0] slices_S16x512x12x256_S16x512x1x256_0_0_3_0) w b)
      (step (stepInput x ![0, 0, 4, 0] slices_S16x512x12x256_S16x512x1x256_0_0_4_0) w b)
      (step (stepInput x ![0, 0, 5, 0] slices_S16x512x12x256_S16x512x1x256_0_0_5_0) w b)
      (step (stepInput x ![0, 0, 6, 0] slices_S16x512x12x256_S16x512x1x256_0_0_6_0) w b)
      (step (stepInput x ![0, 0, 7, 0] slices_S16x512x12x256_S16x512x1x256_0_0_7_0) w b)
      (step (stepInput x ![0, 0, 8, 0] slices_S16x512x12x256_S16x512x1x256_0_0_8_0) w b)
      (step (stepInput x ![0, 0, 9, 0] slices_S16x512x12x256_S16x512x1x256_0_0_9_0) w b)
      (step (stepInput x ![0, 0, 10, 0] slices_S16x512x12x256_S16x512x1x256_0_0_10_0) w b)
      (step (stepInput x ![0, 0, 11, 0] slices_S16x512x12x256_S16x512x1x256_0_0_11_0) w b) := rfl

/-! ## The buffers each stretch of the program writes -/
/-- The references the prologue writes. -/
noncomputable def Wpro : List (Ref sig .tc) := [main_cst, main_v0]
/-- The references time step 0 writes. -/
noncomputable def W0 : List (Ref sig .tc) := [main_v1, main_v2, main_v3, main_v4, main_v5, main_call0_cst, main_call0_v0, main_v6, main_cst_0, main_v7, main_cst_1, main_v8, main_v9, main_v10, main_v11, main_v12, main_v13, main_cst_2, main_v14, main_v15, main_v16, main_v17, main_v18, main_v19, main_v20, main_v21, main_v22, main_call1_cst, main_call1_v0, main_v23]
/-- The references time step 1 writes. -/
noncomputable def W1 : List (Ref sig .tc) := [main_v24, main_v25, main_v26, main_v27, main_v28, main_call2_cst, main_call2_v0, main_v29, main_cst_3, main_v30, main_cst_4, main_v31, main_v32, main_v33, main_v34, main_v35, main_v36, main_cst_5, main_v37, main_v38, main_v39, main_v40, main_v41, main_v42, main_v43, main_v44, main_v45, main_call3_cst, main_call3_v0, main_v46]
/-- The references time step 2 writes. -/
noncomputable def W2 : List (Ref sig .tc) := [main_v47, main_v48, main_v49, main_v50, main_v51, main_call4_cst, main_call4_v0, main_v52, main_cst_6, main_v53, main_cst_7, main_v54, main_v55, main_v56, main_v57, main_v58, main_v59, main_cst_8, main_v60, main_v61, main_v62, main_v63, main_v64, main_v65, main_v66, main_v67, main_v68, main_call5_cst, main_call5_v0, main_v69]
/-- The references time step 3 writes. -/
noncomputable def W3 : List (Ref sig .tc) := [main_v70, main_v71, main_v72, main_v73, main_v74, main_call6_cst, main_call6_v0, main_v75, main_cst_9, main_v76, main_cst_10, main_v77, main_v78, main_v79, main_v80, main_v81, main_v82, main_cst_11, main_v83, main_v84, main_v85, main_v86, main_v87, main_v88, main_v89, main_v90, main_v91, main_call7_cst, main_call7_v0, main_v92]
/-- The references time step 4 writes. -/
noncomputable def W4 : List (Ref sig .tc) := [main_v93, main_v94, main_v95, main_v96, main_v97, main_call8_cst, main_call8_v0, main_v98, main_cst_12, main_v99, main_cst_13, main_v100, main_v101, main_v102, main_v103, main_v104, main_v105, main_cst_14, main_v106, main_v107, main_v108, main_v109, main_v110, main_v111, main_v112, main_v113, main_v114, main_call9_cst, main_call9_v0, main_v115]
/-- The references time step 5 writes. -/
noncomputable def W5 : List (Ref sig .tc) := [main_v116, main_v117, main_v118, main_v119, main_v120, main_call10_cst, main_call10_v0, main_v121, main_cst_15, main_v122, main_cst_16, main_v123, main_v124, main_v125, main_v126, main_v127, main_v128, main_cst_17, main_v129, main_v130, main_v131, main_v132, main_v133, main_v134, main_v135, main_v136, main_v137, main_call11_cst, main_call11_v0, main_v138]
/-- The references time step 6 writes. -/
noncomputable def W6 : List (Ref sig .tc) := [main_v139, main_v140, main_v141, main_v142, main_v143, main_call12_cst, main_call12_v0, main_v144, main_cst_18, main_v145, main_cst_19, main_v146, main_v147, main_v148, main_v149, main_v150, main_v151, main_cst_20, main_v152, main_v153, main_v154, main_v155, main_v156, main_v157, main_v158, main_v159, main_v160, main_call13_cst, main_call13_v0, main_v161]
/-- The references time step 7 writes. -/
noncomputable def W7 : List (Ref sig .tc) := [main_v162, main_v163, main_v164, main_v165, main_v166, main_call14_cst, main_call14_v0, main_v167, main_cst_21, main_v168, main_cst_22, main_v169, main_v170, main_v171, main_v172, main_v173, main_v174, main_cst_23, main_v175, main_v176, main_v177, main_v178, main_v179, main_v180, main_v181, main_v182, main_v183, main_call15_cst, main_call15_v0, main_v184]
/-- The references time step 8 writes. -/
noncomputable def W8 : List (Ref sig .tc) := [main_v185, main_v186, main_v187, main_v188, main_v189, main_call16_cst, main_call16_v0, main_v190, main_cst_24, main_v191, main_cst_25, main_v192, main_v193, main_v194, main_v195, main_v196, main_v197, main_cst_26, main_v198, main_v199, main_v200, main_v201, main_v202, main_v203, main_v204, main_v205, main_v206, main_call17_cst, main_call17_v0, main_v207]
/-- The references time step 9 writes. -/
noncomputable def W9 : List (Ref sig .tc) := [main_v208, main_v209, main_v210, main_v211, main_v212, main_call18_cst, main_call18_v0, main_v213, main_cst_27, main_v214, main_cst_28, main_v215, main_v216, main_v217, main_v218, main_v219, main_v220, main_cst_29, main_v221, main_v222, main_v223, main_v224, main_v225, main_v226, main_v227, main_v228, main_v229, main_call19_cst, main_call19_v0, main_v230]
/-- The references time step 10 writes. -/
noncomputable def W10 : List (Ref sig .tc) := [main_v231, main_v232, main_v233, main_v234, main_v235, main_call20_cst, main_call20_v0, main_v236, main_cst_30, main_v237, main_cst_31, main_v238, main_v239, main_v240, main_v241, main_v242, main_v243, main_cst_32, main_v244, main_v245, main_v246, main_v247, main_v248, main_v249, main_v250, main_v251, main_v252, main_call21_cst, main_call21_v0, main_v253]
/-- The references time step 11 writes. -/
noncomputable def W11 : List (Ref sig .tc) := [main_v254, main_v255, main_v256, main_v257, main_v258, main_call22_cst, main_call22_v0, main_v259, main_cst_33, main_v260, main_cst_34, main_v261, main_v262, main_v263, main_v264, main_v265, main_v266, main_cst_35, main_v267, main_v268, main_v269, main_v270, main_v271, main_v272, main_v273, main_v274, main_v275, main_call23_cst, main_call23_v0, main_v276]
/-- The references the epilogue writes. -/
noncomputable def Wepi : List (Ref sig .tc) := [main_v277, main_v278, main_v279, main_v280, main_v281, main_v282, main_v283, main_v284, main_v285, main_v286, main_v287, main_v288, main_v289]

/-! ## The operations, in nineteen pieces

Each piece with: every operation touches TensorCore references only; every operation determines its results;
every operation writes a buffer of its stretch's list. -/

/-- Operations 1 … 2 of 375 (the prologue). -/
noncomputable abbrev pc0 : List (HloOp τ sig (Elt F)) :=
  [ nullary main_cst (constant S_ .f32 0x43800000#32),
    unary main_cst main_v0 (Host.sqrt : (⟨S_, .f32⟩ : BufTy).Contents (Elt F) → (⟨S_, .f32⟩ : BufTy).Contents (Elt F)) ]
theorem pc0_sub : (pc0 : List (HloOp τ sig (Elt F))).Forall fun op => op.bufs ⊆ tcRefs τ sig :=
  ⟨nullary_bufs_sub .., unary_bufs_sub ..⟩
theorem pc0_fresh : (pc0 : List (HloOp τ sig (Elt F))).Forall fun op => op.fresh = ∅ :=
  ⟨rfl, rfl⟩
theorem pc0_writes : (pc0 : List (HloOp τ sig (Elt F))).Forall fun op => op.writes ⊆ (Wpro.map (Proc.devRef (τ := τ) .tc)).toFinset :=
  ⟨writes_sub main_cst (by decide), writes_sub main_v0 (by decide)⟩

/-- Operations 3 … 32 of 375 (time step 0). -/
noncomputable abbrev pc1 : List (HloOp τ sig (Elt F)) :=
  [ unary main_arg0 main_v1 ((extractStridedSlice S16x512x1x256 ![0, 0, 0, 0] · slices_S16x512x12x256_S16x512x1x256_0_0_0_0) : (⟨S16x512x12x256, .f32⟩ : BufTy).Contents (Elt F) → (⟨S16x512x1x256, .f32⟩ : BufTy).Contents (Elt F)),
    reshape main_v1 main_v2 rfl shapeCasts_S16x512x1x256_S16x512x256,
    binary main_v2 main_v2 main_v3 ((fun l r => Host.dotGeneral dot_S16x512x256_S16x512x256_S16x512x512_2_2_1_1_0_0 none l r) : (⟨S16x512x256, .f32⟩ : BufTy).Contents (Elt F) → (⟨S16x512x256, .f32⟩ : BufTy).Contents (Elt F) → (⟨S16x512x512, .f32⟩ : BufTy).Contents (Elt F)),
    unary main_v0 main_v4 (broadcastInDim S16x512x512 ![] bcast_S_S16x512x512 : (⟨S_, .f32⟩ : BufTy).Contents (Elt F) → (⟨S16x512x512, .f32⟩ : BufTy).Contents (Elt F)),
    binary main_v3 main_v4 main_v5 (Host.divf : (⟨S16x512x512, .f32⟩ : BufTy).Contents (Elt F) → (⟨S16x512x512, .f32⟩ : BufTy).Contents (Elt F) → (⟨S16x512x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S16x512x512, .f32⟩) main_call0_v0) (broadcastInDim S16x512x512 ![] bcast_S_S16x512x512),
    TRef.binary (TRef.of (T := ⟨S16x512x512, .f32⟩) main_v5) (TRef.of (T := ⟨S16x512x512, .f32⟩) main_call0_v0) (TRef.of (T := ⟨S16x512x512, .f32⟩) main_v6) maximumf,
    nullary main_cst_0 (constant S_ .f32 0xFF800000#32),
    binary main_v6 main_cst_0 main_v7 ((fun x v => Host.reduce FloatOps.maximumf x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    nullary main_cst_1 (constant S_ .f32 0xFF800000#32),
    unary main_cst_1 main_v8 (broadcastInDim S16x512 ![] bcast_S_S16x512 : (⟨S_, .f32⟩ : BufTy).Contents (Elt F) → (⟨S16x512, .f32⟩ : BufTy).Contents (Elt F)),
    binary main_v8 main_v7 main_v9 (maximumf : (⟨S16x512, .f32⟩ : BufTy).Contents (Elt F) → (⟨S16x512, .f32⟩ : BufTy).Contents (Elt F) → (⟨S16x512, .f32⟩ : BufTy).Contents (Elt F)),
    unary main_v9 main_v10 (broadcastInDim S16x512x1 ![0, 1] bcast_S16x512_S16x512x1_0_1 : (⟨S16x512, .f32⟩ : BufTy).Contents (Elt F) → (⟨S16x512x1, .f32⟩ : BufTy).Contents (Elt F)),
    unary main_v10 main_v11 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v6 main_v11 main_v12 (subf : (⟨S16x512x512, .f32⟩ : BufTy).Contents (Elt F) → (⟨S16x512x512, .f32⟩ : BufTy).Contents (Elt F) → (⟨S16x512x512, .f32⟩ : BufTy).Contents (Elt F)),
    unary main_v12 main_v13 (Host.exp : (⟨S16x512x512, .f32⟩ : BufTy).Contents (Elt F) → (⟨S16x512x512, .f32⟩ : BufTy).Contents (Elt F)),
    nullary main_cst_2 (constant S_ .f32 0x00000000#32),
    binary main_v13 main_cst_2 main_v14 ((fun x v => Host.reduceAdd x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    unary main_v14 main_v15 (broadcastInDim S16x512x1 ![0, 1] bcast_S16x512_S16x512x1_0_1 : (⟨S16x512, .f32⟩ : BufTy).Contents (Elt F) → (⟨S16x512x1, .f32⟩ : BufTy).Contents (Elt F)),
    unary main_v15 main_v16 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v13 main_v16 main_v17 (Host.divf : (⟨S16x512x512, .f32⟩ : BufTy).Contents (Elt F) → (⟨S16x512x512, .f32⟩ : BufTy).Contents (Elt F) → (⟨S16x512x512, .f32⟩ : BufTy).Contents (Elt F)),
    binary main_v17 main_v2 main_v18 ((fun l r => Host.dotGeneral dot_S16x512x512_S16x512x256_S16x512x256_2_1_1_2_0_0 none l r) : (⟨S16x512x512, .f32⟩ : BufTy).Contents (Elt F) → (⟨S16x512x256, .f32⟩ : BufTy).Contents (Elt F) → (⟨S16x512x256, .f32⟩ : BufTy).Contents (Elt F)),
    binary main_v18 main_arg1 main_v19 ((fun l r => Host.dotGeneral dot_S16x512x256_S256x256_S16x512x256_2_0_01_1_n_n none l r) : (⟨S16x512x256, .f32⟩ : BufTy).Contents (Elt F) → (⟨S256x256, .f32⟩ : BufTy).Contents (Elt F) → (⟨S16x512x256, .f32⟩ : BufTy).Contents (Elt F)),
    unary main_arg2 main_v20 (broadcastInDim S1x1x256 ![2] bcast_S256_S1x1x256_2 : (⟨S256, .f32⟩ : BufTy).Contents (Elt F) → (⟨S1x1x256, .f32⟩ : BufTy).Contents (Elt F)),
    unary main_v20 main_v21 (broadcastInDim S16x512x256 ![0, 1, 2] bcast_S1x1x256_S16x512x256_0_1_2 : (⟨S1x1x256, .f32⟩ : BufTy).Contents (Elt F) → (⟨S16x512x256, .f32⟩ : BufTy).Contents (Elt F)),
    binary main_v19 main_v21 main_v22 (addf : (⟨S16x512x256, .f32⟩ : BufTy).Contents (Elt F) → (⟨S16x512x256, .f32⟩ : BufTy).Contents (Elt F) → (⟨S16x512x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S16x512x256, .f32⟩) main_call1_v0) (broadcastInDim S16x512x256 ![] bcast_S_S16x512x256),
    TRef.binary (TRef.of (T := ⟨S16x512x256, .f32⟩) main_v22) (TRef.of (T := ⟨S16x512x256, .f32⟩) main_call1_v0) (TRef.of (T := ⟨S16x512x256, .f32⟩) main_v23) maximumf ]
theorem pc1_sub : (pc1 : List (HloOp τ sig (Elt F))).Forall fun op => op.bufs ⊆ tcRefs τ sig :=
  ⟨unary_bufs_sub .., reshape_bufs_sub .., binary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub ..⟩
theorem pc1_fresh : (pc1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem pc1_writes : (pc1 : List (HloOp τ sig (Elt F))).Forall fun op => op.writes ⊆ (W0.map (Proc.devRef (τ := τ) .tc)).toFinset :=
  ⟨writes_sub main_v1 (by decide), writes_sub main_v2 (by decide), writes_sub main_v3 (by decide), writes_sub main_v4 (by decide), writes_sub main_v5 (by decide), writes_sub main_call0_cst (by decide), writes_sub main_call0_v0 (by decide), writes_sub main_v6 (by decide), writes_sub main_cst_0 (by decide), writes_sub main_v7 (by decide), writes_sub main_cst_1 (by decide), writes_sub main_v8 (by decide), writes_sub main_v9 (by decide), writes_sub main_v10 (by decide), writes_sub main_v11 (by decide), writes_sub main_v12 (by decide), writes_sub main_v13 (by decide), writes_sub main_cst_2 (by decide), writes_sub main_v14 (by decide), writes_sub main_v15 (by decide), writes_sub main_v16 (by decide), writes_sub main_v17 (by decide), writes_sub main_v18 (by decide), writes_sub main_v19 (by decide), writes_sub main_v20 (by decide), writes_sub main_v21 (by decide), writes_sub main_v22 (by decide), writes_sub main_call1_cst (by decide), writes_sub main_call1_v0 (by decide), writes_sub main_v23 (by decide)⟩

/-- Operations 33 … 62 of 375 (time step 1). -/
noncomputable abbrev pc2 : List (HloOp τ sig (Elt F)) :=
  [ unary main_arg0 main_v24 ((extractStridedSlice S16x512x1x256 ![0, 0, 1, 0] · slices_S16x512x12x256_S16x512x1x256_0_0_1_0) : (⟨S16x512x12x256, .f32⟩ : BufTy).Contents (Elt F) → (⟨S16x512x1x256, .f32⟩ : BufTy).Contents (Elt F)),
    reshape main_v24 main_v25 rfl shapeCasts_S16x512x1x256_S16x512x256,
    binary main_v25 main_v25 main_v26 ((fun l r => Host.dotGeneral dot_S16x512x256_S16x512x256_S16x512x512_2_2_1_1_0_0 none l r) : (⟨S16x512x256, .f32⟩ : BufTy).Contents (Elt F) → (⟨S16x512x256, .f32⟩ : BufTy).Contents (Elt F) → (⟨S16x512x512, .f32⟩ : BufTy).Contents (Elt F)),
    unary main_v0 main_v27 (broadcastInDim S16x512x512 ![] bcast_S_S16x512x512 : (⟨S_, .f32⟩ : BufTy).Contents (Elt F) → (⟨S16x512x512, .f32⟩ : BufTy).Contents (Elt F)),
    binary main_v26 main_v27 main_v28 (Host.divf : (⟨S16x512x512, .f32⟩ : BufTy).Contents (Elt F) → (⟨S16x512x512, .f32⟩ : BufTy).Contents (Elt F) → (⟨S16x512x512, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S16x512x512, .f32⟩) main_call2_v0) (broadcastInDim S16x512x512 ![] bcast_S_S16x512x512),
    TRef.binary (TRef.of (T := ⟨S16x512x512, .f32⟩) main_v28) (TRef.of (T := ⟨S16x512x512, .f32⟩) main_call2_v0) (TRef.of (T := ⟨S16x512x512, .f32⟩) main_v29) maximumf,
    nullary main_cst_3 (constant S_ .f32 0xFF800000#32),
    binary main_v29 main_cst_3 main_v30 ((fun x v => Host.reduce FloatOps.maximumf x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    nullary main_cst_4 (constant S_ .f32 0xFF800000#32),
    unary main_cst_4 main_v31 (broadcastInDim S16x512 ![] bcast_S_S16x512 : (⟨S_, .f32⟩ : BufTy).Contents (Elt F) → (⟨S16x512, .f32⟩ : BufTy).Contents (Elt F)),
    binary main_v31 main_v30 main_v32 (maximumf : (⟨S16x512, .f32⟩ : BufTy).Contents (Elt F) → (⟨S16x512, .f32⟩ : BufTy).Contents (Elt F) → (⟨S16x512, .f32⟩ : BufTy).Contents (Elt F)),
    unary main_v32 main_v33 (broadcastInDim S16x512x1 ![0, 1] bcast_S16x512_S16x512x1_0_1 : (⟨S16x512, .f32⟩ : BufTy).Contents (Elt F) → (⟨S16x512x1, .f32⟩ : BufTy).Contents (Elt F)),
    unary main_v33 main_v34 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v29 main_v34 main_v35 (subf : (⟨S16x512x512, .f32⟩ : BufTy).Contents (Elt F) → (⟨S16x512x512, .f32⟩ : BufTy).Contents (Elt F) → (⟨S16x512x512, .f32⟩ : BufTy).Contents (Elt F)),
    unary main_v35 main_v36 (Host.exp : (⟨S16x512x512, .f32⟩ : BufTy).Contents (Elt F) → (⟨S16x512x512, .f32⟩ : BufTy).Contents (Elt F)),
    nullary main_cst_5 (constant S_ .f32 0x00000000#32),
    binary main_v36 main_cst_5 main_v37 ((fun x v => Host.reduceAdd x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    unary main_v37 main_v38 (broadcastInDim S16x512x1 ![0, 1] bcast_S16x512_S16x512x1_0_1 : (⟨S16x512, .f32⟩ : BufTy).Contents (Elt F) → (⟨S16x512x1, .f32⟩ : BufTy).Contents (Elt F)),
    unary main_v38 main_v39 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v36 main_v39 main_v40 (Host.divf : (⟨S16x512x512, .f32⟩ : BufTy).Contents (Elt F) → (⟨S16x512x512, .f32⟩ : BufTy).Contents (Elt F) → (⟨S16x512x512, .f32⟩ : BufTy).Contents (Elt F)),
    binary main_v40 main_v25 main_v41 ((fun l r => Host.dotGeneral dot_S16x512x512_S16x512x256_S16x512x256_2_1_1_2_0_0 none l r) : (⟨S16x512x512, .f32⟩ : BufTy).Contents (Elt F) → (⟨S16x512x256, .f32⟩ : BufTy).Contents (Elt F) → (⟨S16x512x256, .f32⟩ : BufTy).Contents (Elt F)),
    binary main_v41 main_arg1 main_v42 ((fun l r => Host.dotGeneral dot_S16x512x256_S256x256_S16x512x256_2_0_01_1_n_n none l r) : (⟨S16x512x256, .f32⟩ : BufTy).Contents (Elt F) → (⟨S256x256, .f32⟩ : BufTy).Contents (Elt F) → (⟨S16x512x256, .f32⟩ : BufTy).Contents (Elt F)),
    unary main_arg2 main_v43 (broadcastInDim S1x1x256 ![2] bcast_S256_S1x1x256_2 : (⟨S256, .f32⟩ : BufTy).Contents (Elt F) → (⟨S1x1x256, .f32⟩ : BufTy).Contents (Elt F)),
    unary main_v43 main_v44 (broadcastInDim S16x512x256 ![0, 1, 2] bcast_S1x1x256_S16x512x256_0_1_2 : (⟨S1x1x256, .f32⟩ : BufTy).Contents (Elt F) → (⟨S16x512x256, .f32⟩ : BufTy).Contents (Elt F)),
    binary main_v42 main_v44 main_v45 (addf : (⟨S16x512x256, .f32⟩ : BufTy).Contents (Elt F) → (⟨S16x512x256, .f32⟩ : BufTy).Contents (Elt F) → (⟨S16x512x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S16x512x256, .f32⟩) main_call3_v0) (broadcastInDim S16x512x256 ![] bcast_S_S16x512x256),
    TRef.binary (TRef.of (T := ⟨S16x512x256, .f32⟩) main_v45) (TRef.of (T := ⟨S16x512x256, .f32⟩) main_call3_v0) (TRef.of (T := ⟨S16x512x256, .f32⟩) main_v46) maximumf ]
theorem pc2_sub : (pc2 : List (HloOp τ sig (Elt F))).Forall fun op => op.bufs ⊆ tcRefs τ sig :=
  ⟨unary_bufs_sub .., reshape_bufs_sub .., binary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub ..⟩
theorem pc2_fresh : (pc2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem pc2_writes : (pc2 : List (HloOp τ sig (Elt F))).Forall fun op => op.writes ⊆ (W1.map (Proc.devRef (τ := τ) .tc)).toFinset :=
  ⟨writes_sub main_v24 (by decide), writes_sub main_v25 (by decide), writes_sub main_v26 (by decide), writes_sub main_v27 (by decide), writes_sub main_v28 (by decide), writes_sub main_call2_cst (by decide), writes_sub main_call2_v0 (by decide), writes_sub main_v29 (by decide), writes_sub main_cst_3 (by decide), writes_sub main_v30 (by decide), writes_sub main_cst_4 (by decide), writes_sub main_v31 (by decide), writes_sub main_v32 (by decide), writes_sub main_v33 (by decide), writes_sub main_v34 (by decide), writes_sub main_v35 (by decide), writes_sub main_v36 (by decide), writes_sub main_cst_5 (by decide), writes_sub main_v37 (by decide), writes_sub main_v38 (by decide), writes_sub main_v39 (by decide), writes_sub main_v40 (by decide), writes_sub main_v41 (by decide), writes_sub main_v42 (by decide), writes_sub main_v43 (by decide), writes_sub main_v44 (by decide), writes_sub main_v45 (by decide), writes_sub main_call3_cst (by decide), writes_sub main_call3_v0 (by decide), writes_sub main_v46 (by decide)⟩

/-- Operations 63 … 70 of 375 (time step 2). -/
noncomputable abbrev pc3 : List (HloOp τ sig (Elt F)) :=
  [ unary main_arg0 main_v47 ((extractStridedSlice S16x512x1x256 ![0, 0, 2, 0] · slices_S16x512x12x256_S16x512x1x256_0_0_2_0) : (⟨S16x512x12x256, .f32⟩ : BufTy).Contents (Elt F) → (⟨S16x512x1x256, .f32⟩ : BufTy).Contents (Elt F)),
    reshape main_v47 main_v48 rfl shapeCasts_S16x512x1x256_S16x512x256,
    binary main_v48 main_v48 main_v49 ((fun l r => Host.dotGeneral dot_S16x512x256_S16x512x256_S16x512x512_2_2_1_1_0_0 none l r) : (⟨S16x512x256, .f32⟩ : BufTy).Contents (Elt F) → (⟨S16x512x256, .f32⟩ : BufTy).Contents (Elt F) → (⟨S16x512x512, .f32⟩ : BufTy).Contents (Elt F)),
    unary main_v0 main_v50 (broadcastInDim S16x512x512 ![] bcast_S_S16x512x512 : (⟨S_, .f32⟩ : BufTy).Contents (Elt F) → (⟨S16x512x512, .f32⟩ : BufTy).Contents (Elt F)),
    binary main_v49 main_v50 main_v51 (Host.divf : (⟨S16x512x512, .f32⟩ : BufTy).Contents (Elt F) → (⟨S16x512x512, .f32⟩ : BufTy).Contents (Elt F) → (⟨S16x512x512, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S16x512x512, .f32⟩) main_call4_v0) (broadcastInDim S16x512x512 ![] bcast_S_S16x512x512),
    TRef.binary (TRef.of (T := ⟨S16x512x512, .f32⟩) main_v51) (TRef.of (T := ⟨S16x512x512, .f32⟩) main_call4_v0) (TRef.of (T := ⟨S16x512x512, .f32⟩) main_v52) maximumf ]
theorem pc3_sub : (pc3 : List (HloOp τ sig (Elt F))).Forall fun op => op.bufs ⊆ tcRefs τ sig :=
  ⟨unary_bufs_sub .., reshape_bufs_sub .., binary_bufs_sub .., unary_bufs_sub .., binary_bufs_sub .., nullary_bufs_sub .., unary_bufs_sub .., binary_bufs_sub ..⟩
theorem pc3_fresh : (pc3 : List (HloOp τ sig (Elt F))).Forall fun op => op.fresh = ∅ :=
  ⟨rfl, rfl, rfl, rfl, rfl, rfl, rfl, rfl⟩
theorem pc3_writes : (pc3 : List (HloOp τ sig (Elt F))).Forall fun op => op.writes ⊆ (W2.map (Proc.devRef (τ := τ) .tc)).toFinset :=
  ⟨writes_sub main_v47 (by decide), writes_sub main_v48 (by decide), writes_sub main_v49 (by decide), writes_sub main_v50 (by decide), writes_sub main_v51 (by decide), writes_sub main_call4_cst (by decide), writes_sub main_call4_v0 (by decide), writes_sub main_v52 (by decide)⟩

/-- Operations 71 … 92 of 375 (time step 2). -/
noncomputable abbrev pc4 : List (HloOp τ sig (Elt F)) :=
  [ nullary main_cst_6 (constant S_ .f32 0xFF800000#32),
    binary main_v52 main_cst_6 main_v53 ((fun x v => Host.reduce FloatOps.maximumf x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    nullary main_cst_7 (constant S_ .f32 0xFF800000#32),
    unary main_cst_7 main_v54 (broadcastInDim S16x512 ![] bcast_S_S16x512 : (⟨S_, .f32⟩ : BufTy).Contents (Elt F) → (⟨S16x512, .f32⟩ : BufTy).Contents (Elt F)),
    binary main_v54 main_v53 main_v55 (maximumf : (⟨S16x512, .f32⟩ : BufTy).Contents (Elt F) → (⟨S16x512, .f32⟩ : BufTy).Contents (Elt F) → (⟨S16x512, .f32⟩ : BufTy).Contents (Elt F)),
    unary main_v55 main_v56 (broadcastInDim S16x512x1 ![0, 1] bcast_S16x512_S16x512x1_0_1 : (⟨S16x512, .f32⟩ : BufTy).Contents (Elt F) → (⟨S16x512x1, .f32⟩ : BufTy).Contents (Elt F)),
    unary main_v56 main_v57 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v52 main_v57 main_v58 (subf : (⟨S16x512x512, .f32⟩ : BufTy).Contents (Elt F) → (⟨S16x512x512, .f32⟩ : BufTy).Contents (Elt F) → (⟨S16x512x512, .f32⟩ : BufTy).Contents (Elt F)),
    unary main_v58 main_v59 (Host.exp : (⟨S16x512x512, .f32⟩ : BufTy).Contents (Elt F) → (⟨S16x512x512, .f32⟩ : BufTy).Contents (Elt F)),
    nullary main_cst_8 (constant S_ .f32 0x00000000#32),
    binary main_v59 main_cst_8 main_v60 ((fun x v => Host.reduceAdd x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    unary main_v60 main_v61 (broadcastInDim S16x512x1 ![0, 1] bcast_S16x512_S16x512x1_0_1 : (⟨S16x512, .f32⟩ : BufTy).Contents (Elt F) → (⟨S16x512x1, .f32⟩ : BufTy).Contents (Elt F)),
    unary main_v61 main_v62 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v59 main_v62 main_v63 (Host.divf : (⟨S16x512x512, .f32⟩ : BufTy).Contents (Elt F) → (⟨S16x512x512, .f32⟩ : BufTy).Contents (Elt F) → (⟨S16x512x512, .f32⟩ : BufTy).Contents (Elt F)),
    binary main_v63 main_v48 main_v64 ((fun l r => Host.dotGeneral dot_S16x512x512_S16x512x256_S16x512x256_2_1_1_2_0_0 none l r) : (⟨S16x512x512, .f32⟩ : BufTy).Contents (Elt F) → (⟨S16x512x256, .f32⟩ : BufTy).Contents (Elt F) → (⟨S16x512x256, .f32⟩ : BufTy).Contents (Elt F)),
    binary main_v64 main_arg1 main_v65 ((fun l r => Host.dotGeneral dot_S16x512x256_S256x256_S16x512x256_2_0_01_1_n_n none l r) : (⟨S16x512x256, .f32⟩ : BufTy).Contents (Elt F) → (⟨S256x256, .f32⟩ : BufTy).Contents (Elt F) → (⟨S16x512x256, .f32⟩ : BufTy).Contents (Elt F)),
    unary main_arg2 main_v66 (broadcastInDim S1x1x256 ![2] bcast_S256_S1x1x256_2 : (⟨S256, .f32⟩ : BufTy).Contents (Elt F) → (⟨S1x1x256, .f32⟩ : BufTy).Contents (Elt F)),
    unary main_v66 main_v67 (broadcastInDim S16x512x256 ![0, 1, 2] bcast_S1x1x256_S16x512x256_0_1_2 : (⟨S1x1x256, .f32⟩ : BufTy).Contents (Elt F) → (⟨S16x512x256, .f32⟩ : BufTy).Contents (Elt F)),
    binary main_v65 main_v67 main_v68 (addf : (⟨S16x512x256, .f32⟩ : BufTy).Contents (Elt F) → (⟨S16x512x256, .f32⟩ : BufTy).Contents (Elt F) → (⟨S16x512x256, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S16x512x256, .f32⟩) main_call5_v0) (broadcastInDim S16x512x256 ![] bcast_S_S16x512x256),
    TRef.binary (TRef.of (T := ⟨S16x512x256, .f32⟩) main_v68) (TRef.of (T := ⟨S16x512x256, .f32⟩) main_call5_v0) (TRef.of (T := ⟨S16x512x256, .f32⟩) main_v69) maximumf ]
theorem pc4_sub : (pc4 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub ..⟩
theorem pc4_fresh : (pc4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
theorem pc4_writes : (pc4 : List (HloOp τ sig (Elt F))).Forall fun op => op.writes ⊆ (W2.map (Proc.devRef (τ := τ) .tc)).toFinset :=
  ⟨writes_sub main_cst_6 (by decide), writes_sub main_v53 (by decide), writes_sub main_cst_7 (by decide), writes_sub main_v54 (by decide), writes_sub main_v55 (by decide), writes_sub main_v56 (by decide), writes_sub main_v57 (by decide), writes_sub main_v58 (by decide), writes_sub main_v59 (by decide), writes_sub main_cst_8 (by decide), writes_sub main_v60 (by decide), writes_sub main_v61 (by decide), writes_sub main_v62 (by decide), writes_sub main_v63 (by decide), writes_sub main_v64 (by decide), writes_sub main_v65 (by decide), writes_sub main_v66 (by decide), writes_sub main_v67 (by decide), writes_sub main_v68 (by decide), writes_sub main_call5_cst (by decide), writes_sub main_call5_v0 (by decide), writes_sub main_v69 (by decide)⟩

/-- Operations 93 … 122 of 375 (time step 3). -/
noncomputable abbrev pc5 : List (HloOp τ sig (Elt F)) :=
  [ unary main_arg0 main_v70 ((extractStridedSlice S16x512x1x256 ![0, 0, 3, 0] · slices_S16x512x12x256_S16x512x1x256_0_0_3_0) : (⟨S16x512x12x256, .f32⟩ : BufTy).Contents (Elt F) → (⟨S16x512x1x256, .f32⟩ : BufTy).Contents (Elt F)),
    reshape main_v70 main_v71 rfl shapeCasts_S16x512x1x256_S16x512x256,
    binary main_v71 main_v71 main_v72 ((fun l r => Host.dotGeneral dot_S16x512x256_S16x512x256_S16x512x512_2_2_1_1_0_0 none l r) : (⟨S16x512x256, .f32⟩ : BufTy).Contents (Elt F) → (⟨S16x512x256, .f32⟩ : BufTy).Contents (Elt F) → (⟨S16x512x512, .f32⟩ : BufTy).Contents (Elt F)),
    unary main_v0 main_v73 (broadcastInDim S16x512x512 ![] bcast_S_S16x512x512 : (⟨S_, .f32⟩ : BufTy).Contents (Elt F) → (⟨S16x512x512, .f32⟩ : BufTy).Contents (Elt F)),
    binary main_v72 main_v73 main_v74 (Host.divf : (⟨S16x512x512, .f32⟩ : BufTy).Contents (Elt F) → (⟨S16x512x512, .f32⟩ : BufTy).Contents (Elt F) → (⟨S16x512x512, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S16x512x512, .f32⟩) main_call6_v0) (broadcastInDim S16x512x512 ![] bcast_S_S16x512x512),
    TRef.binary (TRef.of (T := ⟨S16x512x512, .f32⟩) main_v74) (TRef.of (T := ⟨S16x512x512, .f32⟩) main_call6_v0) (TRef.of (T := ⟨S16x512x512, .f32⟩) main_v75) maximumf,
    nullary main_cst_9 (constant S_ .f32 0xFF800000#32),
    binary main_v75 main_cst_9 main_v76 ((fun x v => Host.reduce FloatOps.maximumf x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    nullary main_cst_10 (constant S_ .f32 0xFF800000#32),
    unary main_cst_10 main_v77 (broadcastInDim S16x512 ![] bcast_S_S16x512 : (⟨S_, .f32⟩ : BufTy).Contents (Elt F) → (⟨S16x512, .f32⟩ : BufTy).Contents (Elt F)),
    binary main_v77 main_v76 main_v78 (maximumf : (⟨S16x512, .f32⟩ : BufTy).Contents (Elt F) → (⟨S16x512, .f32⟩ : BufTy).Contents (Elt F) → (⟨S16x512, .f32⟩ : BufTy).Contents (Elt F)),
    unary main_v78 main_v79 (broadcastInDim S16x512x1 ![0, 1] bcast_S16x512_S16x512x1_0_1 : (⟨S16x512, .f32⟩ : BufTy).Contents (Elt F) → (⟨S16x512x1, .f32⟩ : BufTy).Contents (Elt F)),
    unary main_v79 main_v80 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v75 main_v80 main_v81 (subf : (⟨S16x512x512, .f32⟩ : BufTy).Contents (Elt F) → (⟨S16x512x512, .f32⟩ : BufTy).Contents (Elt F) → (⟨S16x512x512, .f32⟩ : BufTy).Contents (Elt F)),
    unary main_v81 main_v82 (Host.exp : (⟨S16x512x512, .f32⟩ : BufTy).Contents (Elt F) → (⟨S16x512x512, .f32⟩ : BufTy).Contents (Elt F)),
    nullary main_cst_11 (constant S_ .f32 0x00000000#32),
    binary main_v82 main_cst_11 main_v83 ((fun x v => Host.reduceAdd x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    unary main_v83 main_v84 (broadcastInDim S16x512x1 ![0, 1] bcast_S16x512_S16x512x1_0_1 : (⟨S16x512, .f32⟩ : BufTy).Contents (Elt F) → (⟨S16x512x1, .f32⟩ : BufTy).Contents (Elt F)),
    unary main_v84 main_v85 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v82 main_v85 main_v86 (Host.divf : (⟨S16x512x512, .f32⟩ : BufTy).Contents (Elt F) → (⟨S16x512x512, .f32⟩ : BufTy).Contents (Elt F) → (⟨S16x512x512, .f32⟩ : BufTy).Contents (Elt F)),
    binary main_v86 main_v71 main_v87 ((fun l r => Host.dotGeneral dot_S16x512x512_S16x512x256_S16x512x256_2_1_1_2_0_0 none l r) : (⟨S16x512x512, .f32⟩ : BufTy).Contents (Elt F) → (⟨S16x512x256, .f32⟩ : BufTy).Contents (Elt F) → (⟨S16x512x256, .f32⟩ : BufTy).Contents (Elt F)),
    binary main_v87 main_arg1 main_v88 ((fun l r => Host.dotGeneral dot_S16x512x256_S256x256_S16x512x256_2_0_01_1_n_n none l r) : (⟨S16x512x256, .f32⟩ : BufTy).Contents (Elt F) → (⟨S256x256, .f32⟩ : BufTy).Contents (Elt F) → (⟨S16x512x256, .f32⟩ : BufTy).Contents (Elt F)),
    unary main_arg2 main_v89 (broadcastInDim S1x1x256 ![2] bcast_S256_S1x1x256_2 : (⟨S256, .f32⟩ : BufTy).Contents (Elt F) → (⟨S1x1x256, .f32⟩ : BufTy).Contents (Elt F)),
    unary main_v89 main_v90 (broadcastInDim S16x512x256 ![0, 1, 2] bcast_S1x1x256_S16x512x256_0_1_2 : (⟨S1x1x256, .f32⟩ : BufTy).Contents (Elt F) → (⟨S16x512x256, .f32⟩ : BufTy).Contents (Elt F)),
    binary main_v88 main_v90 main_v91 (addf : (⟨S16x512x256, .f32⟩ : BufTy).Contents (Elt F) → (⟨S16x512x256, .f32⟩ : BufTy).Contents (Elt F) → (⟨S16x512x256, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S16x512x256, .f32⟩) main_call7_v0) (broadcastInDim S16x512x256 ![] bcast_S_S16x512x256),
    TRef.binary (TRef.of (T := ⟨S16x512x256, .f32⟩) main_v91) (TRef.of (T := ⟨S16x512x256, .f32⟩) main_call7_v0) (TRef.of (T := ⟨S16x512x256, .f32⟩) main_v92) maximumf ]
theorem pc5_sub : (pc5 : List (HloOp τ sig (Elt F))).Forall fun op => op.bufs ⊆ tcRefs τ sig :=
  ⟨unary_bufs_sub .., reshape_bufs_sub .., binary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub ..⟩
theorem pc5_fresh : (pc5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem pc5_writes : (pc5 : List (HloOp τ sig (Elt F))).Forall fun op => op.writes ⊆ (W3.map (Proc.devRef (τ := τ) .tc)).toFinset :=
  ⟨writes_sub main_v70 (by decide), writes_sub main_v71 (by decide), writes_sub main_v72 (by decide), writes_sub main_v73 (by decide), writes_sub main_v74 (by decide), writes_sub main_call6_cst (by decide), writes_sub main_call6_v0 (by decide), writes_sub main_v75 (by decide), writes_sub main_cst_9 (by decide), writes_sub main_v76 (by decide), writes_sub main_cst_10 (by decide), writes_sub main_v77 (by decide), writes_sub main_v78 (by decide), writes_sub main_v79 (by decide), writes_sub main_v80 (by decide), writes_sub main_v81 (by decide), writes_sub main_v82 (by decide), writes_sub main_cst_11 (by decide), writes_sub main_v83 (by decide), writes_sub main_v84 (by decide), writes_sub main_v85 (by decide), writes_sub main_v86 (by decide), writes_sub main_v87 (by decide), writes_sub main_v88 (by decide), writes_sub main_v89 (by decide), writes_sub main_v90 (by decide), writes_sub main_v91 (by decide), writes_sub main_call7_cst (by decide), writes_sub main_call7_v0 (by decide), writes_sub main_v92 (by decide)⟩

/-- Operations 123 … 138 of 375 (time step 4). -/
noncomputable abbrev pc6 : List (HloOp τ sig (Elt F)) :=
  [ unary main_arg0 main_v93 ((extractStridedSlice S16x512x1x256 ![0, 0, 4, 0] · slices_S16x512x12x256_S16x512x1x256_0_0_4_0) : (⟨S16x512x12x256, .f32⟩ : BufTy).Contents (Elt F) → (⟨S16x512x1x256, .f32⟩ : BufTy).Contents (Elt F)),
    reshape main_v93 main_v94 rfl shapeCasts_S16x512x1x256_S16x512x256,
    binary main_v94 main_v94 main_v95 ((fun l r => Host.dotGeneral dot_S16x512x256_S16x512x256_S16x512x512_2_2_1_1_0_0 none l r) : (⟨S16x512x256, .f32⟩ : BufTy).Contents (Elt F) → (⟨S16x512x256, .f32⟩ : BufTy).Contents (Elt F) → (⟨S16x512x512, .f32⟩ : BufTy).Contents (Elt F)),
    unary main_v0 main_v96 (broadcastInDim S16x512x512 ![] bcast_S_S16x512x512 : (⟨S_, .f32⟩ : BufTy).Contents (Elt F) → (⟨S16x512x512, .f32⟩ : BufTy).Contents (Elt F)),
    binary main_v95 main_v96 main_v97 (Host.divf : (⟨S16x512x512, .f32⟩ : BufTy).Contents (Elt F) → (⟨S16x512x512, .f32⟩ : BufTy).Contents (Elt F) → (⟨S16x512x512, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S16x512x512, .f32⟩) main_call8_v0) (broadcastInDim S16x512x512 ![] bcast_S_S16x512x512),
    TRef.binary (TRef.of (T := ⟨S16x512x512, .f32⟩) main_v97) (TRef.of (T := ⟨S16x512x512, .f32⟩) main_call8_v0) (TRef.of (T := ⟨S16x512x512, .f32⟩) main_v98) maximumf,
    nullary main_cst_12 (constant S_ .f32 0xFF800000#32),
    binary main_v98 main_cst_12 main_v99 ((fun x v => Host.reduce FloatOps.maximumf x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    nullary main_cst_13 (constant S_ .f32 0xFF800000#32),
    unary main_cst_13 main_v100 (broadcastInDim S16x512 ![] bcast_S_S16x512 : (⟨S_, .f32⟩ : BufTy).Contents (Elt F) → (⟨S16x512, .f32⟩ : BufTy).Contents (Elt F)),
    binary main_v100 main_v99 main_v101 (maximumf : (⟨S16x512, .f32⟩ : BufTy).Contents (Elt F) → (⟨S16x512, .f32⟩ : BufTy).Contents (Elt F) → (⟨S16x512, .f32⟩ : BufTy).Contents (Elt F)),
    unary main_v101 main_v102 (broadcastInDim S16x512x1 ![0, 1] bcast_S16x512_S16x512x1_0_1 : (⟨S16x512, .f32⟩ : BufTy).Contents (Elt F) → (⟨S16x512x1, .f32⟩ : BufTy).Contents (Elt F)),
    unary main_v102 main_v103 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v98 main_v103 main_v104 (subf : (⟨S16x512x512, .f32⟩ : BufTy).Contents (Elt F) → (⟨S16x512x512, .f32⟩ : BufTy).Contents (Elt F) → (⟨S16x512x512, .f32⟩ : BufTy).Contents (Elt F)) ]
theorem pc6_sub : (pc6 : List (HloOp τ sig (Elt F))).Forall fun op => op.bufs ⊆ tcRefs τ sig :=
  ⟨unary_bufs_sub .., reshape_bufs_sub .., binary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub ..⟩
theorem pc6_fresh : (pc6 : List (HloOp τ sig (Elt F))).Forall fun op => op.fresh = ∅ :=
  ⟨rfl, rfl, rfl, rfl, rfl, rfl, rfl, rfl, rfl, rfl, rfl, rfl, rfl, rfl, rfl, rfl⟩
theorem pc6_writes : (pc6 : List (HloOp τ sig (Elt F))).Forall fun op => op.writes ⊆ (W4.map (Proc.devRef (τ := τ) .tc)).toFinset :=
  ⟨writes_sub main_v93 (by decide), writes_sub main_v94 (by decide), writes_sub main_v95 (by decide), writes_sub main_v96 (by decide), writes_sub main_v97 (by decide), writes_sub main_call8_cst (by decide), writes_sub main_call8_v0 (by decide), writes_sub main_v98 (by decide), writes_sub main_cst_12 (by decide), writes_sub main_v99 (by decide), writes_sub main_cst_13 (by decide), writes_sub main_v100 (by decide), writes_sub main_v101 (by decide), writes_sub main_v102 (by decide), writes_sub main_v103 (by decide), writes_sub main_v104 (by decide)⟩

/-- Operations 139 … 152 of 375 (time step 4). -/
noncomputable abbrev pc7 : List (HloOp τ sig (Elt F)) :=
  [ unary main_v104 main_v105 (Host.exp : (⟨S16x512x512, .f32⟩ : BufTy).Contents (Elt F) → (⟨S16x512x512, .f32⟩ : BufTy).Contents (Elt F)),
    nullary main_cst_14 (constant S_ .f32 0x00000000#32),
    binary main_v105 main_cst_14 main_v106 ((fun x v => Host.reduceAdd x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    unary main_v106 main_v107 (broadcastInDim S16x512x1 ![0, 1] bcast_S16x512_S16x512x1_0_1 : (⟨S16x512, .f32⟩ : BufTy).Contents (Elt F) → (⟨S16x512x1, .f32⟩ : BufTy).Contents (Elt F)),
    unary main_v107 main_v108 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v105 main_v108 main_v109 (Host.divf : (⟨S16x512x512, .f32⟩ : BufTy).Contents (Elt F) → (⟨S16x512x512, .f32⟩ : BufTy).Contents (Elt F) → (⟨S16x512x512, .f32⟩ : BufTy).Contents (Elt F)),
    binary main_v109 main_v94 main_v110 ((fun l r => Host.dotGeneral dot_S16x512x512_S16x512x256_S16x512x256_2_1_1_2_0_0 none l r) : (⟨S16x512x512, .f32⟩ : BufTy).Contents (Elt F) → (⟨S16x512x256, .f32⟩ : BufTy).Contents (Elt F) → (⟨S16x512x256, .f32⟩ : BufTy).Contents (Elt F)),
    binary main_v110 main_arg1 main_v111 ((fun l r => Host.dotGeneral dot_S16x512x256_S256x256_S16x512x256_2_0_01_1_n_n none l r) : (⟨S16x512x256, .f32⟩ : BufTy).Contents (Elt F) → (⟨S256x256, .f32⟩ : BufTy).Contents (Elt F) → (⟨S16x512x256, .f32⟩ : BufTy).Contents (Elt F)),
    unary main_arg2 main_v112 (broadcastInDim S1x1x256 ![2] bcast_S256_S1x1x256_2 : (⟨S256, .f32⟩ : BufTy).Contents (Elt F) → (⟨S1x1x256, .f32⟩ : BufTy).Contents (Elt F)),
    unary main_v112 main_v113 (broadcastInDim S16x512x256 ![0, 1, 2] bcast_S1x1x256_S16x512x256_0_1_2 : (⟨S1x1x256, .f32⟩ : BufTy).Contents (Elt F) → (⟨S16x512x256, .f32⟩ : BufTy).Contents (Elt F)),
    binary main_v111 main_v113 main_v114 (addf : (⟨S16x512x256, .f32⟩ : BufTy).Contents (Elt F) → (⟨S16x512x256, .f32⟩ : BufTy).Contents (Elt F) → (⟨S16x512x256, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S16x512x256, .f32⟩) main_call9_v0) (broadcastInDim S16x512x256 ![] bcast_S_S16x512x256),
    TRef.binary (TRef.of (T := ⟨S16x512x256, .f32⟩) main_v114) (TRef.of (T := ⟨S16x512x256, .f32⟩) main_call9_v0) (TRef.of (T := ⟨S16x512x256, .f32⟩) main_v115) maximumf ]
theorem pc7_sub : (pc7 : List (HloOp τ sig (Elt F))).Forall fun op => op.bufs ⊆ tcRefs τ sig :=
  ⟨unary_bufs_sub .., nullary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub ..⟩
theorem pc7_fresh : (pc7 : List (HloOp τ sig (Elt F))).Forall fun op => op.fresh = ∅ :=
  ⟨rfl, rfl, rfl, rfl, rfl, rfl, rfl, rfl, rfl, rfl, rfl, rfl, rfl, rfl⟩
theorem pc7_writes : (pc7 : List (HloOp τ sig (Elt F))).Forall fun op => op.writes ⊆ (W4.map (Proc.devRef (τ := τ) .tc)).toFinset :=
  ⟨writes_sub main_v105 (by decide), writes_sub main_cst_14 (by decide), writes_sub main_v106 (by decide), writes_sub main_v107 (by decide), writes_sub main_v108 (by decide), writes_sub main_v109 (by decide), writes_sub main_v110 (by decide), writes_sub main_v111 (by decide), writes_sub main_v112 (by decide), writes_sub main_v113 (by decide), writes_sub main_v114 (by decide), writes_sub main_call9_cst (by decide), writes_sub main_call9_v0 (by decide), writes_sub main_v115 (by decide)⟩

/-- Operations 153 … 182 of 375 (time step 5). -/
noncomputable abbrev pc8 : List (HloOp τ sig (Elt F)) :=
  [ unary main_arg0 main_v116 ((extractStridedSlice S16x512x1x256 ![0, 0, 5, 0] · slices_S16x512x12x256_S16x512x1x256_0_0_5_0) : (⟨S16x512x12x256, .f32⟩ : BufTy).Contents (Elt F) → (⟨S16x512x1x256, .f32⟩ : BufTy).Contents (Elt F)),
    reshape main_v116 main_v117 rfl shapeCasts_S16x512x1x256_S16x512x256,
    binary main_v117 main_v117 main_v118 ((fun l r => Host.dotGeneral dot_S16x512x256_S16x512x256_S16x512x512_2_2_1_1_0_0 none l r) : (⟨S16x512x256, .f32⟩ : BufTy).Contents (Elt F) → (⟨S16x512x256, .f32⟩ : BufTy).Contents (Elt F) → (⟨S16x512x512, .f32⟩ : BufTy).Contents (Elt F)),
    unary main_v0 main_v119 (broadcastInDim S16x512x512 ![] bcast_S_S16x512x512 : (⟨S_, .f32⟩ : BufTy).Contents (Elt F) → (⟨S16x512x512, .f32⟩ : BufTy).Contents (Elt F)),
    binary main_v118 main_v119 main_v120 (Host.divf : (⟨S16x512x512, .f32⟩ : BufTy).Contents (Elt F) → (⟨S16x512x512, .f32⟩ : BufTy).Contents (Elt F) → (⟨S16x512x512, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S16x512x512, .f32⟩) main_call10_v0) (broadcastInDim S16x512x512 ![] bcast_S_S16x512x512),
    TRef.binary (TRef.of (T := ⟨S16x512x512, .f32⟩) main_v120) (TRef.of (T := ⟨S16x512x512, .f32⟩) main_call10_v0) (TRef.of (T := ⟨S16x512x512, .f32⟩) main_v121) maximumf,
    nullary main_cst_15 (constant S_ .f32 0xFF800000#32),
    binary main_v121 main_cst_15 main_v122 ((fun x v => Host.reduce FloatOps.maximumf x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    nullary main_cst_16 (constant S_ .f32 0xFF800000#32),
    unary main_cst_16 main_v123 (broadcastInDim S16x512 ![] bcast_S_S16x512 : (⟨S_, .f32⟩ : BufTy).Contents (Elt F) → (⟨S16x512, .f32⟩ : BufTy).Contents (Elt F)),
    binary main_v123 main_v122 main_v124 (maximumf : (⟨S16x512, .f32⟩ : BufTy).Contents (Elt F) → (⟨S16x512, .f32⟩ : BufTy).Contents (Elt F) → (⟨S16x512, .f32⟩ : BufTy).Contents (Elt F)),
    unary main_v124 main_v125 (broadcastInDim S16x512x1 ![0, 1] bcast_S16x512_S16x512x1_0_1 : (⟨S16x512, .f32⟩ : BufTy).Contents (Elt F) → (⟨S16x512x1, .f32⟩ : BufTy).Contents (Elt F)),
    unary main_v125 main_v126 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v121 main_v126 main_v127 (subf : (⟨S16x512x512, .f32⟩ : BufTy).Contents (Elt F) → (⟨S16x512x512, .f32⟩ : BufTy).Contents (Elt F) → (⟨S16x512x512, .f32⟩ : BufTy).Contents (Elt F)),
    unary main_v127 main_v128 (Host.exp : (⟨S16x512x512, .f32⟩ : BufTy).Contents (Elt F) → (⟨S16x512x512, .f32⟩ : BufTy).Contents (Elt F)),
    nullary main_cst_17 (constant S_ .f32 0x00000000#32),
    binary main_v128 main_cst_17 main_v129 ((fun x v => Host.reduceAdd x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    unary main_v129 main_v130 (broadcastInDim S16x512x1 ![0, 1] bcast_S16x512_S16x512x1_0_1 : (⟨S16x512, .f32⟩ : BufTy).Contents (Elt F) → (⟨S16x512x1, .f32⟩ : BufTy).Contents (Elt F)),
    unary main_v130 main_v131 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v128 main_v131 main_v132 (Host.divf : (⟨S16x512x512, .f32⟩ : BufTy).Contents (Elt F) → (⟨S16x512x512, .f32⟩ : BufTy).Contents (Elt F) → (⟨S16x512x512, .f32⟩ : BufTy).Contents (Elt F)),
    binary main_v132 main_v117 main_v133 ((fun l r => Host.dotGeneral dot_S16x512x512_S16x512x256_S16x512x256_2_1_1_2_0_0 none l r) : (⟨S16x512x512, .f32⟩ : BufTy).Contents (Elt F) → (⟨S16x512x256, .f32⟩ : BufTy).Contents (Elt F) → (⟨S16x512x256, .f32⟩ : BufTy).Contents (Elt F)),
    binary main_v133 main_arg1 main_v134 ((fun l r => Host.dotGeneral dot_S16x512x256_S256x256_S16x512x256_2_0_01_1_n_n none l r) : (⟨S16x512x256, .f32⟩ : BufTy).Contents (Elt F) → (⟨S256x256, .f32⟩ : BufTy).Contents (Elt F) → (⟨S16x512x256, .f32⟩ : BufTy).Contents (Elt F)),
    unary main_arg2 main_v135 (broadcastInDim S1x1x256 ![2] bcast_S256_S1x1x256_2 : (⟨S256, .f32⟩ : BufTy).Contents (Elt F) → (⟨S1x1x256, .f32⟩ : BufTy).Contents (Elt F)),
    unary main_v135 main_v136 (broadcastInDim S16x512x256 ![0, 1, 2] bcast_S1x1x256_S16x512x256_0_1_2 : (⟨S1x1x256, .f32⟩ : BufTy).Contents (Elt F) → (⟨S16x512x256, .f32⟩ : BufTy).Contents (Elt F)),
    binary main_v134 main_v136 main_v137 (addf : (⟨S16x512x256, .f32⟩ : BufTy).Contents (Elt F) → (⟨S16x512x256, .f32⟩ : BufTy).Contents (Elt F) → (⟨S16x512x256, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S16x512x256, .f32⟩) main_call11_v0) (broadcastInDim S16x512x256 ![] bcast_S_S16x512x256),
    TRef.binary (TRef.of (T := ⟨S16x512x256, .f32⟩) main_v137) (TRef.of (T := ⟨S16x512x256, .f32⟩) main_call11_v0) (TRef.of (T := ⟨S16x512x256, .f32⟩) main_v138) maximumf ]
theorem pc8_sub : (pc8 : List (HloOp τ sig (Elt F))).Forall fun op => op.bufs ⊆ tcRefs τ sig :=
  ⟨unary_bufs_sub .., reshape_bufs_sub .., binary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub ..⟩
theorem pc8_fresh : (pc8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem pc8_writes : (pc8 : List (HloOp τ sig (Elt F))).Forall fun op => op.writes ⊆ (W5.map (Proc.devRef (τ := τ) .tc)).toFinset :=
  ⟨writes_sub main_v116 (by decide), writes_sub main_v117 (by decide), writes_sub main_v118 (by decide), writes_sub main_v119 (by decide), writes_sub main_v120 (by decide), writes_sub main_call10_cst (by decide), writes_sub main_call10_v0 (by decide), writes_sub main_v121 (by decide), writes_sub main_cst_15 (by decide), writes_sub main_v122 (by decide), writes_sub main_cst_16 (by decide), writes_sub main_v123 (by decide), writes_sub main_v124 (by decide), writes_sub main_v125 (by decide), writes_sub main_v126 (by decide), writes_sub main_v127 (by decide), writes_sub main_v128 (by decide), writes_sub main_cst_17 (by decide), writes_sub main_v129 (by decide), writes_sub main_v130 (by decide), writes_sub main_v131 (by decide), writes_sub main_v132 (by decide), writes_sub main_v133 (by decide), writes_sub main_v134 (by decide), writes_sub main_v135 (by decide), writes_sub main_v136 (by decide), writes_sub main_v137 (by decide), writes_sub main_call11_cst (by decide), writes_sub main_call11_v0 (by decide), writes_sub main_v138 (by decide)⟩

/-- Operations 183 … 206 of 375 (time step 6). -/
noncomputable abbrev pc9 : List (HloOp τ sig (Elt F)) :=
  [ unary main_arg0 main_v139 ((extractStridedSlice S16x512x1x256 ![0, 0, 6, 0] · slices_S16x512x12x256_S16x512x1x256_0_0_6_0) : (⟨S16x512x12x256, .f32⟩ : BufTy).Contents (Elt F) → (⟨S16x512x1x256, .f32⟩ : BufTy).Contents (Elt F)),
    reshape main_v139 main_v140 rfl shapeCasts_S16x512x1x256_S16x512x256,
    binary main_v140 main_v140 main_v141 ((fun l r => Host.dotGeneral dot_S16x512x256_S16x512x256_S16x512x512_2_2_1_1_0_0 none l r) : (⟨S16x512x256, .f32⟩ : BufTy).Contents (Elt F) → (⟨S16x512x256, .f32⟩ : BufTy).Contents (Elt F) → (⟨S16x512x512, .f32⟩ : BufTy).Contents (Elt F)),
    unary main_v0 main_v142 (broadcastInDim S16x512x512 ![] bcast_S_S16x512x512 : (⟨S_, .f32⟩ : BufTy).Contents (Elt F) → (⟨S16x512x512, .f32⟩ : BufTy).Contents (Elt F)),
    binary main_v141 main_v142 main_v143 (Host.divf : (⟨S16x512x512, .f32⟩ : BufTy).Contents (Elt F) → (⟨S16x512x512, .f32⟩ : BufTy).Contents (Elt F) → (⟨S16x512x512, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S16x512x512, .f32⟩) main_call12_v0) (broadcastInDim S16x512x512 ![] bcast_S_S16x512x512),
    TRef.binary (TRef.of (T := ⟨S16x512x512, .f32⟩) main_v143) (TRef.of (T := ⟨S16x512x512, .f32⟩) main_call12_v0) (TRef.of (T := ⟨S16x512x512, .f32⟩) main_v144) maximumf,
    nullary main_cst_18 (constant S_ .f32 0xFF800000#32),
    binary main_v144 main_cst_18 main_v145 ((fun x v => Host.reduce FloatOps.maximumf x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    nullary main_cst_19 (constant S_ .f32 0xFF800000#32),
    unary main_cst_19 main_v146 (broadcastInDim S16x512 ![] bcast_S_S16x512 : (⟨S_, .f32⟩ : BufTy).Contents (Elt F) → (⟨S16x512, .f32⟩ : BufTy).Contents (Elt F)),
    binary main_v146 main_v145 main_v147 (maximumf : (⟨S16x512, .f32⟩ : BufTy).Contents (Elt F) → (⟨S16x512, .f32⟩ : BufTy).Contents (Elt F) → (⟨S16x512, .f32⟩ : BufTy).Contents (Elt F)),
    unary main_v147 main_v148 (broadcastInDim S16x512x1 ![0, 1] bcast_S16x512_S16x512x1_0_1 : (⟨S16x512, .f32⟩ : BufTy).Contents (Elt F) → (⟨S16x512x1, .f32⟩ : BufTy).Contents (Elt F)),
    unary main_v148 main_v149 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v144 main_v149 main_v150 (subf : (⟨S16x512x512, .f32⟩ : BufTy).Contents (Elt F) → (⟨S16x512x512, .f32⟩ : BufTy).Contents (Elt F) → (⟨S16x512x512, .f32⟩ : BufTy).Contents (Elt F)),
    unary main_v150 main_v151 (Host.exp : (⟨S16x512x512, .f32⟩ : BufTy).Contents (Elt F) → (⟨S16x512x512, .f32⟩ : BufTy).Contents (Elt F)),
    nullary main_cst_20 (constant S_ .f32 0x00000000#32),
    binary main_v151 main_cst_20 main_v152 ((fun x v => Host.reduceAdd x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    unary main_v152 main_v153 (broadcastInDim S16x512x1 ![0, 1] bcast_S16x512_S16x512x1_0_1 : (⟨S16x512, .f32⟩ : BufTy).Contents (Elt F) → (⟨S16x512x1, .f32⟩ : BufTy).Contents (Elt F)),
    unary main_v153 main_v154 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v151 main_v154 main_v155 (Host.divf : (⟨S16x512x512, .f32⟩ : BufTy).Contents (Elt F) → (⟨S16x512x512, .f32⟩ : BufTy).Contents (Elt F) → (⟨S16x512x512, .f32⟩ : BufTy).Contents (Elt F)),
    binary main_v155 main_v140 main_v156 ((fun l r => Host.dotGeneral dot_S16x512x512_S16x512x256_S16x512x256_2_1_1_2_0_0 none l r) : (⟨S16x512x512, .f32⟩ : BufTy).Contents (Elt F) → (⟨S16x512x256, .f32⟩ : BufTy).Contents (Elt F) → (⟨S16x512x256, .f32⟩ : BufTy).Contents (Elt F)),
    binary main_v156 main_arg1 main_v157 ((fun l r => Host.dotGeneral dot_S16x512x256_S256x256_S16x512x256_2_0_01_1_n_n none l r) : (⟨S16x512x256, .f32⟩ : BufTy).Contents (Elt F) → (⟨S256x256, .f32⟩ : BufTy).Contents (Elt F) → (⟨S16x512x256, .f32⟩ : BufTy).Contents (Elt F)) ]
theorem pc9_sub : (pc9 : List (HloOp τ sig (Elt F))).Forall fun op => op.bufs ⊆ tcRefs τ sig :=
  ⟨unary_bufs_sub .., reshape_bufs_sub .., binary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub ..⟩
theorem pc9_fresh : (pc9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩
theorem pc9_writes : (pc9 : List (HloOp τ sig (Elt F))).Forall fun op => op.writes ⊆ (W6.map (Proc.devRef (τ := τ) .tc)).toFinset :=
  ⟨writes_sub main_v139 (by decide), writes_sub main_v140 (by decide), writes_sub main_v141 (by decide), writes_sub main_v142 (by decide), writes_sub main_v143 (by decide), writes_sub main_call12_cst (by decide), writes_sub main_call12_v0 (by decide), writes_sub main_v144 (by decide), writes_sub main_cst_18 (by decide), writes_sub main_v145 (by decide), writes_sub main_cst_19 (by decide), writes_sub main_v146 (by decide), writes_sub main_v147 (by decide), writes_sub main_v148 (by decide), writes_sub main_v149 (by decide), writes_sub main_v150 (by decide), writes_sub main_v151 (by decide), writes_sub main_cst_20 (by decide), writes_sub main_v152 (by decide), writes_sub main_v153 (by decide), writes_sub main_v154 (by decide), writes_sub main_v155 (by decide), writes_sub main_v156 (by decide), writes_sub main_v157 (by decide)⟩

/-- Operations 207 … 212 of 375 (time step 6). -/
noncomputable abbrev pc10 : List (HloOp τ sig (Elt F)) :=
  [ unary main_arg2 main_v158 (broadcastInDim S1x1x256 ![2] bcast_S256_S1x1x256_2 : (⟨S256, .f32⟩ : BufTy).Contents (Elt F) → (⟨S1x1x256, .f32⟩ : BufTy).Contents (Elt F)),
    unary main_v158 main_v159 (broadcastInDim S16x512x256 ![0, 1, 2] bcast_S1x1x256_S16x512x256_0_1_2 : (⟨S1x1x256, .f32⟩ : BufTy).Contents (Elt F) → (⟨S16x512x256, .f32⟩ : BufTy).Contents (Elt F)),
    binary main_v157 main_v159 main_v160 (addf : (⟨S16x512x256, .f32⟩ : BufTy).Contents (Elt F) → (⟨S16x512x256, .f32⟩ : BufTy).Contents (Elt F) → (⟨S16x512x256, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S16x512x256, .f32⟩) main_call13_v0) (broadcastInDim S16x512x256 ![] bcast_S_S16x512x256),
    TRef.binary (TRef.of (T := ⟨S16x512x256, .f32⟩) main_v160) (TRef.of (T := ⟨S16x512x256, .f32⟩) main_call13_v0) (TRef.of (T := ⟨S16x512x256, .f32⟩) main_v161) maximumf ]
theorem pc10_sub : (pc10 : List (HloOp τ sig (Elt F))).Forall fun op => op.bufs ⊆ tcRefs τ sig :=
  ⟨unary_bufs_sub .., unary_bufs_sub .., binary_bufs_sub .., nullary_bufs_sub .., unary_bufs_sub .., binary_bufs_sub ..⟩
theorem pc10_fresh : (pc10 : List (HloOp τ sig (Elt F))).Forall fun op => op.fresh = ∅ :=
  ⟨rfl, rfl, rfl, rfl, rfl, rfl⟩
theorem pc10_writes : (pc10 : List (HloOp τ sig (Elt F))).Forall fun op => op.writes ⊆ (W6.map (Proc.devRef (τ := τ) .tc)).toFinset :=
  ⟨writes_sub main_v158 (by decide), writes_sub main_v159 (by decide), writes_sub main_v160 (by decide), writes_sub main_call13_cst (by decide), writes_sub main_call13_v0 (by decide), writes_sub main_v161 (by decide)⟩

/-- Operations 213 … 242 of 375 (time step 7). -/
noncomputable abbrev pc11 : List (HloOp τ sig (Elt F)) :=
  [ unary main_arg0 main_v162 ((extractStridedSlice S16x512x1x256 ![0, 0, 7, 0] · slices_S16x512x12x256_S16x512x1x256_0_0_7_0) : (⟨S16x512x12x256, .f32⟩ : BufTy).Contents (Elt F) → (⟨S16x512x1x256, .f32⟩ : BufTy).Contents (Elt F)),
    reshape main_v162 main_v163 rfl shapeCasts_S16x512x1x256_S16x512x256,
    binary main_v163 main_v163 main_v164 ((fun l r => Host.dotGeneral dot_S16x512x256_S16x512x256_S16x512x512_2_2_1_1_0_0 none l r) : (⟨S16x512x256, .f32⟩ : BufTy).Contents (Elt F) → (⟨S16x512x256, .f32⟩ : BufTy).Contents (Elt F) → (⟨S16x512x512, .f32⟩ : BufTy).Contents (Elt F)),
    unary main_v0 main_v165 (broadcastInDim S16x512x512 ![] bcast_S_S16x512x512 : (⟨S_, .f32⟩ : BufTy).Contents (Elt F) → (⟨S16x512x512, .f32⟩ : BufTy).Contents (Elt F)),
    binary main_v164 main_v165 main_v166 (Host.divf : (⟨S16x512x512, .f32⟩ : BufTy).Contents (Elt F) → (⟨S16x512x512, .f32⟩ : BufTy).Contents (Elt F) → (⟨S16x512x512, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S16x512x512, .f32⟩) main_call14_v0) (broadcastInDim S16x512x512 ![] bcast_S_S16x512x512),
    TRef.binary (TRef.of (T := ⟨S16x512x512, .f32⟩) main_v166) (TRef.of (T := ⟨S16x512x512, .f32⟩) main_call14_v0) (TRef.of (T := ⟨S16x512x512, .f32⟩) main_v167) maximumf,
    nullary main_cst_21 (constant S_ .f32 0xFF800000#32),
    binary main_v167 main_cst_21 main_v168 ((fun x v => Host.reduce FloatOps.maximumf x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    nullary main_cst_22 (constant S_ .f32 0xFF800000#32),
    unary main_cst_22 main_v169 (broadcastInDim S16x512 ![] bcast_S_S16x512 : (⟨S_, .f32⟩ : BufTy).Contents (Elt F) → (⟨S16x512, .f32⟩ : BufTy).Contents (Elt F)),
    binary main_v169 main_v168 main_v170 (maximumf : (⟨S16x512, .f32⟩ : BufTy).Contents (Elt F) → (⟨S16x512, .f32⟩ : BufTy).Contents (Elt F) → (⟨S16x512, .f32⟩ : BufTy).Contents (Elt F)),
    unary main_v170 main_v171 (broadcastInDim S16x512x1 ![0, 1] bcast_S16x512_S16x512x1_0_1 : (⟨S16x512, .f32⟩ : BufTy).Contents (Elt F) → (⟨S16x512x1, .f32⟩ : BufTy).Contents (Elt F)),
    unary main_v171 main_v172 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v167 main_v172 main_v173 (subf : (⟨S16x512x512, .f32⟩ : BufTy).Contents (Elt F) → (⟨S16x512x512, .f32⟩ : BufTy).Contents (Elt F) → (⟨S16x512x512, .f32⟩ : BufTy).Contents (Elt F)),
    unary main_v173 main_v174 (Host.exp : (⟨S16x512x512, .f32⟩ : BufTy).Contents (Elt F) → (⟨S16x512x512, .f32⟩ : BufTy).Contents (Elt F)),
    nullary main_cst_23 (constant S_ .f32 0x00000000#32),
    binary main_v174 main_cst_23 main_v175 ((fun x v => Host.reduceAdd x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    unary main_v175 main_v176 (broadcastInDim S16x512x1 ![0, 1] bcast_S16x512_S16x512x1_0_1 : (⟨S16x512, .f32⟩ : BufTy).Contents (Elt F) → (⟨S16x512x1, .f32⟩ : BufTy).Contents (Elt F)),
    unary main_v176 main_v177 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v174 main_v177 main_v178 (Host.divf : (⟨S16x512x512, .f32⟩ : BufTy).Contents (Elt F) → (⟨S16x512x512, .f32⟩ : BufTy).Contents (Elt F) → (⟨S16x512x512, .f32⟩ : BufTy).Contents (Elt F)),
    binary main_v178 main_v163 main_v179 ((fun l r => Host.dotGeneral dot_S16x512x512_S16x512x256_S16x512x256_2_1_1_2_0_0 none l r) : (⟨S16x512x512, .f32⟩ : BufTy).Contents (Elt F) → (⟨S16x512x256, .f32⟩ : BufTy).Contents (Elt F) → (⟨S16x512x256, .f32⟩ : BufTy).Contents (Elt F)),
    binary main_v179 main_arg1 main_v180 ((fun l r => Host.dotGeneral dot_S16x512x256_S256x256_S16x512x256_2_0_01_1_n_n none l r) : (⟨S16x512x256, .f32⟩ : BufTy).Contents (Elt F) → (⟨S256x256, .f32⟩ : BufTy).Contents (Elt F) → (⟨S16x512x256, .f32⟩ : BufTy).Contents (Elt F)),
    unary main_arg2 main_v181 (broadcastInDim S1x1x256 ![2] bcast_S256_S1x1x256_2 : (⟨S256, .f32⟩ : BufTy).Contents (Elt F) → (⟨S1x1x256, .f32⟩ : BufTy).Contents (Elt F)),
    unary main_v181 main_v182 (broadcastInDim S16x512x256 ![0, 1, 2] bcast_S1x1x256_S16x512x256_0_1_2 : (⟨S1x1x256, .f32⟩ : BufTy).Contents (Elt F) → (⟨S16x512x256, .f32⟩ : BufTy).Contents (Elt F)),
    binary main_v180 main_v182 main_v183 (addf : (⟨S16x512x256, .f32⟩ : BufTy).Contents (Elt F) → (⟨S16x512x256, .f32⟩ : BufTy).Contents (Elt F) → (⟨S16x512x256, .f32⟩ : BufTy).Contents (Elt F)),
    TRef.nullary (TRef.of (T := ⟨S_, .f32⟩) main_call15_cst) (constant S_ .f32 0x00000000#32),
    TRef.unary (TRef.of (T := ⟨S_, .f32⟩) main_call15_cst) (TRef.of (T := ⟨S16x512x256, .f32⟩) main_call15_v0) (broadcastInDim S16x512x256 ![] bcast_S_S16x512x256),
    TRef.binary (TRef.of (T := ⟨S16x512x256, .f32⟩) main_v183) (TRef.of (T := ⟨S16x512x256, .f32⟩) main_call15_v0) (TRef.of (T := ⟨S16x512x256, .f32⟩) main_v184) maximumf ]
theorem pc11_sub : (pc11 : List (HloOp τ sig (Elt F))).Forall fun op => op.bufs ⊆ tcRefs τ sig :=
  ⟨unary_bufs_sub .., reshape_bufs_sub .., binary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub ..⟩
theorem pc11_fresh : (pc11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem pc11_writes : (pc11 : List (HloOp τ sig (Elt F))).Forall fun op => op.writes ⊆ (W7.map (Proc.devRef (τ := τ) .tc)).toFinset :=
  ⟨writes_sub main_v162 (by decide), writes_sub main_v163 (by decide), writes_sub main_v164 (by decide), writes_sub main_v165 (by decide), writes_sub main_v166 (by decide), writes_sub main_call14_cst (by decide), writes_sub main_call14_v0 (by decide), writes_sub main_v167 (by decide), writes_sub main_cst_21 (by decide), writes_sub main_v168 (by decide), writes_sub main_cst_22 (by decide), writes_sub main_v169 (by decide), writes_sub main_v170 (by decide), writes_sub main_v171 (by decide), writes_sub main_v172 (by decide), writes_sub main_v173 (by decide), writes_sub main_v174 (by decide), writes_sub main_cst_23 (by decide), writes_sub main_v175 (by decide), writes_sub main_v176 (by decide), writes_sub main_v177 (by decide), writes_sub main_v178 (by decide), writes_sub main_v179 (by decide), writes_sub main_v180 (by decide), writes_sub main_v181 (by decide), writes_sub main_v182 (by decide), writes_sub main_v183 (by decide), writes_sub main_call15_cst (by decide), writes_sub main_call15_v0 (by decide), writes_sub main_v184 (by decide)⟩

/-- Operations 243 … 272 of 375 (time step 8). -/
noncomputable abbrev pc12 : List (HloOp τ sig (Elt F)) :=
  [ unary main_arg0 main_v185 ((extractStridedSlice S16x512x1x256 ![0, 0, 8, 0] · slices_S16x512x12x256_S16x512x1x256_0_0_8_0) : (⟨S16x512x12x256, .f32⟩ : BufTy).Contents (Elt F) → (⟨S16x512x1x256, .f32⟩ : BufTy).Contents (Elt F)),
    reshape main_v185 main_v186 rfl shapeCasts_S16x512x1x256_S16x512x256,
    binary main_v186 main_v186 main_v187 ((fun l r => Host.dotGeneral dot_S16x512x256_S16x512x256_S16x512x512_2_2_1_1_0_0 none l r) : (⟨S16x512x256, .f32⟩ : BufTy).Contents (Elt F) → (⟨S16x512x256, .f32⟩ : BufTy).Contents (Elt F) → (⟨S16x512x512, .f32⟩ : BufTy).Contents (Elt F)),
    unary main_v0 main_v188 (broadcastInDim S16x512x512 ![] bcast_S_S16x512x512 : (⟨S_, .f32⟩ : BufTy).Contents (Elt F) → (⟨S16x512x512, .f32⟩ : BufTy).Contents (Elt F)),
    binary main_v187 main_v188 main_v189 (Host.divf : (⟨S16x512x512, .f32⟩ : BufTy).Contents (Elt F) → (⟨S16x512x512, .f32⟩ : BufTy).Contents (Elt F) → (⟨S16x512x512, .f32⟩ : BufTy).Contents (Elt F)),
    TRef.nullary (TRef.of (T := ⟨S_, .f32⟩) main_call16_cst) (constant S_ .f32 0x00000000#32),
    TRef.unary (TRef.of (T := ⟨S_, .f32⟩) main_call16_cst) (TRef.of (T := ⟨S16x512x512, .f32⟩) main_call16_v0) (broadcastInDim S16x512x512 ![] bcast_S_S16x512x512),
    TRef.binary (TRef.of (T := ⟨S16x512x512, .f32⟩) main_v189) (TRef.of (T := ⟨S16x512x512, .f32⟩) main_call16_v0) (TRef.of (T := ⟨S16x512x512, .f32⟩) main_v190) maximumf,
    nullary main_cst_24 (constant S_ .f32 0xFF800000#32),
    binary main_v190 main_cst_24 main_v191 ((fun x v => Host.reduce FloatOps.maximumf x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    nullary main_cst_25 (constant S_ .f32 0xFF800000#32),
    unary main_cst_25 main_v192 (broadcastInDim S16x512 ![] bcast_S_S16x512 : (⟨S_, .f32⟩ : BufTy).Contents (Elt F) → (⟨S16x512, .f32⟩ : BufTy).Contents (Elt F)),
    binary main_v192 main_v191 main_v193 (maximumf : (⟨S16x512, .f32⟩ : BufTy).Contents (Elt F) → (⟨S16x512, .f32⟩ : BufTy).Contents (Elt F) → (⟨S16x512, .f32⟩ : BufTy).Contents (Elt F)),
    unary main_v193 main_v194 (broadcastInDim S16x512x1 ![0, 1] bcast_S16x512_S16x512x1_0_1 : (⟨S16x512, .f32⟩ : BufTy).Contents (Elt F) → (⟨S16x512x1, .f32⟩ : BufTy).Contents (Elt F)),
    unary main_v194 main_v195 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v190 main_v195 main_v196 (subf : (⟨S16x512x512, .f32⟩ : BufTy).Contents (Elt F) → (⟨S16x512x512, .f32⟩ : BufTy).Contents (Elt F) → (⟨S16x512x512, .f32⟩ : BufTy).Contents (Elt F)),
    unary main_v196 main_v197 (Host.exp : (⟨S16x512x512, .f32⟩ : BufTy).Contents (Elt F) → (⟨S16x512x512, .f32⟩ : BufTy).Contents (Elt F)),
    nullary main_cst_26 (constant S_ .f32 0x00000000#32),
    binary main_v197 main_cst_26 main_v198 ((fun x v => Host.reduceAdd x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    unary main_v198 main_v199 (broadcastInDim S16x512x1 ![0, 1] bcast_S16x512_S16x512x1_0_1 : (⟨S16x512, .f32⟩ : BufTy).Contents (Elt F) → (⟨S16x512x1, .f32⟩ : BufTy).Contents (Elt F)),
    unary main_v199 main_v200 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v197 main_v200 main_v201 (Host.divf : (⟨S16x512x512, .f32⟩ : BufTy).Contents (Elt F) → (⟨S16x512x512, .f32⟩ : BufTy).Contents (Elt F) → (⟨S16x512x512, .f32⟩ : BufTy).Contents (Elt F)),
    binary main_v201 main_v186 main_v202 ((fun l r => Host.dotGeneral dot_S16x512x512_S16x512x256_S16x512x256_2_1_1_2_0_0 none l r) : (⟨S16x512x512, .f32⟩ : BufTy).Contents (Elt F) → (⟨S16x512x256, .f32⟩ : BufTy).Contents (Elt F) → (⟨S16x512x256, .f32⟩ : BufTy).Contents (Elt F)),
    binary main_v202 main_arg1 main_v203 ((fun l r => Host.dotGeneral dot_S16x512x256_S256x256_S16x512x256_2_0_01_1_n_n none l r) : (⟨S16x512x256, .f32⟩ : BufTy).Contents (Elt F) → (⟨S256x256, .f32⟩ : BufTy).Contents (Elt F) → (⟨S16x512x256, .f32⟩ : BufTy).Contents (Elt F)),
    unary main_arg2 main_v204 (broadcastInDim S1x1x256 ![2] bcast_S256_S1x1x256_2 : (⟨S256, .f32⟩ : BufTy).Contents (Elt F) → (⟨S1x1x256, .f32⟩ : BufTy).Contents (Elt F)),
    unary main_v204 main_v205 (broadcastInDim S16x512x256 ![0, 1, 2] bcast_S1x1x256_S16x512x256_0_1_2 : (⟨S1x1x256, .f32⟩ : BufTy).Contents (Elt F) → (⟨S16x512x256, .f32⟩ : BufTy).Contents (Elt F)),
    binary main_v203 main_v205 main_v206 (addf : (⟨S16x512x256, .f32⟩ : BufTy).Contents (Elt F) → (⟨S16x512x256, .f32⟩ : BufTy).Contents (Elt F) → (⟨S16x512x256, .f32⟩ : BufTy).Contents (Elt F)),
    TRef.nullary (TRef.of (T := ⟨S_, .f32⟩) main_call17_cst) (constant S_ .f32 0x00000000#32),
    TRef.unary (TRef.of (T := ⟨S_, .f32⟩) main_call17_cst) (TRef.of (T := ⟨S16x512x256, .f32⟩) main_call17_v0) (broadcastInDim S16x512x256 ![] bcast_S_S16x512x256),
    TRef.binary (TRef.of (T := ⟨S16x512x256, .f32⟩) main_v206) (TRef.of (T := ⟨S16x512x256, .f32⟩) main_call17_v0) (TRef.of (T := ⟨S16x512x256, .f32⟩) main_v207) maximumf ]
theorem pc12_sub : (pc12 : List (HloOp τ sig (Elt F))).Forall fun op => op.bufs ⊆ tcRefs τ sig :=
  ⟨unary_bufs_sub .., reshape_bufs_sub .., binary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub ..⟩
theorem pc12_fresh : (pc12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem pc12_writes : (pc12 : List (HloOp τ sig (Elt F))).Forall fun op => op.writes ⊆ (W8.map (Proc.devRef (τ := τ) .tc)).toFinset :=
  ⟨writes_sub main_v185 (by decide), writes_sub main_v186 (by decide), writes_sub main_v187 (by decide), writes_sub main_v188 (by decide), writes_sub main_v189 (by decide), writes_sub main_call16_cst (by decide), writes_sub main_call16_v0 (by decide), writes_sub main_v190 (by decide), writes_sub main_cst_24 (by decide), writes_sub main_v191 (by decide), writes_sub main_cst_25 (by decide), writes_sub main_v192 (by decide), writes_sub main_v193 (by decide), writes_sub main_v194 (by decide), writes_sub main_v195 (by decide), writes_sub main_v196 (by decide), writes_sub main_v197 (by decide), writes_sub main_cst_26 (by decide), writes_sub main_v198 (by decide), writes_sub main_v199 (by decide), writes_sub main_v200 (by decide), writes_sub main_v201 (by decide), writes_sub main_v202 (by decide), writes_sub main_v203 (by decide), writes_sub main_v204 (by decide), writes_sub main_v205 (by decide), writes_sub main_v206 (by decide), writes_sub main_call17_cst (by decide), writes_sub main_call17_v0 (by decide), writes_sub main_v207 (by decide)⟩

/-- Operations 273 … 276 of 375 (time step 9). -/
noncomputable abbrev pc13 : List (HloOp τ sig (Elt F)) :=
  [ unary main_arg0 main_v208 ((extractStridedSlice S16x512x1x256 ![0, 0, 9, 0] · slices_S16x512x12x256_S16x512x1x256_0_0_9_0) : (⟨S16x512x12x256, .f32⟩ : BufTy).Contents (Elt F) → (⟨S16x512x1x256, .f32⟩ : BufTy).Contents (Elt F)),
    reshape main_v208 main_v209 rfl shapeCasts_S16x512x1x256_S16x512x256,
    binary main_v209 main_v209 main_v210 ((fun l r => Host.dotGeneral dot_S16x512x256_S16x512x256_S16x512x512_2_2_1_1_0_0 none l r) : (⟨S16x512x256, .f32⟩ : BufTy).Contents (Elt F) → (⟨S16x512x256, .f32⟩ : BufTy).Contents (Elt F) → (⟨S16x512x512, .f32⟩ : BufTy).Contents (Elt F)),
    unary main_v0 main_v211 (broadcastInDim S16x512x512 ![] bcast_S_S16x512x512 : (⟨S_, .f32⟩ : BufTy).Contents (Elt F) → (⟨S16x512x512, .f32⟩ : BufTy).Contents (Elt F)) ]
theorem pc13_sub : (pc13 : List (HloOp τ sig (Elt F))).Forall fun op => op.bufs ⊆ tcRefs τ sig :=
  ⟨unary_bufs_sub .., reshape_bufs_sub .., binary_bufs_sub .., unary_bufs_sub ..⟩
theorem pc13_fresh : (pc13 : List (HloOp τ sig (Elt F))).Forall fun op => op.fresh = ∅ :=
  ⟨rfl, rfl, rfl, rfl⟩
theorem pc13_writes : (pc13 : List (HloOp τ sig (Elt F))).Forall fun op => op.writes ⊆ (W9.map (Proc.devRef (τ := τ) .tc)).toFinset :=
  ⟨writes_sub main_v208 (by decide), writes_sub main_v209 (by decide), writes_sub main_v210 (by decide), writes_sub main_v211 (by decide)⟩

/-- Operations 277 … 302 of 375 (time step 9). -/
noncomputable abbrev pc14 : List (HloOp τ sig (Elt F)) :=
  [ binary main_v210 main_v211 main_v212 (Host.divf : (⟨S16x512x512, .f32⟩ : BufTy).Contents (Elt F) → (⟨S16x512x512, .f32⟩ : BufTy).Contents (Elt F) → (⟨S16x512x512, .f32⟩ : BufTy).Contents (Elt F)),
    TRef.nullary (TRef.of (T := ⟨S_, .f32⟩) main_call18_cst) (constant S_ .f32 0x00000000#32),
    TRef.unary (TRef.of (T := ⟨S_, .f32⟩) main_call18_cst) (TRef.of (T := ⟨S16x512x512, .f32⟩) main_call18_v0) (broadcastInDim S16x512x512 ![] bcast_S_S16x512x512),
    TRef.binary (TRef.of (T := ⟨S16x512x512, .f32⟩) main_v212) (TRef.of (T := ⟨S16x512x512, .f32⟩) main_call18_v0) (TRef.of (T := ⟨S16x512x512, .f32⟩) main_v213) maximumf,
    nullary main_cst_27 (constant S_ .f32 0xFF800000#32),
    binary main_v213 main_cst_27 main_v214 ((fun x v => Host.reduce FloatOps.maximumf x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    nullary main_cst_28 (constant S_ .f32 0xFF800000#32),
    unary main_cst_28 main_v215 (broadcastInDim S16x512 ![] bcast_S_S16x512 : (⟨S_, .f32⟩ : BufTy).Contents (Elt F) → (⟨S16x512, .f32⟩ : BufTy).Contents (Elt F)),
    binary main_v215 main_v214 main_v216 (maximumf : (⟨S16x512, .f32⟩ : BufTy).Contents (Elt F) → (⟨S16x512, .f32⟩ : BufTy).Contents (Elt F) → (⟨S16x512, .f32⟩ : BufTy).Contents (Elt F)),
    unary main_v216 main_v217 (broadcastInDim S16x512x1 ![0, 1] bcast_S16x512_S16x512x1_0_1 : (⟨S16x512, .f32⟩ : BufTy).Contents (Elt F) → (⟨S16x512x1, .f32⟩ : BufTy).Contents (Elt F)),
    unary main_v217 main_v218 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v213 main_v218 main_v219 (subf : (⟨S16x512x512, .f32⟩ : BufTy).Contents (Elt F) → (⟨S16x512x512, .f32⟩ : BufTy).Contents (Elt F) → (⟨S16x512x512, .f32⟩ : BufTy).Contents (Elt F)),
    unary main_v219 main_v220 (Host.exp : (⟨S16x512x512, .f32⟩ : BufTy).Contents (Elt F) → (⟨S16x512x512, .f32⟩ : BufTy).Contents (Elt F)),
    nullary main_cst_29 (constant S_ .f32 0x00000000#32),
    binary main_v220 main_cst_29 main_v221 ((fun x v => Host.reduceAdd x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    unary main_v221 main_v222 (broadcastInDim S16x512x1 ![0, 1] bcast_S16x512_S16x512x1_0_1 : (⟨S16x512, .f32⟩ : BufTy).Contents (Elt F) → (⟨S16x512x1, .f32⟩ : BufTy).Contents (Elt F)),
    unary main_v222 main_v223 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v220 main_v223 main_v224 (Host.divf : (⟨S16x512x512, .f32⟩ : BufTy).Contents (Elt F) → (⟨S16x512x512, .f32⟩ : BufTy).Contents (Elt F) → (⟨S16x512x512, .f32⟩ : BufTy).Contents (Elt F)),
    binary main_v224 main_v209 main_v225 ((fun l r => Host.dotGeneral dot_S16x512x512_S16x512x256_S16x512x256_2_1_1_2_0_0 none l r) : (⟨S16x512x512, .f32⟩ : BufTy).Contents (Elt F) → (⟨S16x512x256, .f32⟩ : BufTy).Contents (Elt F) → (⟨S16x512x256, .f32⟩ : BufTy).Contents (Elt F)),
    binary main_v225 main_arg1 main_v226 ((fun l r => Host.dotGeneral dot_S16x512x256_S256x256_S16x512x256_2_0_01_1_n_n none l r) : (⟨S16x512x256, .f32⟩ : BufTy).Contents (Elt F) → (⟨S256x256, .f32⟩ : BufTy).Contents (Elt F) → (⟨S16x512x256, .f32⟩ : BufTy).Contents (Elt F)),
    unary main_arg2 main_v227 (broadcastInDim S1x1x256 ![2] bcast_S256_S1x1x256_2 : (⟨S256, .f32⟩ : BufTy).Contents (Elt F) → (⟨S1x1x256, .f32⟩ : BufTy).Contents (Elt F)),
    unary main_v227 main_v228 (broadcastInDim S16x512x256 ![0, 1, 2] bcast_S1x1x256_S16x512x256_0_1_2 : (⟨S1x1x256, .f32⟩ : BufTy).Contents (Elt F) → (⟨S16x512x256, .f32⟩ : BufTy).Contents (Elt F)),
    binary main_v226 main_v228 main_v229 (addf : (⟨S16x512x256, .f32⟩ : BufTy).Contents (Elt F) → (⟨S16x512x256, .f32⟩ : BufTy).Contents (Elt F) → (⟨S16x512x256, .f32⟩ : BufTy).Contents (Elt F)),
    TRef.nullary (TRef.of (T := ⟨S_, .f32⟩) main_call19_cst) (constant S_ .f32 0x00000000#32),
    TRef.unary (TRef.of (T := ⟨S_, .f32⟩) main_call19_cst) (TRef.of (T := ⟨S16x512x256, .f32⟩) main_call19_v0) (broadcastInDim S16x512x256 ![] bcast_S_S16x512x256),
    TRef.binary (TRef.of (T := ⟨S16x512x256, .f32⟩) main_v229) (TRef.of (T := ⟨S16x512x256, .f32⟩) main_call19_v0) (TRef.of (T := ⟨S16x512x256, .f32⟩) main_v230) maximumf ]
theorem pc14_sub : (pc14 : List (HloOp τ sig (Elt F))).Forall fun op => op.bufs ⊆ tcRefs τ sig :=
  ⟨binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub ..⟩
theorem pc14_fresh : (pc14 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
theorem pc14_writes : (pc14 : List (HloOp τ sig (Elt F))).Forall fun op => op.writes ⊆ (W9.map (Proc.devRef (τ := τ) .tc)).toFinset :=
  ⟨writes_sub main_v212 (by decide), writes_sub main_call18_cst (by decide), writes_sub main_call18_v0 (by decide), writes_sub main_v213 (by decide), writes_sub main_cst_27 (by decide), writes_sub main_v214 (by decide), writes_sub main_cst_28 (by decide), writes_sub main_v215 (by decide), writes_sub main_v216 (by decide), writes_sub main_v217 (by decide), writes_sub main_v218 (by decide), writes_sub main_v219 (by decide), writes_sub main_v220 (by decide), writes_sub main_cst_29 (by decide), writes_sub main_v221 (by decide), writes_sub main_v222 (by decide), writes_sub main_v223 (by decide), writes_sub main_v224 (by decide), writes_sub main_v225 (by decide), writes_sub main_v226 (by decide), writes_sub main_v227 (by decide), writes_sub main_v228 (by decide), writes_sub main_v229 (by decide), writes_sub main_call19_cst (by decide), writes_sub main_call19_v0 (by decide), writes_sub main_v230 (by decide)⟩

/-- Operations 303 … 332 of 375 (time step 10). -/
noncomputable abbrev pc15 : List (HloOp τ sig (Elt F)) :=
  [ unary main_arg0 main_v231 ((extractStridedSlice S16x512x1x256 ![0, 0, 10, 0] · slices_S16x512x12x256_S16x512x1x256_0_0_10_0) : (⟨S16x512x12x256, .f32⟩ : BufTy).Contents (Elt F) → (⟨S16x512x1x256, .f32⟩ : BufTy).Contents (Elt F)),
    reshape main_v231 main_v232 rfl shapeCasts_S16x512x1x256_S16x512x256,
    binary main_v232 main_v232 main_v233 ((fun l r => Host.dotGeneral dot_S16x512x256_S16x512x256_S16x512x512_2_2_1_1_0_0 none l r) : (⟨S16x512x256, .f32⟩ : BufTy).Contents (Elt F) → (⟨S16x512x256, .f32⟩ : BufTy).Contents (Elt F) → (⟨S16x512x512, .f32⟩ : BufTy).Contents (Elt F)),
    unary main_v0 main_v234 (broadcastInDim S16x512x512 ![] bcast_S_S16x512x512 : (⟨S_, .f32⟩ : BufTy).Contents (Elt F) → (⟨S16x512x512, .f32⟩ : BufTy).Contents (Elt F)),
    binary main_v233 main_v234 main_v235 (Host.divf : (⟨S16x512x512, .f32⟩ : BufTy).Contents (Elt F) → (⟨S16x512x512, .f32⟩ : BufTy).Contents (Elt F) → (⟨S16x512x512, .f32⟩ : BufTy).Contents (Elt F)),
    TRef.nullary (TRef.of (T := ⟨S_, .f32⟩) main_call20_cst) (constant S_ .f32 0x00000000#32),
    TRef.unary (TRef.of (T := ⟨S_, .f32⟩) main_call20_cst) (TRef.of (T := ⟨S16x512x512, .f32⟩) main_call20_v0) (broadcastInDim S16x512x512 ![] bcast_S_S16x512x512),
    TRef.binary (TRef.of (T := ⟨S16x512x512, .f32⟩) main_v235) (TRef.of (T := ⟨S16x512x512, .f32⟩) main_call20_v0) (TRef.of (T := ⟨S16x512x512, .f32⟩) main_v236) maximumf,
    nullary main_cst_30 (constant S_ .f32 0xFF800000#32),
    binary main_v236 main_cst_30 main_v237 ((fun x v => Host.reduce FloatOps.maximumf x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    nullary main_cst_31 (constant S_ .f32 0xFF800000#32),
    unary main_cst_31 main_v238 (broadcastInDim S16x512 ![] bcast_S_S16x512 : (⟨S_, .f32⟩ : BufTy).Contents (Elt F) → (⟨S16x512, .f32⟩ : BufTy).Contents (Elt F)),
    binary main_v238 main_v237 main_v239 (maximumf : (⟨S16x512, .f32⟩ : BufTy).Contents (Elt F) → (⟨S16x512, .f32⟩ : BufTy).Contents (Elt F) → (⟨S16x512, .f32⟩ : BufTy).Contents (Elt F)),
    unary main_v239 main_v240 (broadcastInDim S16x512x1 ![0, 1] bcast_S16x512_S16x512x1_0_1 : (⟨S16x512, .f32⟩ : BufTy).Contents (Elt F) → (⟨S16x512x1, .f32⟩ : BufTy).Contents (Elt F)),
    unary main_v240 main_v241 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v236 main_v241 main_v242 (subf : (⟨S16x512x512, .f32⟩ : BufTy).Contents (Elt F) → (⟨S16x512x512, .f32⟩ : BufTy).Contents (Elt F) → (⟨S16x512x512, .f32⟩ : BufTy).Contents (Elt F)),
    unary main_v242 main_v243 (Host.exp : (⟨S16x512x512, .f32⟩ : BufTy).Contents (Elt F) → (⟨S16x512x512, .f32⟩ : BufTy).Contents (Elt F)),
    nullary main_cst_32 (constant S_ .f32 0x00000000#32),
    binary main_v243 main_cst_32 main_v244 ((fun x v => Host.reduceAdd x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    unary main_v244 main_v245 (broadcastInDim S16x512x1 ![0, 1] bcast_S16x512_S16x512x1_0_1 : (⟨S16x512, .f32⟩ : BufTy).Contents (Elt F) → (⟨S16x512x1, .f32⟩ : BufTy).Contents (Elt F)),
    unary main_v245 main_v246 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v243 main_v246 main_v247 (Host.divf : (⟨S16x512x512, .f32⟩ : BufTy).Contents (Elt F) → (⟨S16x512x512, .f32⟩ : BufTy).Contents (Elt F) → (⟨S16x512x512, .f32⟩ : BufTy).Contents (Elt F)),
    binary main_v247 main_v232 main_v248 ((fun l r => Host.dotGeneral dot_S16x512x512_S16x512x256_S16x512x256_2_1_1_2_0_0 none l r) : (⟨S16x512x512, .f32⟩ : BufTy).Contents (Elt F) → (⟨S16x512x256, .f32⟩ : BufTy).Contents (Elt F) → (⟨S16x512x256, .f32⟩ : BufTy).Contents (Elt F)),
    binary main_v248 main_arg1 main_v249 ((fun l r => Host.dotGeneral dot_S16x512x256_S256x256_S16x512x256_2_0_01_1_n_n none l r) : (⟨S16x512x256, .f32⟩ : BufTy).Contents (Elt F) → (⟨S256x256, .f32⟩ : BufTy).Contents (Elt F) → (⟨S16x512x256, .f32⟩ : BufTy).Contents (Elt F)),
    unary main_arg2 main_v250 (broadcastInDim S1x1x256 ![2] bcast_S256_S1x1x256_2 : (⟨S256, .f32⟩ : BufTy).Contents (Elt F) → (⟨S1x1x256, .f32⟩ : BufTy).Contents (Elt F)),
    unary main_v250 main_v251 (broadcastInDim S16x512x256 ![0, 1, 2] bcast_S1x1x256_S16x512x256_0_1_2 : (⟨S1x1x256, .f32⟩ : BufTy).Contents (Elt F) → (⟨S16x512x256, .f32⟩ : BufTy).Contents (Elt F)),
    binary main_v249 main_v251 main_v252 (addf : (⟨S16x512x256, .f32⟩ : BufTy).Contents (Elt F) → (⟨S16x512x256, .f32⟩ : BufTy).Contents (Elt F) → (⟨S16x512x256, .f32⟩ : BufTy).Contents (Elt F)),
    TRef.nullary (TRef.of (T := ⟨S_, .f32⟩) main_call21_cst) (constant S_ .f32 0x00000000#32),
    TRef.unary (TRef.of (T := ⟨S_, .f32⟩) main_call21_cst) (TRef.of (T := ⟨S16x512x256, .f32⟩) main_call21_v0) (broadcastInDim S16x512x256 ![] bcast_S_S16x512x256),
    TRef.binary (TRef.of (T := ⟨S16x512x256, .f32⟩) main_v252) (TRef.of (T := ⟨S16x512x256, .f32⟩) main_call21_v0) (TRef.of (T := ⟨S16x512x256, .f32⟩) main_v253) maximumf ]
theorem pc15_sub : (pc15 : List (HloOp τ sig (Elt F))).Forall fun op => op.bufs ⊆ tcRefs τ sig :=
  ⟨unary_bufs_sub .., reshape_bufs_sub .., binary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub ..⟩
theorem pc15_fresh : (pc15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem pc15_writes : (pc15 : List (HloOp τ sig (Elt F))).Forall fun op => op.writes ⊆ (W10.map (Proc.devRef (τ := τ) .tc)).toFinset :=
  ⟨writes_sub main_v231 (by decide), writes_sub main_v232 (by decide), writes_sub main_v233 (by decide), writes_sub main_v234 (by decide), writes_sub main_v235 (by decide), writes_sub main_call20_cst (by decide), writes_sub main_call20_v0 (by decide), writes_sub main_v236 (by decide), writes_sub main_cst_30 (by decide), writes_sub main_v237 (by decide), writes_sub main_cst_31 (by decide), writes_sub main_v238 (by decide), writes_sub main_v239 (by decide), writes_sub main_v240 (by decide), writes_sub main_v241 (by decide), writes_sub main_v242 (by decide), writes_sub main_v243 (by decide), writes_sub main_cst_32 (by decide), writes_sub main_v244 (by decide), writes_sub main_v245 (by decide), writes_sub main_v246 (by decide), writes_sub main_v247 (by decide), writes_sub main_v248 (by decide), writes_sub main_v249 (by decide), writes_sub main_v250 (by decide), writes_sub main_v251 (by decide), writes_sub main_v252 (by decide), writes_sub main_call21_cst (by decide), writes_sub main_call21_v0 (by decide), writes_sub main_v253 (by decide)⟩

/-- Operations 333 … 346 of 375 (time step 11). -/
noncomputable abbrev pc16 : List (HloOp τ sig (Elt F)) :=
  [ unary main_arg0 main_v254 ((extractStridedSlice S16x512x1x256 ![0, 0, 11, 0] · slices_S16x512x12x256_S16x512x1x256_0_0_11_0) : (⟨S16x512x12x256, .f32⟩ : BufTy).Contents (Elt F) → (⟨S16x512x1x256, .f32⟩ : BufTy).Contents (Elt F)),
    reshape main_v254 main_v255 rfl shapeCasts_S16x512x1x256_S16x512x256,
    binary main_v255 main_v255 main_v256 ((fun l r => Host.dotGeneral dot_S16x512x256_S16x512x256_S16x512x512_2_2_1_1_0_0 none l r) : (⟨S16x512x256, .f32⟩ : BufTy).Contents (Elt F) → (⟨S16x512x256, .f32⟩ : BufTy).Contents (Elt F) → (⟨S16x512x512, .f32⟩ : BufTy).Contents (Elt F)),
    unary main_v0 main_v257 (broadcastInDim S16x512x512 ![] bcast_S_S16x512x512 : (⟨S_, .f32⟩ : BufTy).Contents (Elt F) → (⟨S16x512x512, .f32⟩ : BufTy).Contents (Elt F)),
    binary main_v256 main_v257 main_v258 (Host.divf : (⟨S16x512x512, .f32⟩ : BufTy).Contents (Elt F) → (⟨S16x512x512, .f32⟩ : BufTy).Contents (Elt F) → (⟨S16x512x512, .f32⟩ : BufTy).Contents (Elt F)),
    TRef.nullary (TRef.of (T := ⟨S_, .f32⟩) main_call22_cst) (constant S_ .f32 0x00000000#32),
    TRef.unary (TRef.of (T := ⟨S_, .f32⟩) main_call22_cst) (TRef.of (T := ⟨S16x512x512, .f32⟩) main_call22_v0) (broadcastInDim S16x512x512 ![] bcast_S_S16x512x512),
    TRef.binary (TRef.of (T := ⟨S16x512x512, .f32⟩) main_v258) (TRef.of (T := ⟨S16x512x512, .f32⟩) main_call22_v0) (TRef.of (T := ⟨S16x512x512, .f32⟩) main_v259) maximumf,
    nullary main_cst_33 (constant S_ .f32 0xFF800000#32),
    binary main_v259 main_cst_33 main_v260 ((fun x v => Host.reduce FloatOps.maximumf x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    nullary main_cst_34 (constant S_ .f32 0xFF800000#32),
    unary main_cst_34 main_v261 (broadcastInDim S16x512 ![] bcast_S_S16x512 : (⟨S_, .f32⟩ : BufTy).Contents (Elt F) → (⟨S16x512, .f32⟩ : BufTy).Contents (Elt F)),
    binary main_v261 main_v260 main_v262 (maximumf : (⟨S16x512, .f32⟩ : BufTy).Contents (Elt F) → (⟨S16x512, .f32⟩ : BufTy).Contents (Elt F) → (⟨S16x512, .f32⟩ : BufTy).Contents (Elt F)),
    unary main_v262 main_v263 (broadcastInDim S16x512x1 ![0, 1] bcast_S16x512_S16x512x1_0_1 : (⟨S16x512, .f32⟩ : BufTy).Contents (Elt F) → (⟨S16x512x1, .f32⟩ : BufTy).Contents (Elt F)) ]
theorem pc16_sub : (pc16 : List (HloOp τ sig (Elt F))).Forall fun op => op.bufs ⊆ tcRefs τ sig :=
  ⟨unary_bufs_sub .., reshape_bufs_sub .., binary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub ..⟩
theorem pc16_fresh : (pc16 : List (HloOp τ sig (Elt F))).Forall fun op => op.fresh = ∅ :=
  ⟨rfl, rfl, rfl, rfl, rfl, rfl, rfl, rfl, rfl, rfl, rfl, rfl, rfl, rfl⟩
theorem pc16_writes : (pc16 : List (HloOp τ sig (Elt F))).Forall fun op => op.writes ⊆ (W11.map (Proc.devRef (τ := τ) .tc)).toFinset :=
  ⟨writes_sub main_v254 (by decide), writes_sub main_v255 (by decide), writes_sub main_v256 (by decide), writes_sub main_v257 (by decide), writes_sub main_v258 (by decide), writes_sub main_call22_cst (by decide), writes_sub main_call22_v0 (by decide), writes_sub main_v259 (by decide), writes_sub main_cst_33 (by decide), writes_sub main_v260 (by decide), writes_sub main_cst_34 (by decide), writes_sub main_v261 (by decide), writes_sub main_v262 (by decide), writes_sub main_v263 (by decide)⟩

/-- Operations 347 … 362 of 375 (time step 11). -/
noncomputable abbrev pc17 : List (HloOp τ sig (Elt F)) :=
  [ unary main_v263 main_v264 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v259 main_v264 main_v265 (subf : (⟨S16x512x512, .f32⟩ : BufTy).Contents (Elt F) → (⟨S16x512x512, .f32⟩ : BufTy).Contents (Elt F) → (⟨S16x512x512, .f32⟩ : BufTy).Contents (Elt F)),
    unary main_v265 main_v266 (Host.exp : (⟨S16x512x512, .f32⟩ : BufTy).Contents (Elt F) → (⟨S16x512x512, .f32⟩ : BufTy).Contents (Elt F)),
    nullary main_cst_35 (constant S_ .f32 0x00000000#32),
    binary main_v266 main_cst_35 main_v267 ((fun x v => Host.reduceAdd x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    unary main_v267 main_v268 (broadcastInDim S16x512x1 ![0, 1] bcast_S16x512_S16x512x1_0_1 : (⟨S16x512, .f32⟩ : BufTy).Contents (Elt F) → (⟨S16x512x1, .f32⟩ : BufTy).Contents (Elt F)),
    unary main_v268 main_v269 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v266 main_v269 main_v270 (Host.divf : (⟨S16x512x512, .f32⟩ : BufTy).Contents (Elt F) → (⟨S16x512x512, .f32⟩ : BufTy).Contents (Elt F) → (⟨S16x512x512, .f32⟩ : BufTy).Contents (Elt F)),
    binary main_v270 main_v255 main_v271 ((fun l r => Host.dotGeneral dot_S16x512x512_S16x512x256_S16x512x256_2_1_1_2_0_0 none l r) : (⟨S16x512x512, .f32⟩ : BufTy).Contents (Elt F) → (⟨S16x512x256, .f32⟩ : BufTy).Contents (Elt F) → (⟨S16x512x256, .f32⟩ : BufTy).Contents (Elt F)),
    binary main_v271 main_arg1 main_v272 ((fun l r => Host.dotGeneral dot_S16x512x256_S256x256_S16x512x256_2_0_01_1_n_n none l r) : (⟨S16x512x256, .f32⟩ : BufTy).Contents (Elt F) → (⟨S256x256, .f32⟩ : BufTy).Contents (Elt F) → (⟨S16x512x256, .f32⟩ : BufTy).Contents (Elt F)),
    unary main_arg2 main_v273 (broadcastInDim S1x1x256 ![2] bcast_S256_S1x1x256_2 : (⟨S256, .f32⟩ : BufTy).Contents (Elt F) → (⟨S1x1x256, .f32⟩ : BufTy).Contents (Elt F)),
    unary main_v273 main_v274 (broadcastInDim S16x512x256 ![0, 1, 2] bcast_S1x1x256_S16x512x256_0_1_2 : (⟨S1x1x256, .f32⟩ : BufTy).Contents (Elt F) → (⟨S16x512x256, .f32⟩ : BufTy).Contents (Elt F)),
    binary main_v272 main_v274 main_v275 (addf : (⟨S16x512x256, .f32⟩ : BufTy).Contents (Elt F) → (⟨S16x512x256, .f32⟩ : BufTy).Contents (Elt F) → (⟨S16x512x256, .f32⟩ : BufTy).Contents (Elt F)),
    TRef.nullary (TRef.of (T := ⟨S_, .f32⟩) main_call23_cst) (constant S_ .f32 0x00000000#32),
    TRef.unary (TRef.of (T := ⟨S_, .f32⟩) main_call23_cst) (TRef.of (T := ⟨S16x512x256, .f32⟩) main_call23_v0) (broadcastInDim S16x512x256 ![] bcast_S_S16x512x256),
    TRef.binary (TRef.of (T := ⟨S16x512x256, .f32⟩) main_v275) (TRef.of (T := ⟨S16x512x256, .f32⟩) main_call23_v0) (TRef.of (T := ⟨S16x512x256, .f32⟩) main_v276) maximumf ]
theorem pc17_sub : (pc17 : List (HloOp τ sig (Elt F))).Forall fun op => op.bufs ⊆ tcRefs τ sig :=
  ⟨unary_bufs_sub .., binary_bufs_sub .., unary_bufs_sub .., nullary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub ..⟩
theorem pc17_fresh : (pc17 : List (HloOp τ sig (Elt F))).Forall fun op => op.fresh = ∅ :=
  ⟨rfl, rfl, rfl, rfl, rfl, rfl, rfl, rfl, rfl, rfl, rfl, rfl, rfl, rfl, rfl, rfl⟩
theorem pc17_writes : (pc17 : List (HloOp τ sig (Elt F))).Forall fun op => op.writes ⊆ (W11.map (Proc.devRef (τ := τ) .tc)).toFinset :=
  ⟨writes_sub main_v264 (by decide), writes_sub main_v265 (by decide), writes_sub main_v266 (by decide), writes_sub main_cst_35 (by decide), writes_sub main_v267 (by decide), writes_sub main_v268 (by decide), writes_sub main_v269 (by decide), writes_sub main_v270 (by decide), writes_sub main_v271 (by decide), writes_sub main_v272 (by decide), writes_sub main_v273 (by decide), writes_sub main_v274 (by decide), writes_sub main_v275 (by decide), writes_sub main_call23_cst (by decide), writes_sub main_call23_v0 (by decide), writes_sub main_v276 (by decide)⟩

/-- Operations 363 … 375 of 375 (the epilogue). -/
noncomputable abbrev pc18 : List (HloOp τ sig (Elt F)) :=
  [ unary main_v23 main_v277 (broadcastInDim S16x512x1x256 ![0, 1, 3] bcast_S16x512x256_S16x512x1x256_0_1_3 : (⟨S16x512x256, .f32⟩ : BufTy).Contents (Elt F) → (⟨S16x512x1x256, .f32⟩ : BufTy).Contents (Elt F)),
    unary main_v46 main_v278 (broadcastInDim S16x512x1x256 ![0, 1, 3] bcast_S16x512x256_S16x512x1x256_0_1_3 : (⟨S16x512x256, .f32⟩ : BufTy).Contents (Elt F) → (⟨S16x512x1x256, .f32⟩ : BufTy).Contents (Elt F)),
    unary main_v69 main_v279 (broadcastInDim S16x512x1x256 ![0, 1, 3] bcast_S16x512x256_S16x512x1x256_0_1_3 : (⟨S16x512x256, .f32⟩ : BufTy).Contents (Elt F) → (⟨S16x512x1x256, .f32⟩ : BufTy).Contents (Elt F)),
    unary main_v92 main_v280 (broadcastInDim S16x512x1x256 ![0, 1, 3] bcast_S16x512x256_S16x512x1x256_0_1_3 : (⟨S16x512x256, .f32⟩ : BufTy).Contents (Elt F) → (⟨S16x512x1x256, .f32⟩ : BufTy).Contents (Elt F)),
    unary main_v115 main_v281 (broadcastInDim S16x512x1x256 ![0, 1, 3] bcast_S16x512x256_S16x512x1x256_0_1_3 : (⟨S16x512x256, .f32⟩ : BufTy).Contents (Elt F) → (⟨S16x512x1x256, .f32⟩ : BufTy).Contents (Elt F)),
    unary main_v138 main_v282 (broadcastInDim S16x512x1x256 ![0, 1, 3] bcast_S16x512x256_S16x512x1x256_0_1_3 : (⟨S16x512x256, .f32⟩ : BufTy).Contents (Elt F) → (⟨S16x512x1x256, .f32⟩ : BufTy).Contents (Elt F)),
    unary main_v161 main_v283 (broadcastInDim S16x512x1x256 ![0, 1, 3] bcast_S16x512x256_S16x512x1x256_0_1_3 : (⟨S16x512x256, .f32⟩ : BufTy).Contents (Elt F) → (⟨S16x512x1x256, .f32⟩ : BufTy).Contents (Elt F)),
    unary main_v184 main_v284 (broadcastInDim S16x512x1x256 ![0, 1, 3] bcast_S16x512x256_S16x512x1x256_0_1_3 : (⟨S16x512x256, .f32⟩ : BufTy).Contents (Elt F) → (⟨S16x512x1x256, .f32⟩ : BufTy).Contents (Elt F)),
    unary main_v207 main_v285 (broadcastInDim S16x512x1x256 ![0, 1, 3] bcast_S16x512x256_S16x512x1x256_0_1_3 : (⟨S16x512x256, .f32⟩ : BufTy).Contents (Elt F) → (⟨S16x512x1x256, .f32⟩ : BufTy).Contents (Elt F)),
    unary main_v230 main_v286 (broadcastInDim S16x512x1x256 ![0, 1, 3] bcast_S16x512x256_S16x512x1x256_0_1_3 : (⟨S16x512x256, .f32⟩ : BufTy).Contents (Elt F) → (⟨S16x512x1x256, .f32⟩ : BufTy).Contents (Elt F)),
    unary main_v253 main_v287 (broadcastInDim S16x512x1x256 ![0, 1, 3] bcast_S16x512x256_S16x512x1x256_0_1_3 : (⟨S16x512x256, .f32⟩ : BufTy).Contents (Elt F) → (⟨S16x512x1x256, .f32⟩ : BufTy).Contents (Elt F)),
    unary main_v276 main_v288 (broadcastInDim S16x512x1x256 ![0, 1, 3] bcast_S16x512x256_S16x512x1x256_0_1_3 : (⟨S16x512x256, .f32⟩ : BufTy).Contents (Elt F) → (⟨S16x512x1x256, .f32⟩ : BufTy).Contents (Elt F)),
    nary ![main_v277, main_v278, main_v279, main_v280, main_v281, main_v282, main_v283, main_v284, main_v285, main_v286, main_v287, main_v288] main_v289 (fun u => concatenate S16x512x12x256 2 [⟨S16x512x1x256, u 0⟩, ⟨S16x512x1x256, u 1⟩, ⟨S16x512x1x256, u 2⟩, ⟨S16x512x1x256, u 3⟩, ⟨S16x512x1x256, u 4⟩, ⟨S16x512x1x256, u 5⟩, ⟨S16x512x1x256, u 6⟩, ⟨S16x512x1x256, u 7⟩, ⟨S16x512x1x256, u 8⟩, ⟨S16x512x1x256, u 9⟩, ⟨S16x512x1x256, u 10⟩, ⟨S16x512x1x256, u 11⟩] concatenates_S16x512x1x256_S16x512x1x256_S16x512x1x256_S16x512x1x256_S16x512x1x256_S16x512x1x256_S16x512x1x256_S16x512x1x256_S16x512x1x256_S16x512x1x256_S16x512x1x256_S16x512x1x256_S16x512x12x256_d2) ]
theorem pc18_sub : (pc18 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub ..⟩
theorem pc18_fresh : (pc18 : List (HloOp τ sig (Elt F))).Forall fun op => op.fresh = ∅ :=
  ⟨rfl, rfl, rfl, rfl, rfl, rfl, rfl, rfl, rfl, rfl, rfl, rfl, rfl⟩
theorem pc18_writes : (pc18 : List (HloOp τ sig (Elt F))).Forall fun op => op.writes ⊆ (Wepi.map (Proc.devRef (τ := τ) .tc)).toFinset :=
  ⟨writes_sub main_v277 (by decide), writes_sub main_v278 (by decide), writes_sub main_v279 (by decide), writes_sub main_v280 (by decide), writes_sub main_v281 (by decide), writes_sub main_v282 (by decide), writes_sub main_v283 (by decide), writes_sub main_v284 (by decide), writes_sub main_v285 (by decide), writes_sub main_v286 (by decide), writes_sub main_v287 (by decide), writes_sub main_v288 (by decide), writes_sub main_v289 (by decide)⟩

/-! ## By printed window: @main is the straight line of the pieces -/

/-- The operations of @main's window 0. -/
noncomputable abbrev w0 : List (HloOp τ sig (Elt F)) := pc0 ++ (pc1 ++ (pc2 ++ pc3))
set_option maxHeartbeats 1000000 in
theorem main_part0_eq (c : Dev nD) : main_part0 (F := F) c = seq w0 := rfl
theorem w0_sub : (w0 : List (HloOp τ sig (Elt F))).Forall fun op => op.bufs ⊆ tcRefs τ sig :=
  forall_append pc0_sub (forall_append pc1_sub (forall_append pc2_sub pc3_sub))
theorem w0_fresh : (w0 : List (HloOp τ sig (Elt F))).Forall fun op => op.fresh = ∅ :=
  forall_append pc0_fresh (forall_append pc1_fresh (forall_append pc2_fresh pc3_fresh))

/-- The operations of @main's window 1. -/
noncomputable abbrev w1 : List (HloOp τ sig (Elt F)) := pc4 ++ (pc5 ++ pc6)
set_option maxHeartbeats 1000000 in
theorem main_part1_eq (c : Dev nD) : main_part1 (F := F) c = seq w1 := rfl
theorem w1_sub : (w1 : List (HloOp τ sig (Elt F))).Forall fun op => op.bufs ⊆ tcRefs τ sig :=
  forall_append pc4_sub (forall_append pc5_sub pc6_sub)
theorem w1_fresh : (w1 : List (HloOp τ sig (Elt F))).Forall fun op => op.fresh = ∅ :=
  forall_append pc4_fresh (forall_append pc5_fresh pc6_fresh)

/-- The operations of @main's window 2. -/
noncomputable abbrev w2 : List (HloOp τ sig (Elt F)) := pc7 ++ (pc8 ++ pc9)
set_option maxHeartbeats 1000000 in
theorem main_part2_eq (c : Dev nD) : main_part2 (F := F) c = seq w2 := rfl
theorem w2_sub : (w2 : List (HloOp τ sig (Elt F))).Forall fun op => op.bufs ⊆ tcRefs τ sig :=
  forall_append pc7_sub (forall_append pc8_sub pc9_sub)
theorem w2_fresh : (w2 : List (HloOp τ sig (Elt F))).Forall fun op => op.fresh = ∅ :=
  forall_append pc7_fresh (forall_append pc8_fresh pc9_fresh)

/-- The operations of @main's window 3. -/
noncomputable abbrev w3 : List (HloOp τ sig (Elt F)) := pc10 ++ (pc11 ++ (pc12 ++ pc13))
set_option maxHeartbeats 1000000 in
theorem main_part3_eq (c : Dev nD) : main_part3 (F := F) c = seq w3 := rfl
theorem w3_sub : (w3 : List (HloOp τ sig (Elt F))).Forall fun op => op.bufs ⊆ tcRefs τ sig :=
  forall_append pc10_sub (forall_append pc11_sub (forall_append pc12_sub pc13_sub))
theorem w3_fresh : (w3 : List (HloOp τ sig (Elt F))).Forall fun op => op.fresh = ∅ :=
  forall_append pc10_fresh (forall_append pc11_fresh (forall_append pc12_fresh pc13_fresh))

/-- The operations of @main's window 4. -/
noncomputable abbrev w4 : List (HloOp τ sig (Elt F)) := pc14 ++ (pc15 ++ pc16)
set_option maxHeartbeats 1000000 in
theorem main_part4_eq (c : Dev nD) : main_part4 (F := F) c = seq w4 := rfl
theorem w4_sub : (w4 : List (HloOp τ sig (Elt F))).Forall fun op => op.bufs ⊆ tcRefs τ sig :=
  forall_append pc14_sub (forall_append pc15_sub pc16_sub)
theorem w4_fresh : (w4 : List (HloOp τ sig (Elt F))).Forall fun op => op.fresh = ∅ :=
  forall_append pc14_fresh (forall_append pc15_fresh pc16_fresh)

/-- The operations of @main's window 5. -/
noncomputable abbrev w5 : List (HloOp τ sig (Elt F)) := pc17 ++ pc18
set_option maxHeartbeats 1000000 in
theorem main_part5_eq (c : Dev nD) : main_part5 (F := F) c = seq w5 := rfl
theorem w5_sub : (w5 : List (HloOp τ sig (Elt F))).Forall fun op => op.bufs ⊆ tcRefs τ sig :=
  forall_append pc17_sub pc18_sub
theorem w5_fresh : (w5 : List (HloOp τ sig (Elt F))).Forall fun op => op.fresh = ∅ :=
  forall_append pc17_fresh pc18_fresh

/-- @main's 375 operations: the six windows in order. -/
noncomputable abbrev ops : List (HloOp τ sig (Elt F)) := w0 ++ (w1 ++ (w2 ++ (w3 ++ (w4 ++ w5))))

/-- @main runs its windows in order, and two straight lines in a row are one. -/
theorem main_eq (c : Dev nD) : main (F := F) c = seq ops := by
  show (main_part0 c >>= fun _ => main_part1 c >>= fun _ => main_part2 c >>= fun _ => main_part3 c >>= fun _ =>
    main_part4 c >>= fun _ => main_part5 c) = _
  rw [main_part0_eq, main_part1_eq, main_part2_eq, main_part3_eq, main_part4_eq, main_part5_eq]
  simp only [ops, seq_append]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append w0_sub (forall_append w1_sub (forall_append w2_sub (forall_append w3_sub (forall_append w4_sub w5_sub))))
theorem ops_fresh : ∀ op ∈ (ops : List (HloOp τ sig (Elt F))), op.fresh = ∅ :=
  List.forall_iff_forall_mem.mp
    (forall_append w0_fresh (forall_append w1_fresh (forall_append w2_fresh (forall_append w3_fresh (forall_append w4_fresh w5_fresh)))))

/-- The library's run of a straight line, at @main: every buffer ends at the fold of the 375 operations'
    results over its launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (hfresh := fun _ => ops_fresh)

/-! ## By time step: the prologue, the twelve steps, the epilogue -/

/-- The operations of the prologue. -/
noncomputable def pro : List (HloOp τ sig (Elt F)) := pc0
theorem pro_writes : (pro : List (HloOp τ sig (Elt F))).Forall fun op => op.writes ⊆ (Wpro.map (Proc.devRef (τ := τ) .tc)).toFinset :=
  pc0_writes
/-- The prologue leaves every buffer it does not write as it was. -/
theorem pro_keep (V : Valuation τ sig (Elt F)) {r : Ref sig .tc} (hr : r ∉ Wpro) :
    after pro V (no_index (Proc.devRef .tc r)) = V (Proc.devRef .tc r) := after_of_writes_sub pro V pro_writes hr

/-- The operations of time step 0. -/
noncomputable def st0 : List (HloOp τ sig (Elt F)) := pc1
theorem st0_writes : (st0 : List (HloOp τ sig (Elt F))).Forall fun op => op.writes ⊆ (W0.map (Proc.devRef (τ := τ) .tc)).toFinset :=
  pc1_writes
/-- Time step 0 leaves every buffer it does not write as it was. -/
theorem st0_keep (V : Valuation τ sig (Elt F)) {r : Ref sig .tc} (hr : r ∉ W0) :
    after st0 V (no_index (Proc.devRef .tc r)) = V (Proc.devRef .tc r) := after_of_writes_sub st0 V st0_writes hr

/-- The operations of time step 1. -/
noncomputable def st1 : List (HloOp τ sig (Elt F)) := pc2
theorem st1_writes : (st1 : List (HloOp τ sig (Elt F))).Forall fun op => op.writes ⊆ (W1.map (Proc.devRef (τ := τ) .tc)).toFinset :=
  pc2_writes
/-- Time step 1 leaves every buffer it does not write as it was. -/
theorem st1_keep (V : Valuation τ sig (Elt F)) {r : Ref sig .tc} (hr : r ∉ W1) :
    after st1 V (no_index (Proc.devRef .tc r)) = V (Proc.devRef .tc r) := after_of_writes_sub st1 V st1_writes hr

/-- The operations of time step 2. -/
noncomputable def st2 : List (HloOp τ sig (Elt F)) := pc3 ++ pc4
theorem st2_writes : (st2 : List (HloOp τ sig (Elt F))).Forall fun op => op.writes ⊆ (W2.map (Proc.devRef (τ := τ) .tc)).toFinset :=
  forall_append pc3_writes pc4_writes
/-- Time step 2 leaves every buffer it does not write as it was. -/
theorem st2_keep (V : Valuation τ sig (Elt F)) {r : Ref sig .tc} (hr : r ∉ W2) :
    after st2 V (no_index (Proc.devRef .tc r)) = V (Proc.devRef .tc r) := after_of_writes_sub st2 V st2_writes hr

/-- The operations of time step 3. -/
noncomputable def st3 : List (HloOp τ sig (Elt F)) := pc5
theorem st3_writes : (st3 : List (HloOp τ sig (Elt F))).Forall fun op => op.writes ⊆ (W3.map (Proc.devRef (τ := τ) .tc)).toFinset :=
  pc5_writes
/-- Time step 3 leaves every buffer it does not write as it was. -/
theorem st3_keep (V : Valuation τ sig (Elt F)) {r : Ref sig .tc} (hr : r ∉ W3) :
    after st3 V (no_index (Proc.devRef .tc r)) = V (Proc.devRef .tc r) := after_of_writes_sub st3 V st3_writes hr

/-- The operations of time step 4. -/
noncomputable def st4 : List (HloOp τ sig (Elt F)) := pc6 ++ pc7
theorem st4_writes : (st4 : List (HloOp τ sig (Elt F))).Forall fun op => op.writes ⊆ (W4.map (Proc.devRef (τ := τ) .tc)).toFinset :=
  forall_append pc6_writes pc7_writes
/-- Time step 4 leaves every buffer it does not write as it was. -/
theorem st4_keep (V : Valuation τ sig (Elt F)) {r : Ref sig .tc} (hr : r ∉ W4) :
    after st4 V (no_index (Proc.devRef .tc r)) = V (Proc.devRef .tc r) := after_of_writes_sub st4 V st4_writes hr

/-- The operations of time step 5. -/
noncomputable def st5 : List (HloOp τ sig (Elt F)) := pc8
theorem st5_writes : (st5 : List (HloOp τ sig (Elt F))).Forall fun op => op.writes ⊆ (W5.map (Proc.devRef (τ := τ) .tc)).toFinset :=
  pc8_writes
/-- Time step 5 leaves every buffer it does not write as it was. -/
theorem st5_keep (V : Valuation τ sig (Elt F)) {r : Ref sig .tc} (hr : r ∉ W5) :
    after st5 V (no_index (Proc.devRef .tc r)) = V (Proc.devRef .tc r) := after_of_writes_sub st5 V st5_writes hr

/-- The operations of time step 6. -/
noncomputable def st6 : List (HloOp τ sig (Elt F)) := pc9 ++ pc10
theorem st6_writes : (st6 : List (HloOp τ sig (Elt F))).Forall fun op => op.writes ⊆ (W6.map (Proc.devRef (τ := τ) .tc)).toFinset :=
  forall_append pc9_writes pc10_writes
/-- Time step 6 leaves every buffer it does not write as it was. -/
theorem st6_keep (V : Valuation τ sig (Elt F)) {r : Ref sig .tc} (hr : r ∉ W6) :
    after st6 V (no_index (Proc.devRef .tc r)) = V (Proc.devRef .tc r) := after_of_writes_sub st6 V st6_writes hr

/-- The operations of time step 7. -/
noncomputable def st7 : List (HloOp τ sig (Elt F)) := pc11
theorem st7_writes : (st7 : List (HloOp τ sig (Elt F))).Forall fun op => op.writes ⊆ (W7.map (Proc.devRef (τ := τ) .tc)).toFinset :=
  pc11_writes
/-- Time step 7 leaves every buffer it does not write as it was. -/
theorem st7_keep (V : Valuation τ sig (Elt F)) {r : Ref sig .tc} (hr : r ∉ W7) :
    after st7 V (no_index (Proc.devRef .tc r)) = V (Proc.devRef .tc r) := after_of_writes_sub st7 V st7_writes hr

/-- The operations of time step 8. -/
noncomputable def st8 : List (HloOp τ sig (Elt F)) := pc12
theorem st8_writes : (st8 : List (HloOp τ sig (Elt F))).Forall fun op => op.writes ⊆ (W8.map (Proc.devRef (τ := τ) .tc)).toFinset :=
  pc12_writes
/-- Time step 8 leaves every buffer it does not write as it was. -/
theorem st8_keep (V : Valuation τ sig (Elt F)) {r : Ref sig .tc} (hr : r ∉ W8) :
    after st8 V (no_index (Proc.devRef .tc r)) = V (Proc.devRef .tc r) := after_of_writes_sub st8 V st8_writes hr

/-- The operations of time step 9. -/
noncomputable def st9 : List (HloOp τ sig (Elt F)) := pc13 ++ pc14
theorem st9_writes : (st9 : List (HloOp τ sig (Elt F))).Forall fun op => op.writes ⊆ (W9.map (Proc.devRef (τ := τ) .tc)).toFinset :=
  forall_append pc13_writes pc14_writes
/-- Time step 9 leaves every buffer it does not write as it was. -/
theorem st9_keep (V : Valuation τ sig (Elt F)) {r : Ref sig .tc} (hr : r ∉ W9) :
    after st9 V (no_index (Proc.devRef .tc r)) = V (Proc.devRef .tc r) := after_of_writes_sub st9 V st9_writes hr

/-- The operations of time step 10. -/
noncomputable def st10 : List (HloOp τ sig (Elt F)) := pc15
theorem st10_writes : (st10 : List (HloOp τ sig (Elt F))).Forall fun op => op.writes ⊆ (W10.map (Proc.devRef (τ := τ) .tc)).toFinset :=
  pc15_writes
/-- Time step 10 leaves every buffer it does not write as it was. -/
theorem st10_keep (V : Valuation τ sig (Elt F)) {r : Ref sig .tc} (hr : r ∉ W10) :
    after st10 V (no_index (Proc.devRef .tc r)) = V (Proc.devRef .tc r) := after_of_writes_sub st10 V st10_writes hr

/-- The operations of time step 11. -/
noncomputable def st11 : List (HloOp τ sig (Elt F)) := pc16 ++ pc17
theorem st11_writes : (st11 : List (HloOp τ sig (Elt F))).Forall fun op => op.writes ⊆ (W11.map (Proc.devRef (τ := τ) .tc)).toFinset :=
  forall_append pc16_writes pc17_writes
/-- Time step 11 leaves every buffer it does not write as it was. -/
theorem st11_keep (V : Valuation τ sig (Elt F)) {r : Ref sig .tc} (hr : r ∉ W11) :
    after st11 V (no_index (Proc.devRef .tc r)) = V (Proc.devRef .tc r) := after_of_writes_sub st11 V st11_writes hr

/-- The operations of the epilogue. -/
noncomputable def epi : List (HloOp τ sig (Elt F)) := pc18
theorem epi_writes : (epi : List (HloOp τ sig (Elt F))).Forall fun op => op.writes ⊆ (Wepi.map (Proc.devRef (τ := τ) .tc)).toFinset :=
  pc18_writes
/-- The epilogue leaves every buffer it does not write as it was. -/
theorem epi_keep (V : Valuation τ sig (Elt F)) {r : Ref sig .tc} (hr : r ∉ Wepi) :
    after epi V (no_index (Proc.devRef .tc r)) = V (Proc.devRef .tc r) := after_of_writes_sub epi V epi_writes hr

/-- The prologue leaves the square root of 256 in its buffer. -/
theorem pro_val (V : Valuation τ sig (Elt F)) :
    after pro V (no_index (Proc.devRef .tc main_v0)) = Host.sqrt (constant (F := F) S_ .f32 0x43800000#32) := by
  unfold pro
  after_results_simp

set_option maxRecDepth 8192 in
/-- Time step 0 leaves in its result buffer the time step's function of the slice at 0, the weights and the
    bias, over the contents of the square root's buffer: the fold at that buffer, operation by operation, is
    that composition. -/
theorem st0_val (V : Valuation τ sig (Elt F)) :
    after st0 V (no_index (Proc.devRef .tc main_v23))
      = stepG (V (Proc.devRef .tc main_v0))
          (stepInput (V (Proc.devRef .tc main_arg0)) ![0, 0, 0, 0] slices_S16x512x12x256_S16x512x1x256_0_0_0_0)
          (V (Proc.devRef .tc main_arg1)) (V (Proc.devRef .tc main_arg2)) := by
  unfold st0
  after_results_simp
  rfl

set_option maxRecDepth 8192 in
/-- Time step 1 leaves in its result buffer the time step's function of the slice at 1, the weights and the
    bias, over the contents of the square root's buffer: the fold at that buffer, operation by operation, is
    that composition. -/
theorem st1_val (V : Valuation τ sig (Elt F)) :
    after st1 V (no_index (Proc.devRef .tc main_v46))
      = stepG (V (Proc.devRef .tc main_v0))
          (stepInput (V (Proc.devRef .tc main_arg0)) ![0, 0, 1, 0] slices_S16x512x12x256_S16x512x1x256_0_0_1_0)
          (V (Proc.devRef .tc main_arg1)) (V (Proc.devRef .tc main_arg2)) := by
  unfold st1
  after_results_simp
  rfl

set_option maxRecDepth 8192 in
/-- Time step 2 leaves in its result buffer the time step's function of the slice at 2, the weights and the
    bias, over the contents of the square root's buffer: the fold at that buffer, operation by operation, is
    that composition. -/
theorem st2_val (V : Valuation τ sig (Elt F)) :
    after st2 V (no_index (Proc.devRef .tc main_v69))
      = stepG (V (Proc.devRef .tc main_v0))
          (stepInput (V (Proc.devRef .tc main_arg0)) ![0, 0, 2, 0] slices_S16x512x12x256_S16x512x1x256_0_0_2_0)
          (V (Proc.devRef .tc main_arg1)) (V (Proc.devRef .tc main_arg2)) := by
  unfold st2
  simp only [StableHlo.after_append]
  after_results_simp
  rfl

set_option maxRecDepth 8192 in
/-- Time step 3 leaves in its result buffer the time step's function of the slice at 3, the weights and the
    bias, over the contents of the square root's buffer: the fold at that buffer, operation by operation, is
    that composition. -/
theorem st3_val (V : Valuation τ sig (Elt F)) :
    after st3 V (no_index (Proc.devRef .tc main_v92))
      = stepG (V (Proc.devRef .tc main_v0))
          (stepInput (V (Proc.devRef .tc main_arg0)) ![0, 0, 3, 0] slices_S16x512x12x256_S16x512x1x256_0_0_3_0)
          (V (Proc.devRef .tc main_arg1)) (V (Proc.devRef .tc main_arg2)) := by
  unfold st3
  after_results_simp
  rfl

set_option maxRecDepth 8192 in
/-- Time step 4 leaves in its result buffer the time step's function of the slice at 4, the weights and the
    bias, over the contents of the square root's buffer: the fold at that buffer, operation by operation, is
    that composition. -/
theorem st4_val (V : Valuation τ sig (Elt F)) :
    after st4 V (no_index (Proc.devRef .tc main_v115))
      = stepG (V (Proc.devRef .tc main_v0))
          (stepInput (V (Proc.devRef .tc main_arg0)) ![0, 0, 4, 0] slices_S16x512x12x256_S16x512x1x256_0_0_4_0)
          (V (Proc.devRef .tc main_arg1)) (V (Proc.devRef .tc main_arg2)) := by
  unfold st4
  simp only [StableHlo.after_append]
  after_results_simp
  rfl

set_option maxRecDepth 8192 in
/-- Time step 5 leaves in its result buffer the time step's function of the slice at 5, the weights and the
    bias, over the contents of the square root's buffer: the fold at that buffer, operation by operation, is
    that composition. -/
theorem st5_val (V : Valuation τ sig (Elt F)) :
    after st5 V (no_index (Proc.devRef .tc main_v138))
      = stepG (V (Proc.devRef .tc main_v0))
          (stepInput (V (Proc.devRef .tc main_arg0)) ![0, 0, 5, 0] slices_S16x512x12x256_S16x512x1x256_0_0_5_0)
          (V (Proc.devRef .tc main_arg1)) (V (Proc.devRef .tc main_arg2)) := by
  unfold st5
  after_results_simp
  rfl

set_option maxRecDepth 8192 in
/-- Time step 6 leaves in its result buffer the time step's function of the slice at 6, the weights and the
    bias, over the contents of the square root's buffer: the fold at that buffer, operation by operation, is
    that composition. -/
theorem st6_val (V : Valuation τ sig (Elt F)) :
    after st6 V (no_index (Proc.devRef .tc main_v161))
      = stepG (V (Proc.devRef .tc main_v0))
          (stepInput (V (Proc.devRef .tc main_arg0)) ![0, 0, 6, 0] slices_S16x512x12x256_S16x512x1x256_0_0_6_0)
          (V (Proc.devRef .tc main_arg1)) (V (Proc.devRef .tc main_arg2)) := by
  unfold st6
  simp only [StableHlo.after_append]
  after_results_simp
  rfl

set_option maxRecDepth 8192 in
/-- Time step 7 leaves in its result buffer the time step's function of the slice at 7, the weights and the
    bias, over the contents of the square root's buffer: the fold at that buffer, operation by operation, is
    that composition. -/
theorem st7_val (V : Valuation τ sig (Elt F)) :
    after st7 V (no_index (Proc.devRef .tc main_v184))
      = stepG (V (Proc.devRef .tc main_v0))
          (stepInput (V (Proc.devRef .tc main_arg0)) ![0, 0, 7, 0] slices_S16x512x12x256_S16x512x1x256_0_0_7_0)
          (V (Proc.devRef .tc main_arg1)) (V (Proc.devRef .tc main_arg2)) := by
  unfold st7
  after_results_simp
  rfl

set_option maxRecDepth 8192 in
/-- Time step 8 leaves in its result buffer the time step's function of the slice at 8, the weights and the
    bias, over the contents of the square root's buffer: the fold at that buffer, operation by operation, is
    that composition. -/
theorem st8_val (V : Valuation τ sig (Elt F)) :
    after st8 V (no_index (Proc.devRef .tc main_v207))
      = stepG (V (Proc.devRef .tc main_v0))
          (stepInput (V (Proc.devRef .tc main_arg0)) ![0, 0, 8, 0] slices_S16x512x12x256_S16x512x1x256_0_0_8_0)
          (V (Proc.devRef .tc main_arg1)) (V (Proc.devRef .tc main_arg2)) := by
  unfold st8
  after_results_simp
  rfl

set_option maxRecDepth 8192 in
/-- Time step 9 leaves in its result buffer the time step's function of the slice at 9, the weights and the
    bias, over the contents of the square root's buffer: the fold at that buffer, operation by operation, is
    that composition. -/
theorem st9_val (V : Valuation τ sig (Elt F)) :
    after st9 V (no_index (Proc.devRef .tc main_v230))
      = stepG (V (Proc.devRef .tc main_v0))
          (stepInput (V (Proc.devRef .tc main_arg0)) ![0, 0, 9, 0] slices_S16x512x12x256_S16x512x1x256_0_0_9_0)
          (V (Proc.devRef .tc main_arg1)) (V (Proc.devRef .tc main_arg2)) := by
  unfold st9
  simp only [StableHlo.after_append]
  after_results_simp
  rfl

set_option maxRecDepth 8192 in
/-- Time step 10 leaves in its result buffer the time step's function of the slice at 10, the weights and the
    bias, over the contents of the square root's buffer: the fold at that buffer, operation by operation, is
    that composition. -/
theorem st10_val (V : Valuation τ sig (Elt F)) :
    after st10 V (no_index (Proc.devRef .tc main_v253))
      = stepG (V (Proc.devRef .tc main_v0))
          (stepInput (V (Proc.devRef .tc main_arg0)) ![0, 0, 10, 0] slices_S16x512x12x256_S16x512x1x256_0_0_10_0)
          (V (Proc.devRef .tc main_arg1)) (V (Proc.devRef .tc main_arg2)) := by
  unfold st10
  after_results_simp
  rfl

set_option maxRecDepth 8192 in
/-- Time step 11 leaves in its result buffer the time step's function of the slice at 11, the weights and the
    bias, over the contents of the square root's buffer: the fold at that buffer, operation by operation, is
    that composition. -/
theorem st11_val (V : Valuation τ sig (Elt F)) :
    after st11 V (no_index (Proc.devRef .tc main_v276))
      = stepG (V (Proc.devRef .tc main_v0))
          (stepInput (V (Proc.devRef .tc main_arg0)) ![0, 0, 11, 0] slices_S16x512x12x256_S16x512x1x256_0_0_11_0)
          (V (Proc.devRef .tc main_arg1)) (V (Proc.devRef .tc main_arg2)) := by
  unfold st11
  simp only [StableHlo.after_append]
  after_results_simp
  rfl

set_option maxRecDepth 8192 in
/-- The epilogue leaves in the result buffer the twelve steps' results, each with its unit time axis put back,
    joined along the time axis. -/
theorem epi_val (V : Valuation τ sig (Elt F)) :
    after epi V (no_index (Proc.devRef .tc main_v289))
      = join12
          (V (Proc.devRef .tc main_v23)) (V (Proc.devRef .tc main_v46)) (V (Proc.devRef .tc main_v69)) (V (Proc.devRef .tc main_v92)) (V (Proc.devRef .tc main_v115)) (V (Proc.devRef .tc main_v138)) (V (Proc.devRef .tc main_v161)) (V (Proc.devRef .tc main_v184)) (V (Proc.devRef .tc main_v207)) (V (Proc.devRef .tc main_v230)) (V (Proc.devRef .tc main_v253)) (V (Proc.devRef .tc main_v276)) := by
  unfold epi join12
  after_results_simp
  rfl

/-! ## The two readings are one list -/

theorem ops_eq : (ops : List (HloOp τ sig (Elt F))) = pro ++ (st0 ++ (st1 ++ (st2 ++ (st3 ++ (st4 ++ (st5 ++ (st6 ++ (st7 ++ (st8 ++ (st9 ++ (st10 ++ (st11 ++ epi)))))))))))) := by
  simp only [ops, w0, w1, w2, w3, w4, w5, pro, st0, st1, st2, st3, st4, st5, st6, st7, st8, st9, st10, st11, epi, List.append_assoc]

/-! ## The result and the arguments after the whole program -/

set_option maxRecDepth 8192 in
/-- The result buffer after the 375 operations: the reference's result of the arguments' contents. Step by
    step from the end: the epilogue joins the twelve result buffers' contents; each is its step's value, kept by
    the later steps; each step read the arguments and the square root as the earlier stretches left them, the
    arguments untouched and the square root the prologue's. -/
theorem out_eq (V : Valuation τ sig (Elt F)) :
    after ops V (Proc.devRef .tc main_v289)
      = result (V (Proc.devRef .tc main_arg0)) (V (Proc.devRef .tc main_arg1)) (V (Proc.devRef .tc main_arg2)) := by
  rw [ops_eq, result_eq]
  simp only [StableHlo.after_append]
  simp (disch := decide) only [epi_val, st0_val, st1_val, st2_val, st3_val, st4_val, st5_val, st6_val, st7_val, st8_val, st9_val, st10_val, st11_val, pro_keep, st0_keep, st1_keep, st2_keep, st3_keep, st4_keep, st5_keep, st6_keep, st7_keep, st8_keep, st9_keep, st10_keep, st11_keep, epi_keep, pro_val, stepG_sqrt]

/-- No stretch writes an argument's buffer. -/
theorem arg0_eq (V : Valuation τ sig (Elt F)) : after ops V (Proc.devRef .tc main_arg0) = V (Proc.devRef .tc main_arg0) := by
  rw [ops_eq]
  simp only [StableHlo.after_append]
  simp (disch := decide) only [pro_keep, st0_keep, st1_keep, st2_keep, st3_keep, st4_keep, st5_keep, st6_keep, st7_keep, st8_keep, st9_keep, st10_keep, st11_keep, epi_keep]
theorem arg1_eq (V : Valuation τ sig (Elt F)) : after ops V (Proc.devRef .tc main_arg1) = V (Proc.devRef .tc main_arg1) := by
  rw [ops_eq]
  simp only [StableHlo.after_append]
  simp (disch := decide) only [pro_keep, st0_keep, st1_keep, st2_keep, st3_keep, st4_keep, st5_keep, st6_keep, st7_keep, st8_keep, st9_keep, st10_keep, st11_keep, epi_keep]
theorem arg2_eq (V : Valuation τ sig (Elt F)) : after ops V (Proc.devRef .tc main_arg2) = V (Proc.devRef .tc main_arg2) := by
  rw [ops_eq]
  simp only [StableHlo.after_append]
  simp (disch := decide) only [pro_keep, st0_keep, st1_keep, st2_keep, st3_keep, st4_keep, st5_keep, st6_keep, st7_keep, st8_keep, st9_keep, st10_keep, st11_keep, epi_keep]

/-- On every device, for any float values, from any memory with zero counters: every weakly fair execution of
    @main terminates with the result buffer at the reference's result of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v289)
          = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v289).trans (out_eq (launchContents m c)),
      (h c main_arg0).trans (arg0_eq (launchContents m c)),
      (h c main_arg1).trans (arg1_eq (launchContents m c)),
      (h c main_arg2).trans (arg2_eq (launchContents m c))⟩)
    (run_fold m ρ)

end Cert.ReferenceIdeal.RefRun

end
-- ==== Proof.RefStepRead.lean ====
/-
  One time step of the reference, read entry by entry at the ideal values.

  At the ideal values every operation of the step is the exact one on extended reals: a contraction is the plain
  sum of products over the contracted axis (the batch axis, where there is one, is carried along), a row reduction
  is the maximum or the sum over the last axis from its initial value, a broadcast repeats an entry, and the
  elementwise operations act entry by entry. Read so, the step's result at batch entry bb, node n, feature h is the
  graph-convolution layer's output at (n, h) for the slice X(n, d) = xi(bb, n, d), in the arrangement that divides
  the Gram matrix by √256, compares the row maximum once more with −∞, starts the row sum from an explicit 0 and
  divides each weight by its row sum before it multiplies a feature.

  Each stage of the step is read at an index by a lemma over an arbitrary operand; the step is their composition.
-/
import proofs.«114045_g54185307406482_cont_9to1_m_905_2_alg».proof.Proof.RefStep
import proofs.«114045_g54185307406482_cont_9to1_m_905_2_alg».proof.Proof.GcnSpec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx
open scoped BigOperators

/-! ## The three contractions: which operand entries meet at a result entry -/

-- the batched X Xᵀ: batch axis carried, both operands contracted along their feature axis
theorem lhs_gram_0 (i : S16x512x512.Idx) (q : dot_S16x512x256_S16x512x256_S16x512x512_2_2_1_1_0_0.contr.Idx) :
    (dot_S16x512x256_S16x512x256_S16x512x512_2_2_1_1_0_0.lhsIdx i q 0).val = (i 0).val := by
  unfold DotDims.lhsIdx
  rw [dif_pos (show (0 : Fin S16x512x256.rank) ∈ dot_S16x512x256_S16x512x256_S16x512x512_2_2_1_1_0_0.lhsBatch by decide)]
  rfl
theorem lhs_gram_1 (i : S16x512x512.Idx) (q : dot_S16x512x256_S16x512x256_S16x512x512_2_2_1_1_0_0.contr.Idx) :
    (dot_S16x512x256_S16x512x256_S16x512x512_2_2_1_1_0_0.lhsIdx i q 1).val = (i 1).val := by
  unfold DotDims.lhsIdx
  rw [dif_neg (show ¬(1 : Fin S16x512x256.rank) ∈ dot_S16x512x256_S16x512x256_S16x512x512_2_2_1_1_0_0.lhsBatch by decide), dif_pos (show (1 : Fin S16x512x256.rank) ∈ dot_S16x512x256_S16x512x256_S16x512x512_2_2_1_1_0_0.lhsNonContracting by decide)]
  rfl
theorem lhs_gram_2 (i : S16x512x512.Idx) (q : dot_S16x512x256_S16x512x256_S16x512x512_2_2_1_1_0_0.contr.Idx) :
    (dot_S16x512x256_S16x512x256_S16x512x512_2_2_1_1_0_0.lhsIdx i q 2).val = (q ⟨0, by decide⟩).val :=
  dot_S16x512x256_S16x512x256_S16x512x512_2_2_1_1_0_0.lhsIdx_val_of_single rfl i q
theorem rhs_gram_0 (i : S16x512x512.Idx) (q : dot_S16x512x256_S16x512x256_S16x512x512_2_2_1_1_0_0.contr.Idx) :
    (dot_S16x512x256_S16x512x256_S16x512x512_2_2_1_1_0_0.rhsIdx i q 0).val = (i 0).val := by
  unfold DotDims.rhsIdx
  rw [dif_pos (show (0 : Fin S16x512x256.rank) ∈ dot_S16x512x256_S16x512x256_S16x512x512_2_2_1_1_0_0.rhsBatch by decide)]
  rfl
theorem rhs_gram_1 (i : S16x512x512.Idx) (q : dot_S16x512x256_S16x512x256_S16x512x512_2_2_1_1_0_0.contr.Idx) :
    (dot_S16x512x256_S16x512x256_S16x512x512_2_2_1_1_0_0.rhsIdx i q 1).val = (i 2).val := by
  unfold DotDims.rhsIdx
  rw [dif_neg (show ¬(1 : Fin S16x512x256.rank) ∈ dot_S16x512x256_S16x512x256_S16x512x512_2_2_1_1_0_0.rhsBatch by decide), dif_pos (show (1 : Fin S16x512x256.rank) ∈ dot_S16x512x256_S16x512x256_S16x512x512_2_2_1_1_0_0.rhsNonContracting by decide)]
  rfl
theorem rhs_gram_2 (i : S16x512x512.Idx) (q : dot_S16x512x256_S16x512x256_S16x512x512_2_2_1_1_0_0.contr.Idx) :
    (dot_S16x512x256_S16x512x256_S16x512x512_2_2_1_1_0_0.rhsIdx i q 2).val = (q ⟨0, by decide⟩).val :=
  dot_S16x512x256_S16x512x256_S16x512x512_2_2_1_1_0_0.rhsIdx_val_of_single rfl i q

/-- Entry (bb, n, m) of the batched X Xᵀ is the inner product of rows n and m of batch entry bb. -/
theorem gram_apply (a b : FVec Ideal S16x512x256 .f32) (bb : Fin 16) (n m : Fin 512) :
    Host.dotGeneral dot_S16x512x256_S16x512x256_S16x512x512_2_2_1_1_0_0 none a b (ix3 bb n m) = ∑ d : Fin 256, a (ix3 bb n d) * b (ix3 bb m d) := by
  simp only [Host.dotGeneral]
  rw [Ideal.dotGeneral_apply, ← Equiv.sum_comp (contrEquiv1 dot_S16x512x256_S16x512x256_S16x512x512_2_2_1_1_0_0 256 rfl rfl).symm]
  refine Finset.sum_congr rfl fun k _ => ?_
  have hk := contrEquiv1_symm_val dot_S16x512x256_S16x512x256_S16x512x512_2_2_1_1_0_0 256 rfl rfl k
  have el : dot_S16x512x256_S16x512x256_S16x512x512_2_2_1_1_0_0.lhsIdx (ix3 bb n m) ((contrEquiv1 dot_S16x512x256_S16x512x256_S16x512x512_2_2_1_1_0_0 256 rfl rfl).symm k) = ix3 bb n k := funext fun ax => Fin.ext (by
    match ax with
    | ⟨0, _⟩ => exact lhs_gram_0 _ _
    | ⟨1, _⟩ => exact lhs_gram_1 _ _
    | ⟨2, _⟩ => exact (lhs_gram_2 _ _).trans hk)
  have er : dot_S16x512x256_S16x512x256_S16x512x512_2_2_1_1_0_0.rhsIdx (ix3 bb n m) ((contrEquiv1 dot_S16x512x256_S16x512x256_S16x512x512_2_2_1_1_0_0 256 rfl rfl).symm k) = ix3 bb m k := funext fun ax => Fin.ext (by
    match ax with
    | ⟨0, _⟩ => exact rhs_gram_0 _ _
    | ⟨1, _⟩ => exact rhs_gram_1 _ _
    | ⟨2, _⟩ => exact (rhs_gram_2 _ _).trans hk)
  rw [el, er]

-- the batched weights times X: batch axis carried, the weights' last axis against X's node axis
theorem lhs_aggr_0 (i : S16x512x256.Idx) (q : dot_S16x512x512_S16x512x256_S16x512x256_2_1_1_2_0_0.contr.Idx) :
    (dot_S16x512x512_S16x512x256_S16x512x256_2_1_1_2_0_0.lhsIdx i q 0).val = (i 0).val := by
  unfold DotDims.lhsIdx
  rw [dif_pos (show (0 : Fin S16x512x512.rank) ∈ dot_S16x512x512_S16x512x256_S16x512x256_2_1_1_2_0_0.lhsBatch by decide)]
  rfl
theorem lhs_aggr_1 (i : S16x512x256.Idx) (q : dot_S16x512x512_S16x512x256_S16x512x256_2_1_1_2_0_0.contr.Idx) :
    (dot_S16x512x512_S16x512x256_S16x512x256_2_1_1_2_0_0.lhsIdx i q 1).val = (i 1).val := by
  unfold DotDims.lhsIdx
  rw [dif_neg (show ¬(1 : Fin S16x512x512.rank) ∈ dot_S16x512x512_S16x512x256_S16x512x256_2_1_1_2_0_0.lhsBatch by decide), dif_pos (show (1 : Fin S16x512x512.rank) ∈ dot_S16x512x512_S16x512x256_S16x512x256_2_1_1_2_0_0.lhsNonContracting by decide)]
  rfl
theorem lhs_aggr_2 (i : S16x512x256.Idx) (q : dot_S16x512x512_S16x512x256_S16x512x256_2_1_1_2_0_0.contr.Idx) :
    (dot_S16x512x512_S16x512x256_S16x512x256_2_1_1_2_0_0.lhsIdx i q 2).val = (q ⟨0, by decide⟩).val :=
  dot_S16x512x512_S16x512x256_S16x512x256_2_1_1_2_0_0.lhsIdx_val_of_single rfl i q
theorem rhs_aggr_0 (i : S16x512x256.Idx) (q : dot_S16x512x512_S16x512x256_S16x512x256_2_1_1_2_0_0.contr.Idx) :
    (dot_S16x512x512_S16x512x256_S16x512x256_2_1_1_2_0_0.rhsIdx i q 0).val = (i 0).val := by
  unfold DotDims.rhsIdx
  rw [dif_pos (show (0 : Fin S16x512x256.rank) ∈ dot_S16x512x512_S16x512x256_S16x512x256_2_1_1_2_0_0.rhsBatch by decide)]
  rfl
theorem rhs_aggr_1 (i : S16x512x256.Idx) (q : dot_S16x512x512_S16x512x256_S16x512x256_2_1_1_2_0_0.contr.Idx) :
    (dot_S16x512x512_S16x512x256_S16x512x256_2_1_1_2_0_0.rhsIdx i q 1).val = (q ⟨0, by decide⟩).val :=
  dot_S16x512x512_S16x512x256_S16x512x256_2_1_1_2_0_0.rhsIdx_val_of_single rfl i q
theorem rhs_aggr_2 (i : S16x512x256.Idx) (q : dot_S16x512x512_S16x512x256_S16x512x256_2_1_1_2_0_0.contr.Idx) :
    (dot_S16x512x512_S16x512x256_S16x512x256_2_1_1_2_0_0.rhsIdx i q 2).val = (i 2).val := by
  unfold DotDims.rhsIdx
  rw [dif_neg (show ¬(2 : Fin S16x512x256.rank) ∈ dot_S16x512x512_S16x512x256_S16x512x256_2_1_1_2_0_0.rhsBatch by decide), dif_pos (show (2 : Fin S16x512x256.rank) ∈ dot_S16x512x512_S16x512x256_S16x512x256_2_1_1_2_0_0.rhsNonContracting by decide)]
  rfl

/-- Entry (bb, n, d) of the batched weights times X is the weighted sum over the nodes m of feature d. -/
theorem aggr_apply (a : FVec Ideal S16x512x512 .f32) (b : FVec Ideal S16x512x256 .f32) (bb : Fin 16) (n : Fin 512) (d : Fin 256) :
    Host.dotGeneral dot_S16x512x512_S16x512x256_S16x512x256_2_1_1_2_0_0 none a b (ix3 bb n d) = ∑ m : Fin 512, a (ix3 bb n m) * b (ix3 bb m d) := by
  simp only [Host.dotGeneral]
  rw [Ideal.dotGeneral_apply, ← Equiv.sum_comp (contrEquiv1 dot_S16x512x512_S16x512x256_S16x512x256_2_1_1_2_0_0 512 rfl rfl).symm]
  refine Finset.sum_congr rfl fun k _ => ?_
  have hk := contrEquiv1_symm_val dot_S16x512x512_S16x512x256_S16x512x256_2_1_1_2_0_0 512 rfl rfl k
  have el : dot_S16x512x512_S16x512x256_S16x512x256_2_1_1_2_0_0.lhsIdx (ix3 bb n d) ((contrEquiv1 dot_S16x512x512_S16x512x256_S16x512x256_2_1_1_2_0_0 512 rfl rfl).symm k) = ix3 bb n k := funext fun ax => Fin.ext (by
    match ax with
    | ⟨0, _⟩ => exact lhs_aggr_0 _ _
    | ⟨1, _⟩ => exact lhs_aggr_1 _ _
    | ⟨2, _⟩ => exact (lhs_aggr_2 _ _).trans hk)
  have er : dot_S16x512x512_S16x512x256_S16x512x256_2_1_1_2_0_0.rhsIdx (ix3 bb n d) ((contrEquiv1 dot_S16x512x512_S16x512x256_S16x512x256_2_1_1_2_0_0 512 rfl rfl).symm k) = ix3 bb k d := funext fun ax => Fin.ext (by
    match ax with
    | ⟨0, _⟩ => exact rhs_aggr_0 _ _
    | ⟨1, _⟩ => exact (rhs_aggr_1 _ _).trans hk
    | ⟨2, _⟩ => exact rhs_aggr_2 _ _)
  rw [el, er]

-- the aggregate times W: no batch axis, the aggregate's feature axis against W's first axis
theorem lhs_lin_0 (i : S16x512x256.Idx) (q : dot_S16x512x256_S256x256_S16x512x256_2_0_01_1_n_n.contr.Idx) :
    (dot_S16x512x256_S256x256_S16x512x256_2_0_01_1_n_n.lhsIdx i q 0).val = (i 0).val := by
  unfold DotDims.lhsIdx
  rw [dif_neg (show ¬(0 : Fin S16x512x256.rank) ∈ dot_S16x512x256_S256x256_S16x512x256_2_0_01_1_n_n.lhsBatch by decide), dif_pos (show (0 : Fin S16x512x256.rank) ∈ dot_S16x512x256_S256x256_S16x512x256_2_0_01_1_n_n.lhsNonContracting by decide)]
  rfl
theorem lhs_lin_1 (i : S16x512x256.Idx) (q : dot_S16x512x256_S256x256_S16x512x256_2_0_01_1_n_n.contr.Idx) :
    (dot_S16x512x256_S256x256_S16x512x256_2_0_01_1_n_n.lhsIdx i q 1).val = (i 1).val := by
  unfold DotDims.lhsIdx
  rw [dif_neg (show ¬(1 : Fin S16x512x256.rank) ∈ dot_S16x512x256_S256x256_S16x512x256_2_0_01_1_n_n.lhsBatch by decide), dif_pos (show (1 : Fin S16x512x256.rank) ∈ dot_S16x512x256_S256x256_S16x512x256_2_0_01_1_n_n.lhsNonContracting by decide)]
  rfl
theorem lhs_lin_2 (i : S16x512x256.Idx) (q : dot_S16x512x256_S256x256_S16x512x256_2_0_01_1_n_n.contr.Idx) :
    (dot_S16x512x256_S256x256_S16x512x256_2_0_01_1_n_n.lhsIdx i q 2).val = (q ⟨0, by decide⟩).val :=
  dot_S16x512x256_S256x256_S16x512x256_2_0_01_1_n_n.lhsIdx_val_of_single rfl i q
theorem rhs_lin_0 (i : S16x512x256.Idx) (q : dot_S16x512x256_S256x256_S16x512x256_2_0_01_1_n_n.contr.Idx) :
    (dot_S16x512x256_S256x256_S16x512x256_2_0_01_1_n_n.rhsIdx i q 0).val = (q ⟨0, by decide⟩).val :=
  dot_S16x512x256_S256x256_S16x512x256_2_0_01_1_n_n.rhsIdx_val_of_single rfl i q
theorem rhs_lin_1 (i : S16x512x256.Idx) (q : dot_S16x512x256_S256x256_S16x512x256_2_0_01_1_n_n.contr.Idx) :
    (dot_S16x512x256_S256x256_S16x512x256_2_0_01_1_n_n.rhsIdx i q 1).val = (i 2).val := by
  unfold DotDims.rhsIdx
  rw [dif_neg (show ¬(1 : Fin S256x256.rank) ∈ dot_S16x512x256_S256x256_S16x512x256_2_0_01_1_n_n.rhsBatch by decide), dif_pos (show (1 : Fin S256x256.rank) ∈ dot_S16x512x256_S256x256_S16x512x256_2_0_01_1_n_n.rhsNonContracting by decide)]
  rfl

/-- Entry (bb, n, h) of the aggregate times W is the sum over the features d. -/
theorem lin_apply (a : FVec Ideal S16x512x256 .f32) (b : FVec Ideal S256x256 .f32) (bb : Fin 16) (n : Fin 512) (h : Fin 256) :
    Host.dotGeneral dot_S16x512x256_S256x256_S16x512x256_2_0_01_1_n_n none a b (ix3 bb n h) = ∑ d : Fin 256, a (ix3 bb n d) * b (ix2 d h) := by
  simp only [Host.dotGeneral]
  rw [Ideal.dotGeneral_apply, ← Equiv.sum_comp (contrEquiv1 dot_S16x512x256_S256x256_S16x512x256_2_0_01_1_n_n 256 rfl rfl).symm]
  refine Finset.sum_congr rfl fun k _ => ?_
  have hk := contrEquiv1_symm_val dot_S16x512x256_S256x256_S16x512x256_2_0_01_1_n_n 256 rfl rfl k
  have el : dot_S16x512x256_S256x256_S16x512x256_2_0_01_1_n_n.lhsIdx (ix3 bb n h) ((contrEquiv1 dot_S16x512x256_S256x256_S16x512x256_2_0_01_1_n_n 256 rfl rfl).symm k) = ix3 bb n k := funext fun ax => Fin.ext (by
    match ax with
    | ⟨0, _⟩ => exact lhs_lin_0 _ _
    | ⟨1, _⟩ => exact lhs_lin_1 _ _
    | ⟨2, _⟩ => exact (lhs_lin_2 _ _).trans hk)
  have er : dot_S16x512x256_S256x256_S16x512x256_2_0_01_1_n_n.rhsIdx (ix3 bb n h) ((contrEquiv1 dot_S16x512x256_S256x256_S16x512x256_2_0_01_1_n_n 256 rfl rfl).symm k) = ix2 k h := funext fun ax => Fin.ext (by
    match ax with
    | ⟨0, _⟩ => exact (rhs_lin_0 _ _).trans hk
    | ⟨1, _⟩ => exact rhs_lin_1 _ _)
  rw [el, er]

/-! ## The host's elementwise operations at an index -/

variable {s : Shape} {φ : FTy}

/-- The host's division acts entry by entry. -/
theorem hostDivf_apply (a b : FVec Ideal s φ) (i : s.Idx) : Host.divf a b i = Ideal.div (a i) (b i) := rfl
/-- The host's square root acts entry by entry. -/
theorem hostSqrt_apply (a : FVec Ideal s φ) (i : s.Idx) : Host.sqrt a i = Ideal.sqrt (a i) := rfl
/-- The host's exponential acts entry by entry. -/
theorem hostExp_apply (a : FVec Ideal s φ) (i : s.Idx) : Host.exp a i = Ideal.exp (a i) := rfl

/-! ## The program's constants at the ideal values -/

/-- The constant 256.0, read anywhere. -/
theorem const_c256 (i : S_.Idx) : constant (F := Ideal) S_ .f32 0x43800000#32 i = Gcn.c256 := rfl
/-- The constant +0.0, read anywhere. -/
theorem const_cZero (i : S_.Idx) : constant (F := Ideal) S_ .f32 0x00000000#32 i = Gcn.cZero := rfl
/-- The constant −∞, read anywhere. -/
theorem const_cNegInf (i : S_.Idx) : constant (F := Ideal) S_ .f32 0xFF800000#32 i = Gcn.cNegInf := rfl

/-! ## Broadcasts and row reductions at an index -/

/-- A single number spread over a whole array reads, anywhere, that number. -/
theorem scalar_spread_apply {t : Shape} (dims : Fin S_.rank → Fin t.rank) (hb : S_.BroadcastsInDim t dims) (c : S_.Idx → EReal) (j : t.Idx) :
    broadcastInDim t dims hb c j = c ix0 :=
  broadcastInDim_apply dims hb c j ix0 fun ax => ax.elim0

/-- A value per (batch entry, node), given a unit last axis and spread over 512 lanes, reads at (bb, n, m) the value at (bb, n). -/
theorem row_spread_apply (v : S16x512.Idx → EReal) (bb : Fin 16) (n m : Fin 512) :
    broadcastInDim S16x512x512 ![0, 1, 2] bcast_S16x512x1_S16x512x512_0_1_2
      (broadcastInDim S16x512x1 ![0, 1] bcast_S16x512_S16x512x1_0_1 v) (ix3 bb n m) = v (ix2 bb n) := by
  refine (broadcastInDim_apply _ _ _ (ix3 bb n m) (ix3 bb n (0 : Fin 1)) fun ax => ?_).trans ?_
  · match ax with
    | ⟨0, _⟩ => rfl
    | ⟨1, _⟩ => rfl
    | ⟨2, _⟩ => rfl
  · refine broadcastInDim_apply _ _ _ (ix3 bb n (0 : Fin 1)) (ix2 bb n) fun ax => ?_
    match ax with
    | ⟨0, _⟩ => rfl
    | ⟨1, _⟩ => rfl

/-- The bias row, given two unit leading axes and spread over batch entries and nodes, reads at (bb, n, h) the bias at h. -/
theorem bias_spread_apply (v : S256.Idx → EReal) (bb : Fin 16) (n : Fin 512) (h : Fin 256) :
    broadcastInDim S16x512x256 ![0, 1, 2] bcast_S1x1x256_S16x512x256_0_1_2
      (broadcastInDim S1x1x256 ![2] bcast_S256_S1x1x256_2 v) (ix3 bb n h) = v (ix1 h) := by
  refine (broadcastInDim_apply _ _ _ (ix3 bb n h) (ix3 (0 : Fin 1) (0 : Fin 1) h) fun ax => ?_).trans ?_
  · match ax with
    | ⟨0, _⟩ => rfl
    | ⟨1, _⟩ => rfl
    | ⟨2, _⟩ => rfl
  · refine broadcastInDim_apply _ _ _ (ix3 (0 : Fin 1) (0 : Fin 1) h) (ix1 h) fun ax => ?_
    match ax with
    | ⟨0, _⟩ => rfl

/-- The index a reduction over the last axis reads: batch entry bb, node n, lane m. -/
theorem lift_last (hr : S16x512x512.Reduces [2] S16x512) (bb : Fin 16) (n m : Fin 512) : hr.lift (ix2 bb n) m = ix3 bb n m :=
  funext fun ax => Fin.ext (by
    match ax with
    | ⟨0, _⟩ => rfl
    | ⟨1, _⟩ => rfl
    | ⟨2, _⟩ => rfl)

/-- The maximum over the last axis at (bb, n): the maximum, from the initial value on, of the 512 lanes. -/
theorem rowMax_apply (s : FVec Ideal S16x512x512 .f32) (init : FVec Ideal S_ .f32) (bb : Fin 16) (n : Fin 512) :
    Host.reduce FloatOps.maximumf s init reducesTo_S16x512x512_S16x512_d2 h_S_ (ix2 bb n)
      = (Finset.univ : Finset (Fin 512)).fold max (init ix0) (fun m => s (ix3 bb n m)) := by
  refine (Host.reduce_eq_fold_single FloatOps.maximumf s init reducesTo_S16x512x512_S16x512_d2
    (by decide : S16x512x512.Reduces [2] S16x512) h_S_ (ix2 bb n)).trans ?_
  exact congrArg₂ (fun (c : EReal) (f : Fin 512 → EReal) => (Finset.univ : Finset (Fin 512)).fold max c f)
    (congrArg init (eq_ix0 _)) (funext fun m => congrArg s (lift_last _ bb n m))

/-- The sum over the last axis at (bb, n): the initial value plus the sum of the 512 lanes. -/
theorem rowSum_apply (e : FVec Ideal S16x512x512 .f32) (init : FVec Ideal S_ .f32) (bb : Fin 16) (n : Fin 512) :
    Host.reduceAdd e init reducesTo_S16x512x512_S16x512_d2 h_S_ (ix2 bb n) = init ix0 + ∑ m : Fin 512, e (ix3 bb n m) := by
  simp only [Host.reduceAdd, Ideal.hostReduceAdd_def]
  refine (Ideal.hostReduceAdd_single reducesTo_S16x512x512_S16x512_d2 (by decide : S16x512x512.Reduces [2] S16x512) e _ (ix2 bb n)).trans ?_
  exact congrArg₂ (fun (c : EReal) (f : Fin 512 → EReal) => c + ∑ m : Fin 512, f m)
    (congrArg init (eq_ix0 _)) (funext fun m => congrArg e (lift_last _ bb n m))

/-! ## The stages of the step at an index -/

/-- The scores at (bb, n, m): the inner product of rows n and m of batch entry bb, divided by √256, clipped below at 0. -/
theorem stepScores_apply (xi : FVec Ideal S16x512x256 .f32) (bb : Fin 16) (n m : Fin 512) :
    stepScores (F := Ideal) xi (ix3 bb n m) = Gcn.scoreR (fun n d => xi (ix3 bb n d)) n m := by
  unfold stepScores Gcn.scoreR Gcn.gram
  rw [maximumf_apply, hostDivf_apply, gram_apply, scalar_spread_apply, scalar_spread_apply, hostSqrt_apply, const_c256, const_cZero]

/-- The row maximum at (bb, n): the maximum of the row's scores from −∞ on, compared once more with −∞. -/
theorem stepRowMax_apply (s : FVec Ideal S16x512x512 .f32) (bb : Fin 16) (n : Fin 512) :
    stepRowMax (F := Ideal) s (ix2 bb n)
      = max Gcn.cNegInf ((Finset.univ : Finset (Fin 512)).fold max Gcn.cNegInf (fun m => s (ix3 bb n m))) := by
  unfold stepRowMax
  rw [maximumf_apply, scalar_spread_apply, rowMax_apply, const_cNegInf]

/-- The unnormalized weight at (bb, n, m): the exponential of the score less its row's maximum. -/
theorem stepWeights_apply (s : FVec Ideal S16x512x512 .f32) (bb : Fin 16) (n m : Fin 512) :
    stepWeights (F := Ideal) s (ix3 bb n m) = Ideal.exp (s (ix3 bb n m) - stepRowMax (F := Ideal) s (ix2 bb n)) := by
  unfold stepWeights
  rw [hostExp_apply, subf_apply, row_spread_apply]

/-- The row sum at (bb, n): an explicit 0 plus the sum of the row's weights. -/
theorem stepRowSum_apply (e : FVec Ideal S16x512x512 .f32) (bb : Fin 16) (n : Fin 512) :
    stepRowSum (F := Ideal) e (ix2 bb n) = Gcn.cZero + ∑ m : Fin 512, e (ix3 bb n m) := by
  unfold stepRowSum
  rw [rowSum_apply, const_cZero]

/-- The softmax weight at (bb, n, m): the weight divided by its row's sum. -/
theorem stepSoftmax_apply (e : FVec Ideal S16x512x512 .f32) (bb : Fin 16) (n m : Fin 512) :
    stepSoftmax (F := Ideal) e (ix3 bb n m) = Ideal.div (e (ix3 bb n m)) (stepRowSum (F := Ideal) e (ix2 bb n)) := by
  unfold stepSoftmax
  rw [hostDivf_apply, row_spread_apply]

/-- The output at (bb, n, h): the weights aggregate the slice's features, the aggregate goes through W, the bias is
    added, and the result is clipped below at 0. -/
theorem stepOut_apply (a : FVec Ideal S16x512x512 .f32) (xi : FVec Ideal S16x512x256 .f32) (w : FVec Ideal S256x256 .f32)
    (b : FVec Ideal S256 .f32) (bb : Fin 16) (n : Fin 512) (h : Fin 256) :
    stepOut (F := Ideal) a xi w b (ix3 bb n h)
      = max ((∑ d : Fin 256, (∑ m : Fin 512, a (ix3 bb n m) * xi (ix3 bb m d)) * w (ix2 d h)) + b (ix1 h)) Gcn.cZero := by
  unfold stepOut
  rw [maximumf_apply, addf_apply, lin_apply, bias_spread_apply, scalar_spread_apply, const_cZero]
  simp only [aggr_apply]

/-! ## The step -/

/-- THE STEP at (bb, n, h): the layer's output at node n, feature h, for batch entry bb's slice, W and the bias. -/
theorem step_apply (xi : FVec Ideal S16x512x256 .f32) (w : FVec Ideal S256x256 .f32) (b : FVec Ideal S256 .f32)
    (bb : Fin 16) (n : Fin 512) (h : Fin 256) :
    step (F := Ideal) xi w b (ix3 bb n h)
      = Gcn.outR (fun n d => xi (ix3 bb n d)) (fun d h => w (ix2 d h)) (fun h => b (ix1 h)) n h := by
  unfold step
  rw [stepOut_apply]
  unfold Gcn.outR Gcn.aggR Gcn.denR Gcn.exR Gcn.rowMaxR
  simp only [stepSoftmax_apply, stepRowSum_apply, stepWeights_apply, stepRowMax_apply, stepScores_apply]

end Cert.ReferenceIdeal.RefValue

end
-- ==== Proof.RefResult.lean ====
/-
  The reference's result read at an index.

  The result is the join, along the time axis, of twelve pieces of extent one: piece tt is time step tt's result with a
  unit time axis put back. So the result at (bb, n, tt, h) is piece tt at (bb, n, 0, h), which is step tt's result at
  (bb, n, h), which is the layer's output — in the arrangement that divides each softmax weight by its row sum before it
  multiplies a feature — for the slice x[bb, ·, tt, ·]: time step tt's input at (bb, n, d) is the input at (bb, n, tt, d).
-/
import proofs.«114045_g54185307406482_cont_9to1_m_905_2_alg».proof.Proof.RefStep
import proofs.«114045_g54185307406482_cont_9to1_m_905_2_alg».proof.Proof.GcnSpec
import Idealize.ShloMosaic.Lib.ValueIdx
import Idealize.ShloMosaic.Lib.ValueLayout
import Idealize.ShloMosaic.Lib.Pipeline.Value
import Mathlib.Tactic.IntervalCases

noncomputable section

namespace Cert.ReferenceIdeal.RefValue

open Cert.ReferenceIdeal Cert.ReferenceIdeal.Gen Idealize.ShloMosaic Idealize.ShloMosaic.ValueIdx

/-- Time step k's slice at (bb, n, d) is the input at (bb, n, k, d). -/
theorem stepInput_apply (x : FVec Ideal S16x512x12x256 .f32) (k : Fin 12) (off : Fin 4 → Nat)
    (hs : S16x512x12x256.Slices off S16x512x1x256) (hoff : ∀ a, off a = (![0, 0, k.val, 0] : Fin 4 → Nat) a)
    (bb : Fin 16) (n : Fin 512) (d : Fin 256) :
    stepInput (F := Ideal) x off hs (ix3 bb n d) = x (ix4 bb n k d) := by
  unfold stepInput
  refine (shapeCast_apply _ _ (ix3 bb n d) (ix4 bb n (0 : Fin 1) d) (by
    rw [Shape.rowMajor_val_four, Shape.rowMajor_val_three]
    show ((bb.val * 512 + n.val) * 1 + 0) * 256 + d.val = (bb.val * 512 + n.val) * 256 + d.val
    omega)).trans ?_
  refine extractStridedSlice_apply off x hs (ix4 bb n (0 : Fin 1) d) (ix4 bb n k d) fun a => ?_
  rw [hoff a]
  match a with
  | ⟨0, _⟩ => show bb.val = 0 + bb.val; omega
  | ⟨1, _⟩ => show n.val = 0 + n.val; omega
  | ⟨2, _⟩ => show k.val = k.val + 0; omega
  | ⟨3, _⟩ => show d.val = 0 + d.val; omega

/-- A piece at (bb, n, 0, h) is the time step's result at (bb, n, h). -/
theorem stepPiece_apply (y : FVec Ideal S16x512x256 .f32) (bb : Fin 16) (n : Fin 512) (h : Fin 256) :
    stepPiece (F := Ideal) y (ix4 bb n (0 : Fin 1) h) = y (ix3 bb n h) := by
  unfold stepPiece
  refine broadcastInDim_apply _ _ y (ix4 bb n (0 : Fin 1) h) (ix3 bb n h) fun a => ?_
  match a with
  | ⟨0, _⟩ => exact (if_neg (show ¬ (16 : ℕ) = 1 by decide)).symm
  | ⟨1, _⟩ => exact (if_neg (show ¬ (512 : ℕ) = 1 by decide)).symm
  | ⟨2, _⟩ => exact (if_neg (show ¬ (256 : ℕ) = 1 by decide)).symm

/-- Off the time axis a piece's index has the result index's coordinates. -/
theorem off_axis (bb : Fin 16) (n : Fin 512) (tt : Fin 12) (h : Fin 256) :
    ∀ a : Fin S16x512x1x256.rank, a.cast (rfl : S16x512x1x256.rank = S16x512x12x256.rank) ≠ (2 : Fin 4)
      → ((ix4 bb n (0 : Fin 1) h) a).val = ((ix4 bb n tt h) (a.cast rfl)).val := fun a ha => by
  match a with
  | ⟨0, _⟩ => rfl
  | ⟨1, _⟩ => rfl
  | ⟨2, _⟩ => exact absurd rfl ha
  | ⟨3, _⟩ => rfl

section
variable (hstep : ∀ (xi : FVec Ideal S16x512x256 .f32) (w : FVec Ideal S256x256 .f32) (b : FVec Ideal S256 .f32)
    (bb : Fin 16) (n : Fin 512) (h : Fin 256),
    step (F := Ideal) xi w b (ix3 bb n h)
      = Gcn.outR (fun n d => xi (ix3 bb n d)) (fun d h => w (ix2 d h)) (fun h => b (ix1 h)) n h)
include hstep

/-- Piece k at (bb, n, 0, h): the layer's output for the slice x[bb, ·, k, ·]. -/
theorem piece_apply (x : FVec Ideal S16x512x12x256 .f32) (w : FVec Ideal S256x256 .f32) (b : FVec Ideal S256 .f32)
    (k : Fin 12) (off : Fin 4 → Nat) (hs : S16x512x12x256.Slices off S16x512x1x256)
    (hoff : ∀ a, off a = (![0, 0, k.val, 0] : Fin 4 → Nat) a) (bb : Fin 16) (n : Fin 512) (h : Fin 256) :
    stepPiece (F := Ideal) (step (stepInput x off hs) w b) (ix4 bb n (0 : Fin 1) h)
      = Gcn.outR (fun n d => x (ix4 bb n k d)) (fun d h => w (ix2 d h)) (fun h => b (ix1 h)) n h := by
  rw [stepPiece_apply, hstep]
  have hx : (fun (n : Fin 512) (d : Fin 256) => stepInput (F := Ideal) x off hs (ix3 bb n d)) = fun n d => x (ix4 bb n k d) :=
    funext fun n => funext fun d => stepInput_apply x k off hs hoff bb n d
  rw [hx]

set_option maxHeartbeats 2000000 in
/-- THE REFERENCE'S RESULT at (bb, n, tt, h): the layer's output for the slice x[bb, ·, tt, ·]. -/
theorem result_apply (x : FVec Ideal S16x512x12x256 .f32) (w : FVec Ideal S256x256 .f32) (b : FVec Ideal S256 .f32)
    (bb : Fin 16) (n : Fin 512) (tt : Fin 12) (h : Fin 256) :
    result (F := Ideal) x w b (ix4 bb n tt h)
      = Gcn.outR (fun n d => x (ix4 bb n tt d)) (fun d h => w (ix2 d h)) (fun h => b (ix1 h)) n h := by
  unfold result
  obtain ⟨k, hk⟩ := tt
  interval_cases k
  · refine Eq.trans ?_ (piece_apply hstep x w b (⟨0, hk⟩ : Fin 12) _ slices_S16x512x12x256_S16x512x1x256_0_0_0_0 (fun a => rfl) bb n h)
    refine concatenate_apply_piece (t := S16x512x12x256) 2 _ _ _ 0 ?_ S16x512x1x256 _ rfl rfl 0 rfl
      (ix4 bb n (0 : Fin 1) h) (off_axis bb n _ h) rfl
    show (0 : ℕ) < 12
    decide
  · refine Eq.trans ?_ (piece_apply hstep x w b (⟨1, hk⟩ : Fin 12) _ slices_S16x512x12x256_S16x512x1x256_0_0_1_0 (fun a => rfl) bb n h)
    refine concatenate_apply_piece (t := S16x512x12x256) 2 _ _ _ 1 ?_ S16x512x1x256 _ rfl rfl 1 rfl
      (ix4 bb n (0 : Fin 1) h) (off_axis bb n _ h) rfl
    show (1 : ℕ) < 12
    decide
  · refine Eq.trans ?_ (piece_apply hstep x w b (⟨2, hk⟩ : Fin 12) _ slices_S16x512x12x256_S16x512x1x256_0_0_2_0 (fun a => rfl) bb n h)
    refine concatenate_apply_piece (t := S16x512x12x256) 2 _ _ _ 2 ?_ S16x512x1x256 _ rfl rfl 2 rfl
      (ix4 bb n (0 : Fin 1) h) (off_axis bb n _ h) rfl
    show (2 : ℕ) < 12
    decide
  · refine Eq.trans ?_ (piece_apply hstep x w b (⟨3, hk⟩ : Fin 12) _ slices_S16x512x12x256_S16x512x1x256_0_0_3_0 (fun a => rfl) bb n h)
    refine concatenate_apply_piece (t := S16x512x12x256) 2 _ _ _ 3 ?_ S16x512x1x256 _ rfl rfl 3 rfl
      (ix4 bb n (0 : Fin 1) h) (off_axis bb n _ h) rfl
    show (3 : ℕ) < 12
    decide
  · refine Eq.trans ?_ (piece_apply hstep x w b (⟨4, hk⟩ : Fin 12) _ slices_S16x512x12x256_S16x512x1x256_0_0_4_0 (fun a => rfl) bb n h)
    refine concatenate_apply_piece (t := S16x512x12x256) 2 _ _ _ 4 ?_ S16x512x1x256 _ rfl rfl 4 rfl
      (ix4 bb n (0 : Fin 1) h) (off_axis bb n _ h) rfl
    show (4 : ℕ) < 12
    decide
  · refine Eq.trans ?_ (piece_apply hstep x w b (⟨5, hk⟩ : Fin 12) _ slices_S16x512x12x256_S16x512x1x256_0_0_5_0 (fun a => rfl) bb n h)
    refine concatenate_apply_piece (t := S16x512x12x256) 2 _ _ _ 5 ?_ S16x512x1x256 _ rfl rfl 5 rfl
      (ix4 bb n (0 : Fin 1) h) (off_axis bb n _ h) rfl
    show (5 : ℕ) < 12
    decide
  · refine Eq.trans ?_ (piece_apply hstep x w b (⟨6, hk⟩ : Fin 12) _ slices_S16x512x12x256_S16x512x1x256_0_0_6_0 (fun a => rfl) bb n h)
    refine concatenate_apply_piece (t := S16x512x12x256) 2 _ _ _ 6 ?_ S16x512x1x256 _ rfl rfl 6 rfl
      (ix4 bb n (0 : Fin 1) h) (off_axis bb n _ h) rfl
    show (6 : ℕ) < 12
    decide
  · refine Eq.trans ?_ (piece_apply hstep x w b (⟨7, hk⟩ : Fin 12) _ slices_S16x512x12x256_S16x512x1x256_0_0_7_0 (fun a => rfl) bb n h)
    refine concatenate_apply_piece (t := S16x512x12x256) 2 _ _ _ 7 ?_ S16x512x1x256 _ rfl rfl 7 rfl
      (ix4 bb n (0 : Fin 1) h) (off_axis bb n _ h) rfl
    show (7 : ℕ) < 12
    decide
  · refine Eq.trans ?_ (piece_apply hstep x w b (⟨8, hk⟩ : Fin 12) _ slices_S16x512x12x256_S16x512x1x256_0_0_8_0 (fun a => rfl) bb n h)
    refine concatenate_apply_piece (t := S16x512x12x256) 2 _ _ _ 8 ?_ S16x512x1x256 _ rfl rfl 8 rfl
      (ix4 bb n (0 : Fin 1) h) (off_axis bb n _ h) rfl
    show (8 : ℕ) < 12
    decide
  · refine Eq.trans ?_ (piece_apply hstep x w b (⟨9, hk⟩ : Fin 12) _ slices_S16x512x12x256_S16x512x1x256_0_0_9_0 (fun a => rfl) bb n h)
    refine concatenate_apply_piece (t := S16x512x12x256) 2 _ _ _ 9 ?_ S16x512x1x256 _ rfl rfl 9 rfl
      (ix4 bb n (0 : Fin 1) h) (off_axis bb n _ h) rfl
    show (9 : ℕ) < 12
    decide
  · refine Eq.trans ?_ (piece_apply hstep x w b (⟨10, hk⟩ : Fin 12) _ slices_S16x512x12x256_S16x512x1x256_0_0_10_0 (fun a => rfl) bb n h)
    refine concatenate_apply_piece (t := S16x512x12x256) 2 _ _ _ 10 ?_ S16x512x1x256 _ rfl rfl 10 rfl
      (ix4 bb n (0 : Fin 1) h) (off_axis bb n _ h) rfl
    show (10 : ℕ) < 12
    decide
  · refine Eq.trans ?_ (piece_apply hstep x w b (⟨11, hk⟩ : Fin 12) _ slices_S16x512x12x256_S16x512x1x256_0_0_11_0 (fun a => rfl) bb n h)
    refine concatenate_apply_piece (t := S16x512x12x256) 2 _ _ _ 11 ?_ S16x512x1x256 _ rfl rfl 11 rfl
      (ix4 bb n (0 : Fin 1) h) (off_axis bb n _ h) rfl
    show (11 : ℕ) < 12
    decide

end

end Cert.ReferenceIdeal.RefValue

end
-- ==== Proof.InputFinite.lean ====
/-
  What the precondition says of the input.

  The precondition is the conjunction of three tests, one per argument: every entry's absolute value is below +∞.
  An extended real whose absolute value is below +∞ is neither infinity, so it is a real number. Only the first
  argument's test is used: the two arrangements of the layer differ only where the slice's entries enter.
-/
import proofs.«114045_g54185307406482_cont_9to1_m_905_2_alg».proof.Pre_finite_inputs
import proofs.«114045_g54185307406482_cont_9to1_m_905_2_alg».proof.Proof.Gen.Pre_finite_inputs
import proofs.«114045_g54185307406482_cont_9to1_m_905_2_alg».proof.Proof.GcnSpec
import Idealize.ShloMosaic.Lib.ReduceAll
import Idealize.ShloMosaic.Lib.ValueIdx
import Idealize.ShloMosaic.PureOps.Ideal

noncomputable section

namespace Cert.Pre_finite_inputs.Finite

open Idealize.ShloMosaic Cert.Pre_finite_inputs Cert.Pre_finite_inputs.Gen

instance : Subsingleton S_.Idx := ⟨fun a b => funext fun d => d.elim0⟩

/-- An extended real whose absolute value compares below the pattern of +∞ is a real number. -/
theorem real_of_abs_lt_top (x : EReal) (h : Ideal.cmp .olt (max x (-x)) (Ideal.ofBits .f32 0x7F800000#32) = 1#1) :
    ∃ r : ℝ, x = (r : EReal) := by
  rw [Gcn.ofBits_posInf] at h
  induction x using EReal.rec with
  | bot => simp [Ideal.cmp] at h
  | top => simp [Ideal.cmp] at h
  | coe r => exact ⟨r, rfl⟩

/-- Under the precondition every entry of the first argument is a real number. -/
theorem input_real (x : FVec Ideal S16x512x12x256 .f32) (w : FVec Ideal S256x256 .f32) (b : FVec Ideal S256 .f32)
    (h : fn (F := Ideal) x w b = fun _ => 1#1) (i : S16x512x12x256.Idx) : ∃ r : ℝ, x i = (r : EReal) := by
  have h0 := congrFun h ValueIdx.ix0
  dsimp only [fn] at h0
  obtain ⟨h01, -⟩ := IntOp.andi_eq_one.1 h0
  obtain ⟨hx, -⟩ := IntOp.andi_eq_one.1 h01
  exact real_of_abs_lt_top (x i) (Host.reduce_andi_all _ _ _ _ _ hx i)

end Cert.Pre_finite_inputs.Finite

end
-- ==== Proof.lean ====
/-
  The certificate: the kernel's program and the reference compute the same result on finite inputs.

  Both programs apply, to every slice x[bb, ·, tt, ·] of 512 nodes by 256 features (16 batch entries, 12 time steps),
  one graph-convolution layer whose adjacency is the softmax of the clipped, scaled Gram matrix of the slice. The
  kernel's program runs one grid point per slice on a [16, 512, 3072] view of the input and of the output; its result
  at (bb, n, tt, h) is the layer's output for that slice at node n, feature h, with the Gram matrix multiplied by 1/16
  and the aggregate divided by the softmax's row sum afterwards. The reference cuts the twelve time steps out one by
  one, applies the layer to all batch entries at once with batched products, divides the Gram matrix by √256 and each
  softmax weight by its row sum before it multiplies a feature, and joins the twelve results along the time axis;
  its result at (bb, n, tt, h) is the layer's output for the same slice in that second arrangement. Multiplying by 1/16
  and dividing by √256 are one operation on every extended real; the two placements of the division agree as soon as
  the row sum is a positive real, which it is when the slice's entries are real numbers — what the precondition says
  of the first argument.

  The three frames: the kernel's (at the word-level and at the ideal values) are the generated frame certificates;
  the reference's is its run with the result dropped. The idealization rewrote nothing, so nothing is to be preserved.
-/
import proofs.«114045_g54185307406482_cont_9to1_m_905_2_alg».proof.Defs
import proofs.«114045_g54185307406482_cont_9to1_m_905_2_alg».proof.Proof.Gen.Kernel
import proofs.«114045_g54185307406482_cont_9to1_m_905_2_alg».proof.Proof.Gen.Kernel.Skeleton
import proofs.«114045_g54185307406482_cont_9to1_m_905_2_alg».proof.Proof.Gen.Kernel.Launch
import proofs.«114045_g54185307406482_cont_9to1_m_905_2_alg».proof.Proof.Gen.Kernel.Points
import proofs.«114045_g54185307406482_cont_9to1_m_905_2_alg».proof.Proof.Gen.Kernel.Frame
import proofs.«114045_g54185307406482_cont_9to1_m_905_2_alg».proof.Proof.Gen.KernelIdeal
import proofs.«114045_g54185307406482_cont_9to1_m_905_2_alg».proof.Proof.Gen.KernelIdeal.Skeleton
import proofs.«114045_g54185307406482_cont_9to1_m_905_2_alg».proof.Proof.Gen.KernelIdeal.Launch
import proofs.«114045_g54185307406482_cont_9to1_m_905_2_alg».proof.Proof.Gen.KernelIdeal.Points
import proofs.«114045_g54185307406482_cont_9to1_m_905_2_alg».proof.Proof.Gen.KernelIdeal.Frame
import proofs.«114045_g54185307406482_cont_9to1_m_905_2_alg».proof.Proof.Gen.ReferenceIdeal
import proofs.«114045_g54185307406482_cont_9to1_m_905_2_alg».proof.Proof.Gen.Pre_finite_inputs
import proofs.«114045_g54185307406482_cont_9to1_m_905_2_alg».proof.Proof.KernelValue
import proofs.«114045_g54185307406482_cont_9to1_m_905_2_alg».proof.Proof.RefRun
import proofs.«114045_g54185307406482_cont_9to1_m_905_2_alg».proof.Proof.RefStepRead
import proofs.«114045_g54185307406482_cont_9to1_m_905_2_alg».proof.Proof.RefResult
import proofs.«114045_g54185307406482_cont_9to1_m_905_2_alg».proof.Proof.InputFinite
import Idealize.ShloMosaic.Adequacy
import Idealize.ShloMosaic.Init

noncomputable section

namespace Cert.Proof

open Idealize.ShloMosaic Idealize.ShloMosaic.ValueIdx Idealize.SL.Sem

/-- On an input whose entries are real numbers the reference's joined result is the kernel's result array: at every
    index both are the layer's output for the index's slice, in two arrangements that agree on real slices. -/
theorem result_eq_spec (x : Cert.KernelIdeal.S16x512x12x256.Idx → EReal) (w : Cert.KernelIdeal.S256x256.Idx → EReal)
    (b : Cert.KernelIdeal.S256.Idx → EReal)
    (hfin : ∀ i, ∃ r : ℝ, x i = (r : EReal)) :
    Cert.ReferenceIdeal.RefValue.result (F := Ideal) x w b = Cert.KernelIdeal.GcnValue.spec x w b := by
  funext i
  obtain ⟨bb, n, tt, h, rfl⟩ : ∃ (bb : Fin 16) (n : Fin 512) (tt : Fin 12) (h : Fin 256), i = ix4 bb n tt h :=
    ⟨i 0, i 1, i 2, i 3, eq_ix4 i⟩
  rw [Cert.ReferenceIdeal.RefValue.result_apply Cert.ReferenceIdeal.RefValue.step_apply]
  show _ = Cert.KernelIdeal.GcnValue.specAt x w b bb n tt h
  unfold Cert.KernelIdeal.GcnValue.specAt
  exact Gcn.outR_eq _ (fun n d => hfin _) _ _ n h

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- From memories that agree on the arguments both runs end, with one result: the kernel's run ends at the layer's
    output slice by slice, the reference's at the join of its twelve time steps, and the two arrays are equal because
    the precondition makes the input's entries real. -/
theorem algebraic : Cert.algebraic_KernelIdeal_ReferenceIdeal := by
  intro m ρ m' ρ' hpre hagree
  refine ⟨_, Cert.KernelIdeal.GcnValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  exact result_eq_spec _ _ _ (Cert.Pre_finite_inputs.Finite.input_real _ _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
